-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000x40 : Shape := ⟨2, ![100000, 40]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x40 : S_.BroadcastsInDim S100000x40 (![] : Fin 0 → Fin S100000x40.rank)
  reducesTo_S100000x40_S_d0_1 : S100000x40.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40 .f32) (main_arg9 : FVec F S64x40 .f32) (main_arg10 : FVec F S40 .f32) (main_v33 : IVec S_ 1) : IVec S_ 1 :=
  let main_v34 : FVec F S40 .f32 := Host.absf main_arg8
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  let main_v39 : FVec F S64x40 .f32 := Host.absf main_arg9
  let main_cst_14 : FVec F S_ .f32 := constant S_ .f32 0x7F800000#32
  let main_v40 : FVec F S64x40 .f32 := broadcastInDim S64x40 ![] bcast_S_S64x40 main_cst_14
  let main_v41 : IVec S64x40 1 := cmpf .olt main_v39 main_v40
  let main_c_15 : IVec S_ 1 := constantI S_ 1 1#1
  let main_v42 : IVec S_ 1 := (fun x v => Host.reduce IntOp.andi x v reducesTo_S64x40_S_d0_1 h_S_) main_v41 main_c_15
  let main_v43 : IVec S_ 1 := andi main_v38 main_v42
  let main_v44 : FVec F S40 .f32 := Host.absf main_arg10
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg5 : FVec F S128x64 .f32) (main_arg6 : FVec F S64 .f32) (main_arg7 : FVec F S64x40 .f32) (main_arg8 : FVec F S40 .f32) (main_arg9 : FVec F S64x40 .f32) (main_arg10 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x40 .f32 := Host.absf main_arg7
  let main_cst_10 : FVec F S_ .f32 := constant S_ .f32 0x7F800000#32
  let main_v30 : FVec F S64x40 .f32 := broadcastInDim S64x40 ![] bcast_S_S64x40 main_cst_10
  let main_v31 : IVec S64x40 1 := cmpf .olt main_v29 main_v30
  let main_c_11 : IVec S_ 1 := constantI S_ 1 1#1
  let main_v32 : IVec S_ 1 := (fun x v => Host.reduce IntOp.andi x v reducesTo_S64x40_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S100000x40 .f32) (main_arg3 : FVec F S128x64 .f32) (main_arg4 : FVec F S64 .f32) (main_arg5 : FVec F S128x64 .f32) (main_arg6 : FVec F S64 .f32) (main_arg7 : FVec F S64x40 .f32) (main_arg8 : FVec F S40 .f32) (main_arg9 : FVec F S64x40 .f32) (main_arg10 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x40 .f32 := Host.absf main_arg2
  let main_cst_0 : FVec F S_ .f32 := constant S_ .f32 0x7F800000#32
  let main_v5 : FVec F S100000x40 .f32 := broadcastInDim S100000x40 ![] bcast_S_S100000x40 main_cst_0
  let main_v6 : IVec S100000x40 1 := cmpf .olt main_v4 main_v5
  let main_c_1 : IVec S_ 1 := constantI S_ 1 1#1
  let main_v7 : IVec S_ 1 := (fun x v => Host.reduce IntOp.andi x v reducesTo_S100000x40_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000x40 : Shape := ⟨2, ![100000, 40]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S5000x40 : Shape := ⟨2, ![5000, 40]⟩
abbrev S5000x64 : Shape := ⟨2, ![5000, 64]⟩
abbrev S1x64 : Shape := ⟨2, ![1, 64]⟩
abbrev S1x40 : Shape := ⟨2, ![1, 40]⟩
abbrev S1700000x40 : Shape := ⟨2, ![1700000, 40]⟩
abbrev S10000x40 : Shape := ⟨2, ![10000, 40]⟩
abbrev S10000 : Shape := ⟨1, ![10000]⟩
abbrev S10000x1 : Shape := ⟨2, ![10000, 1]⟩

abbrev nBuf : Space → Nat
  | .hbm => 123
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000x40, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S64x40, .f32⟩
  | .hbm, ⟨8, _⟩ => ⟨S40, .f32⟩
  | .hbm, ⟨9, _⟩ => ⟨S64x40, .f32⟩
  | .hbm, ⟨10, _⟩ => ⟨S40, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S_, .f32⟩
  | .hbm, ⟨54, _⟩ => ⟨S1700000, .f32⟩
  | .hbm, ⟨55, _⟩ => ⟨S_, .f32⟩
  | .hbm, ⟨56, _⟩ => ⟨S100000, .f32⟩
  | .hbm, ⟨57, _⟩ => ⟨S1700000x1, .i32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S100000, .i1⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S_, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000, .f32⟩
  | .hbm, ⟨87, _⟩ => ⟨S1700000, .f32⟩
  | .hbm, ⟨88, _⟩ => ⟨S100000x40, .f32⟩
  | .hbm, ⟨89, _⟩ => ⟨S100000x40, .f32⟩
  | .hbm, ⟨90, _⟩ => ⟨S1700000x1, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000x40, .f32⟩
  | .hbm, ⟨100, _⟩ => ⟨S1700000x40, .f32⟩
  | .hbm, ⟨101, _⟩ => ⟨S1700000x40, .f32⟩
  | .hbm, ⟨102, _⟩ => ⟨S_, .f32⟩
  | .hbm, ⟨103, _⟩ => ⟨S100000x40, .f32⟩
  | .hbm, ⟨104, _⟩ => ⟨S1700000x1, .i32⟩
  | .hbm, ⟨105, _⟩ => ⟨S100000x40, .f32⟩
  | .hbm, ⟨106, _⟩ => ⟨S1700000x1, .f32⟩
  | .hbm, ⟨107, _⟩ => ⟨S_, .i32⟩
  | .hbm, ⟨108, _⟩ => ⟨S1700000, .i32⟩
  | .hbm, ⟨109, _⟩ => ⟨S1700000, .i1⟩
  | .hbm, ⟨110, _⟩ => ⟨S_, .i32⟩
  | .hbm, ⟨111, _⟩ => ⟨S1700000, .i32⟩
  | .hbm, ⟨112, _⟩ => ⟨S1700000, .i32⟩
  | .hbm, ⟨113, _⟩ => ⟨S1700000, .i32⟩
  | .hbm, ⟨114, _⟩ => ⟨S1700000x1, .i32⟩
  | .hbm, ⟨115, _⟩ => ⟨S1700000x40, .f32⟩
  | .hbm, ⟨116, _⟩ => ⟨S1700000x40, .f32⟩
  | .hbm, ⟨117, _⟩ => ⟨S1700000x40, .f32⟩
  | .hbm, ⟨118, _⟩ => ⟨S_, .f32⟩
  | .hbm, ⟨119, _⟩ => ⟨S100000x40, .f32⟩
  | .hbm, ⟨120, _⟩ => ⟨S1700000x1, .i32⟩
  | .hbm, ⟨121, _⟩ => ⟨S100000x40, .f32⟩
  | .hbm, ⟨122, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S64, .f32⟩
  | .local _ .vmem, ⟨4, _⟩ => ⟨S128x64, .f32⟩
  | .local _ .vmem, ⟨5, _⟩ => ⟨S64, .f32⟩
  | .local _ .vmem, ⟨6, _⟩ => ⟨S64x40, .f32⟩
  | .local _ .vmem, ⟨7, _⟩ => ⟨S40, .f32⟩
  | .local _ .vmem, ⟨8, _⟩ => ⟨S64x40, .f32⟩
  | .local _ .vmem, ⟨9, _⟩ => ⟨S40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S5000x40, .f32⟩
  | .local _ .vmem, ⟨14, _⟩ => ⟨S10000x40, .f32⟩
  | .local _ .vmem, ⟨15, _⟩ => ⟨S10000x40, .f32⟩
  | .local _ .vmem, ⟨16, _⟩ => ⟨S10000x40, .f32⟩
  | .local _ .vmem, ⟨17, _⟩ => ⟨S10000x40, .f32⟩
  | .local _ .vmem, ⟨18, _⟩ => ⟨S10000x40, .f32⟩
  | .local _ .vmem, ⟨19, _⟩ => ⟨S10000x40, .f32⟩
  | .local _ .vmem, ⟨20, _⟩ => ⟨S10000x40, .f32⟩
  | .local _ .vmem, ⟨21, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_cst_10 : Ref sig .tc := ⟨.hbm, 62, rfl⟩
abbrev main_v37 : Ref sig .tc := ⟨.hbm, 63, rfl⟩
abbrev main_v38 : Ref sig .tc := ⟨.hbm, 64, rfl⟩
abbrev main_cst_11 : Ref sig .tc := ⟨.hbm, 65, rfl⟩
abbrev main_call1_v0 : Ref sig .tc := ⟨.hbm, 66, rfl⟩
abbrev main_call1_v1 : Ref sig .tc := ⟨.hbm, 67, rfl⟩
abbrev main_v39 : Ref sig .tc := ⟨.hbm, 68, rfl⟩
abbrev main_c_12 : Ref sig .tc := ⟨.hbm, 69, rfl⟩
abbrev main_v40 : Ref sig .tc := ⟨.hbm, 70, rfl⟩
abbrev main_v41 : Ref sig .tc := ⟨.hbm, 71, rfl⟩
abbrev main_c_13 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_14 : Ref sig .tc := ⟨.hbm, 78, rfl⟩
abbrev main_v47 : Ref sig .tc := ⟨.hbm, 79, rfl⟩
abbrev main_v48 : Ref sig .tc := ⟨.hbm, 80, rfl⟩
abbrev main_c_15 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55_0 : Ref sig .tc := ⟨.hbm, 88, rfl⟩
abbrev main_v55_1 : Ref sig .tc := ⟨.hbm, 89, rfl⟩
abbrev main_v56 : Ref sig .tc := ⟨.hbm, 90, rfl⟩
abbrev main_c_16 : Ref sig .tc := ⟨.hbm, 91, rfl⟩
abbrev main_v57 : Ref sig .tc := ⟨.hbm, 92, rfl⟩
abbrev main_v58 : Ref sig .tc := ⟨.hbm, 93, rfl⟩
abbrev main_c_17 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_18 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_19 : Ref sig .tc := ⟨.hbm, 107, rfl⟩
abbrev main_v70 : Ref sig .tc := ⟨.hbm, 108, rfl⟩
abbrev main_v71 : Ref sig .tc := ⟨.hbm, 109, rfl⟩
abbrev main_c_20 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_21 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S40 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x40 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S5000x40 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x40 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  dot_S5000x64_S64x40_S5000x40_1_0_0_1_n_n_wf : DotDims.WF S5000x64 S64x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x40.size a ≤ S64x40.size a
  hwx0_5 : ∀ i : grid0.Coords, EltTy.bits .f32 = 32 ∨ (Rect.block (s := S64x40) S64x40.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S40.size a ≤ S40.size a
  hwx0_6 : ∀ i : grid0.Coords, EltTy.bits .f32 = 32 ∨ (Rect.block (s := S40) S40.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x40.size a ≤ S64x40.size a
  hwx0_7 : ∀ i : grid0.Coords, EltTy.bits .f32 = 32 ∨ (Rect.block (s := S64x40) S64x40.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S40.size a ≤ S40.size a
  hwx0_8 : ∀ i : grid0.Coords, EltTy.bits .f32 = 32 ∨ (Rect.block (s := S40) S40.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x40.size a ≤ S100000x40.size a
  hwx0_9 : ∀ i : grid0.Coords, EltTy.bits .f32 = 32 ∨ (Rect.block (s := S100000x40) S5000x40.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x40.size a ≤ S100000x40.size a
  hwx0_10 : ∀ i : grid0.Coords, EltTy.bits .f32 = 32 ∨ (Rect.block (s := S100000x40) S5000x40.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x40.size a ≤ S100000x40.size a
  hwx1_0 : ∀ i : grid1.Coords, EltTy.bits .f32 = 32 ∨ (Rect.block (s := S100000x40) S10000x40.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x40.size a ≤ S100000x40.size a
  hwx1_1 : ∀ i : grid1.Coords, EltTy.bits .f32 = 32 ∨ (Rect.block (s := S100000x40) S10000x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x40.size a ≤ S100000x40.size a
  hwx1_2 : ∀ i : grid1.Coords, EltTy.bits .f32 = 32 ∨ (Rect.block (s := S100000x40) S10000x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x40.size a ≤ S100000x40.size a
  hwx1_3 : ∀ i : grid1.Coords, EltTy.bits .f32 = 32 ∨ (Rect.block (s := S100000x40) S10000x40.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S64x40.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S40.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v55_0) S5000x40.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v55_1) S5000x40.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v68) S10000x40.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v81) S10000x40.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S10000x40.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v82) S10000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000x40 : Shape := ⟨2, ![100000, 40]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1x64 : Shape := ⟨2, ![1, 64]⟩
abbrev S1x40 : Shape := ⟨2, ![1, 40]⟩
abbrev S1700000x40 : Shape := ⟨2, ![1700000, 40]⟩
abbrev S100000x1 : Shape := ⟨2, ![100000, 1]⟩

abbrev nBuf : Space → Nat
  | .hbm => 198
  | .vmem => 0
  | .smem => 0
  | _ => 0

abbrev hbmTy0_0 (i : Nat) : BufTy := match i % 128 with
  | 0 => ⟨S100000x128, .f32⟩
  | 1 => ⟨S2x1600000, .i32⟩
  | 2 => ⟨S100000x40, .f32⟩
  | 3 => ⟨S128x64, .f32⟩
  | 4 => ⟨S64, .f32⟩
  | 5 => ⟨S128x64, .f32⟩
  | 6 => ⟨S64, .f32⟩
  | 7 => ⟨S64x40, .f32⟩
  | 8 => ⟨S40, .f32⟩
  | 9 => ⟨S64x40, .f32⟩
  | 10 => ⟨S40, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S_, .f32⟩
  | 54 => ⟨S1700000, .f32⟩
  | 55 => ⟨S_, .f32⟩
  | 56 => ⟨S100000, .f32⟩
  | 57 => ⟨S1700000x1, .i32⟩
  | 58 => ⟨S100000, .f32⟩
  | 59 => ⟨S_, .f32⟩
  | 60 => ⟨S100000, .f32⟩
  | 61 => ⟨S100000, .i1⟩
  | 62 => ⟨S_, .f32⟩
  | 63 => ⟨S100000, .f32⟩
  | 64 => ⟨S100000, .f32⟩
  | 65 => ⟨S_, .f32⟩
  | 66 => ⟨S_, .f32⟩
  | 67 => ⟨S100000, .f32⟩
  | 68 => ⟨S100000, .f32⟩
  | 69 => ⟨S_, .i32⟩
  | 70 => ⟨S1700000, .i32⟩
  | 71 => ⟨S1700000, .i1⟩
  | 72 => ⟨S_, .i32⟩
  | 73 => ⟨S1700000, .i32⟩
  | 74 => ⟨S1700000, .i32⟩
  | 75 => ⟨S1700000, .i32⟩
  | 76 => ⟨S1700000x1, .i32⟩
  | 77 => ⟨S1700000, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000, .f32⟩
  | 87 => ⟨S1700000, .f32⟩
  | 88 => ⟨S100000x64, .f32⟩
  | 89 => ⟨S1x64, .f32⟩
  | 90 => ⟨S100000x64, .f32⟩
  | 91 => ⟨S100000x64, .f32⟩
  | 92 => ⟨S_, .f32⟩
  | 93 => ⟨S100000x64, .f32⟩
  | 94 => ⟨S100000x64, .i1⟩
  | 95 => ⟨S_, .f32⟩
  | 96 => ⟨S100000x64, .f32⟩
  | 97 => ⟨S100000x64, .i1⟩
  | 98 => ⟨S_, .f32⟩
  | 99 => ⟨S_, .f32⟩
  | 100 => ⟨S100000x64, .f32⟩
  | 101 => ⟨S100000x64, .f32⟩
  | 102 => ⟨S100000x64, .f32⟩
  | 103 => ⟨S_, .f32⟩
  | 104 => ⟨S100000x64, .f32⟩
  | 105 => ⟨S100000x64, .f32⟩
  | 106 => ⟨S100000x64, .f32⟩
  | 107 => ⟨S100000x64, .f32⟩
  | 108 => ⟨S1x64, .f32⟩
  | 109 => ⟨S100000x64, .f32⟩
  | 110 => ⟨S100000x64, .f32⟩
  | 111 => ⟨S_, .f32⟩
  | 112 => ⟨S100000x64, .f32⟩
  | 113 => ⟨S100000x64, .f32⟩
  | 114 => ⟨S100000x40, .f32⟩
  | 115 => ⟨S1x40, .f32⟩
  | 116 => ⟨S100000x40, .f32⟩
  | 117 => ⟨S100000x40, .f32⟩
  | 118 => ⟨S_, .f32⟩
  | 119 => ⟨S100000x40, .f32⟩
  | 120 => ⟨S100000x40, .i1⟩
  | 121 => ⟨S_, .f32⟩
  | 122 => ⟨S100000x40, .f32⟩
  | 123 => ⟨S100000x40, .i1⟩
  | 124 => ⟨S_, .f32⟩
  | 125 => ⟨S_, .f32⟩
  | 126 => ⟨S100000x40, .f32⟩
  | 127 => ⟨S100000x40, .f32⟩
  | _ => ⟨S100000x128, .f32⟩

abbrev hbmTy0_1 (i : Nat) : BufTy := match i % 128 with
  | 0 => ⟨S100000x40, .f32⟩
  | 1 => ⟨S_, .f32⟩
  | 2 => ⟨S100000x40, .f32⟩
  | 3 => ⟨S100000x40, .f32⟩
  | 4 => ⟨S100000x40, .f32⟩
  | 5 => ⟨S100000x40, .f32⟩
  | 6 => ⟨S1x40, .f32⟩
  | 7 => ⟨S100000x40, .f32⟩
  | 8 => ⟨S100000x40, .f32⟩
  | 9 => ⟨S_, .f32⟩
  | 10 => ⟨S100000x40, .f32⟩
  | 11 => ⟨S100000x40, .f32⟩
  | 12 => ⟨S_, .f32⟩
  | 13 => ⟨S100000x40, .f32⟩
  | 14 => ⟨S100000x40, .f32⟩
  | 15 => ⟨S100000x40, .f32⟩
  | 16 => ⟨S100000x40, .f32⟩
  | 17 => ⟨S100000x40, .f32⟩
  | 18 => ⟨S100000x40, .f32⟩
  | 19 => ⟨S100000x40, .f32⟩
  | 20 => ⟨S1700000x1, .f32⟩
  | 21 => ⟨S_, .i32⟩
  | 22 => ⟨S1700000, .i32⟩
  | 23 => ⟨S1700000, .i1⟩
  | 24 => ⟨S_, .i32⟩
  | 25 => ⟨S1700000, .i32⟩
  | 26 => ⟨S1700000, .i32⟩
  | 27 => ⟨S1700000, .i32⟩
  | 28 => ⟨S1700000x1, .i32⟩
  | 29 => ⟨S1700000x40, .f32⟩
  | 30 => ⟨S1700000x40, .f32⟩
  | 31 => ⟨S1700000x40, .f32⟩
  | 32 => ⟨S_, .f32⟩
  | 33 => ⟨S100000x40, .f32⟩
  | 34 => ⟨S1700000x1, .i32⟩
  | 35 => ⟨S100000x40, .f32⟩
  | 36 => ⟨S1700000x1, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000x40, .f32⟩
  | 46 => ⟨S1700000x40, .f32⟩
  | 47 => ⟨S1700000x40, .f32⟩
  | 48 => ⟨S_, .f32⟩
  | 49 => ⟨S100000x40, .f32⟩
  | 50 => ⟨S1700000x1, .i32⟩
  | 51 => ⟨S100000x40, .f32⟩
  | 52 => ⟨S100000x40, .f32⟩
  | 53 => ⟨S100000x40, .f32⟩
  | 54 => ⟨S100000x40, .f32⟩
  | 55 => ⟨S_, .f32⟩
  | 56 => ⟨S100000, .f32⟩
  | 57 => ⟨S_, .f32⟩
  | 58 => ⟨S100000, .f32⟩
  | 59 => ⟨S100000, .f32⟩
  | 60 => ⟨S100000x1, .f32⟩
  | 61 => ⟨S100000x40, .f32⟩
  | 62 => ⟨S100000x40, .f32⟩
  | 63 => ⟨S100000x40, .f32⟩
  | 64 => ⟨S_, .f32⟩
  | 65 => ⟨S100000, .f32⟩
  | 66 => ⟨S100000x1, .f32⟩
  | 67 => ⟨S100000x1, .f32⟩
  | 68 => ⟨S100000x40, .f32⟩
  | 69 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_cst_10 : Ref sig .tc := ⟨.hbm, 62, rfl⟩
abbrev main_v37 : Ref sig .tc := ⟨.hbm, 63, rfl⟩
abbrev main_v38 : Ref sig .tc := ⟨.hbm, 64, rfl⟩
abbrev main_cst_11 : Ref sig .tc := ⟨.hbm, 65, rfl⟩
abbrev main_call1_v0 : Ref sig .tc := ⟨.hbm, 66, rfl⟩
abbrev main_call1_v1 : Ref sig .tc := ⟨.hbm, 67, rfl⟩
abbrev main_v39 : Ref sig .tc := ⟨.hbm, 68, rfl⟩
abbrev main_c_12 : Ref sig .tc := ⟨.hbm, 69, rfl⟩
abbrev main_v40 : Ref sig .tc := ⟨.hbm, 70, rfl⟩
abbrev main_v41 : Ref sig .tc := ⟨.hbm, 71, rfl⟩
abbrev main_c_13 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_14 : Ref sig .tc := ⟨.hbm, 78, rfl⟩
abbrev main_v47 : Ref sig .tc := ⟨.hbm, 79, rfl⟩
abbrev main_v48 : Ref sig .tc := ⟨.hbm, 80, rfl⟩
abbrev main_c_15 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_call2_cst : Ref sig .tc := ⟨.hbm, 92, rfl⟩
abbrev main_call2_v0 : Ref sig .tc := ⟨.hbm, 93, rfl⟩
abbrev main_call2_v1 : Ref sig .tc := ⟨.hbm, 94, rfl⟩
abbrev main_call2_cst_0 : Ref sig .tc := ⟨.hbm, 95, rfl⟩
abbrev main_call2_v2 : Ref sig .tc := ⟨.hbm, 96, rfl⟩
abbrev main_call2_v3 : Ref sig .tc := ⟨.hbm, 97, rfl⟩
abbrev main_call2_cst_1 : Ref sig .tc := ⟨.hbm, 98, rfl⟩
abbrev main_call2_call0_v0 : Ref sig .tc := ⟨.hbm, 99, rfl⟩
abbrev main_call2_call0_v1 : Ref sig .tc := ⟨.hbm, 100, rfl⟩
abbrev main_call2_v4 : Ref sig .tc := ⟨.hbm, 101, rfl⟩
abbrev main_call2_v5 : Ref sig .tc := ⟨.hbm, 102, rfl⟩
abbrev main_call2_cst_2 : Ref sig .tc := ⟨.hbm, 103, rfl⟩
abbrev main_call2_v6 : Ref sig .tc := ⟨.hbm, 104, rfl⟩
abbrev main_call2_v7 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_call3_cst : Ref sig .tc := ⟨.hbm, 111, rfl⟩
abbrev main_call3_v0 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_call4_cst : Ref sig .tc := ⟨.hbm, 118, rfl⟩
abbrev main_call4_v0 : Ref sig .tc := ⟨.hbm, 119, rfl⟩
abbrev main_call4_v1 : Ref sig .tc := ⟨.hbm, 120, rfl⟩
abbrev main_call4_cst_0 : Ref sig .tc := ⟨.hbm, 121, rfl⟩
abbrev main_call4_v2 : Ref sig .tc := ⟨.hbm, 122, rfl⟩
abbrev main_call4_v3 : Ref sig .tc := ⟨.hbm, 123, rfl⟩
abbrev main_call4_cst_1 : Ref sig .tc := ⟨.hbm, 124, rfl⟩
abbrev main_call4_call0_v0 : Ref sig .tc := ⟨.hbm, 125, rfl⟩
abbrev main_call4_call0_v1 : Ref sig .tc := ⟨.hbm, 126, rfl⟩
abbrev main_call4_v4 : Ref sig .tc := ⟨.hbm, 127, rfl⟩
abbrev main_call4_v5 : Ref sig .tc := ⟨.hbm, 128, rfl⟩
abbrev main_call4_cst_2 : Ref sig .tc := ⟨.hbm, 129, rfl⟩
abbrev main_call4_v6 : Ref sig .tc := ⟨.hbm, 130, rfl⟩
abbrev main_call4_v7 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_call5_cst : Ref sig .tc := ⟨.hbm, 137, rfl⟩
abbrev main_call5_v0 : Ref sig .tc := ⟨.hbm, 138, rfl⟩
abbrev main_v74 : Ref sig .tc := ⟨.hbm, 139, rfl⟩
abbrev main_cst_16 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_c_17 : Ref sig .tc := ⟨.hbm, 149, rfl⟩
abbrev main_v83 : Ref sig .tc := ⟨.hbm, 150, rfl⟩
abbrev main_v84 : Ref sig .tc := ⟨.hbm, 151, rfl⟩
abbrev main_c_18 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_cst_19 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_c_20 : Ref sig .tc := ⟨.hbm, 165, rfl⟩
abbrev main_v96 : Ref sig .tc := ⟨.hbm, 166, rfl⟩
abbrev main_v97 : Ref sig .tc := ⟨.hbm, 167, rfl⟩
abbrev main_c_21 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_cst_22 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_call6_cst : Ref sig .tc := ⟨.hbm, 183, rfl⟩
abbrev main_call6_v0 : Ref sig .tc := ⟨.hbm, 184, rfl⟩
abbrev main_call6_cst_0 : Ref sig .tc := ⟨.hbm, 185, rfl⟩
abbrev main_call6_v1 : Ref sig .tc := ⟨.hbm, 186, rfl⟩
abbrev main_call6_v2 : Ref sig .tc := ⟨.hbm, 187, rfl⟩
abbrev main_call6_v3 : Ref sig .tc := ⟨.hbm, 188, rfl⟩
abbrev main_call6_v4 : Ref sig .tc := ⟨.hbm, 189, rfl⟩
abbrev main_call6_v5 : Ref sig .tc := ⟨.hbm, 190, rfl⟩
abbrev main_call6_v6 : Ref sig .tc := ⟨.hbm, 191, rfl⟩
abbrev main_call6_cst_1 : Ref sig .tc := ⟨.hbm, 192, rfl⟩
abbrev main_call6_v7 : Ref sig .tc := ⟨.hbm, 193, rfl⟩
abbrev main_call6_v8 : Ref sig .tc := ⟨.hbm, 194, rfl⟩
abbrev main_call6_v9 : Ref sig .tc := ⟨.hbm, 195, rfl⟩
abbrev main_call6_v10 : Ref sig .tc := ⟨.hbm, 196, rfl⟩
abbrev main_v111 : Ref sig .tc := ⟨.hbm, 197, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S_S100000x40 : S_.BroadcastsInDim S100000x40 (![] : Fin 0 → Fin S100000x40.rank)
  bcast_S1700000x1_S1700000x40_0_1 : S1700000x1.BroadcastsInDim S1700000x40 (![0, 1] : Fin 2 → Fin S1700000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.Spec.lean ====
/-
  The mathematics both programs compute, one output row at a time, over the extended reals.

  A node's feature row `xr` (128 entries) goes through two dense layers on two channels.  The mean channel applies
  `elu` after each layer; the variance channel applies `relu` after each layer and then adds a small constant.  The
  attenuation is `exp (-v)` of the variance channel's result `v`; the mean row is multiplied by it once and the
  variance row twice.  After the graph aggregation a row of logits `a + n * sqrt b` is normalised by `log_softmax`:
  the row maximum is subtracted, and then the logarithm of the sum of exponentials of the shifted row.
-/
import Idealize.ShloMosaic.PureOps.Ideal
import Idealize.ShloMosaic.Lib.ValueIdx

noncomputable section

open scoped BigOperators

namespace Cert.Spec

open Idealize.ShloMosaic Idealize.ShloMosaic.ValueIdx

/-- The float words the programs print for `0`, `1`, the small constant and `-∞`, read as extended reals. -/
abbrev w0 : EReal := Ideal.ofBits .f32 0x00000000#32
abbrev w1 : EReal := Ideal.ofBits .f32 0x3F800000#32
abbrev wEps : EReal := Ideal.ofBits .f32 0x358637BD#32
abbrev wNegInf : EReal := Ideal.ofBits .f32 0xFF800000#32

/-- `elu x`: `x` where `x > 0`, else `exp x - 1`. -/
def elu (x : EReal) : EReal := Scalar.select (Ideal.cmp .ogt x w0) x (Ideal.exp x - w1)

/-- `relu x = max x 0`. -/
def relu (x : EReal) : EReal := max x w0

/-- One entry of a dense layer before its activation: `∑ k, xr k * W k c + b c`. -/
def lin {K N : ℕ} (xr : Fin K → EReal) (W : Fin K → Fin N → EReal) (b : Fin N → EReal) (c : Fin N) : EReal :=
  (∑ k : Fin K, xr k * W k c) + b c

/-- The mean channel after both layers. -/
def mean1 (xr : Fin 128 → EReal) (Wm0 : Fin 128 → Fin 64 → EReal) (bm0 : Fin 64 → EReal) (Wm1 : Fin 64 → Fin 40 → EReal)
    (bm1 : Fin 40 → EReal) (j : Fin 40) : EReal :=
  elu (lin (fun c => elu (lin xr Wm0 bm0 c)) Wm1 bm1 j)

/-- The variance channel after both layers, the small constant added. -/
def var1 (xr : Fin 128 → EReal) (Wv0 : Fin 128 → Fin 64 → EReal) (bv0 : Fin 64 → EReal) (Wv1 : Fin 64 → Fin 40 → EReal)
    (bv1 : Fin 40 → EReal) (j : Fin 40) : EReal :=
  relu (lin (fun c => relu (lin xr Wv0 bv0 c)) Wv1 bv1 j) + wEps

/-- The attenuated mean row: `mean1 * exp (-var1)`. -/
def meanRow (xr : Fin 128 → EReal) (Wm0 : Fin 128 → Fin 64 → EReal) (bm0 : Fin 64 → EReal) (Wv0 : Fin 128 → Fin 64 → EReal)
    (bv0 : Fin 64 → EReal) (Wm1 : Fin 64 → Fin 40 → EReal) (bm1 : Fin 40 → EReal) (Wv1 : Fin 64 → Fin 40 → EReal)
    (bv1 : Fin 40 → EReal) (j : Fin 40) : EReal :=
  mean1 xr Wm0 bm0 Wm1 bm1 j * Ideal.exp (-(var1 xr Wv0 bv0 Wv1 bv1 j))

/-- The attenuated variance row: `var1 * exp (-var1) * exp (-var1)`. -/
def varRow (xr : Fin 128 → EReal) (Wv0 : Fin 128 → Fin 64 → EReal) (bv0 : Fin 64 → EReal) (Wv1 : Fin 64 → Fin 40 → EReal)
    (bv1 : Fin 40 → EReal) (j : Fin 40) : EReal :=
  var1 xr Wv0 bv0 Wv1 bv1 j * Ideal.exp (-(var1 xr Wv0 bv0 Wv1 bv1 j)) * Ideal.exp (-(var1 xr Wv0 bv0 Wv1 bv1 j))

/-- A row of logits from the aggregated mean `a`, the aggregated variance `b` and the noise `n`. -/
def logit (a b n : Fin 40 → EReal) (j : Fin 40) : EReal := a j + n j * Ideal.sqrt (b j)

/-- The row's maximum, folded from `-∞`. -/
def rowMax (z : Fin 40 → EReal) : EReal := (Finset.univ : Finset (Fin 40)).fold max wNegInf z

/-- `log_softmax` of the logits' row, at column `j`. -/
def lsRow (a b n : Fin 40 → EReal) (j : Fin 40) : EReal :=
  (logit a b n j - rowMax (logit a b n))
    - Ideal.log (∑ k : Fin 40, Ideal.exp (logit a b n k - rowMax (logit a b n)))

/-! ## The same, as whole arrays -/

abbrev A2 (n0 n1 : ℕ) : Type := (⟨2, ![n0, n1]⟩ : Shape).Idx → EReal
abbrev A1 (n : ℕ) : Type := (⟨1, ![n]⟩ : Shape).Idx → EReal

/-- Row `r` of a matrix. -/
abbrev row {n0 n1 : ℕ} (x : A2 n0 n1) (r : Fin n0) : Fin n1 → EReal := fun k => x (ix2 r k)
/-- A matrix by its two coordinates. -/
abbrev mat {n0 n1 : ℕ} (x : A2 n0 n1) : Fin n0 → Fin n1 → EReal := fun k c => x (ix2 k c)
/-- A vector by its coordinate. -/
abbrev vec {n : ℕ} (x : A1 n) : Fin n → EReal := fun c => x (ix1 c)

/-- What the dense stage leaves for the mean channel, before aggregation: entry `(r, j)`. -/
def meanPreAt (x : A2 100000 128) (Wm0 : A2 128 64) (bm0 : A1 64) (Wv0 : A2 128 64) (bv0 : A1 64) (Wm1 : A2 64 40) (bm1 : A1 40)
    (Wv1 : A2 64 40) (bv1 : A1 40) (r : Fin 100000) (j : Fin 40) : EReal :=
  meanRow (row x r) (mat Wm0) (vec bm0) (mat Wv0) (vec bv0) (mat Wm1) (vec bm1) (mat Wv1) (vec bv1) j

def meanPre (x : A2 100000 128) (Wm0 : A2 128 64) (bm0 : A1 64) (Wv0 : A2 128 64) (bv0 : A1 64) (Wm1 : A2 64 40) (bm1 : A1 40)
    (Wv1 : A2 64 40) (bv1 : A1 40) : A2 100000 40 :=
  fun i => meanPreAt x Wm0 bm0 Wv0 bv0 Wm1 bm1 Wv1 bv1 ⟨(i 0).val, idx2_lt0 i⟩ ⟨(i 1).val, idx2_lt1 i⟩

/-- What the dense stage leaves for the variance channel, before aggregation: entry `(r, j)`. -/
def varPreAt (x : A2 100000 128) (Wv0 : A2 128 64) (bv0 : A1 64) (Wv1 : A2 64 40) (bv1 : A1 40) (r : Fin 100000) (j : Fin 40) : EReal :=
  varRow (row x r) (mat Wv0) (vec bv0) (mat Wv1) (vec bv1) j

def varPre (x : A2 100000 128) (Wv0 : A2 128 64) (bv0 : A1 64) (Wv1 : A2 64 40) (bv1 : A1 40) : A2 100000 40 :=
  fun i => varPreAt x Wv0 bv0 Wv1 bv1 ⟨(i 0).val, idx2_lt0 i⟩ ⟨(i 1).val, idx2_lt1 i⟩

/-- The final stage: `log_softmax` of `a + n * sqrt b` along each row; entry `(r, j)`. -/
def combineAt (a b n : A2 100000 40) (r : Fin 100000) (j : Fin 40) : EReal := lsRow (row a r) (row b r) (row n r) j

def combine (a b n : A2 100000 40) : A2 100000 40 :=
  fun i => combineAt a b n ⟨(i 0).val, idx2_lt0 i⟩ ⟨(i 1).val, idx2_lt1 i⟩

theorem meanPre_ix2 (x : A2 100000 128) (Wm0 : A2 128 64) (bm0 : A1 64) (Wv0 : A2 128 64) (bv0 : A1 64) (Wm1 : A2 64 40) (bm1 : A1 40)
    (Wv1 : A2 64 40) (bv1 : A1 40) (r : Fin 100000) (j : Fin 40) :
    meanPre x Wm0 bm0 Wv0 bv0 Wm1 bm1 Wv1 bv1 (ix2 r j) = meanPreAt x Wm0 bm0 Wv0 bv0 Wm1 bm1 Wv1 bv1 r j := rfl

theorem varPre_ix2 (x : A2 100000 128) (Wv0 : A2 128 64) (bv0 : A1 64) (Wv1 : A2 64 40) (bv1 : A1 40) (r : Fin 100000) (j : Fin 40) :
    varPre x Wv0 bv0 Wv1 bv1 (ix2 r j) = varPreAt x Wv0 bv0 Wv1 bv1 r j := rfl

theorem combine_ix2 (a b n : A2 100000 40) (r : Fin 100000) (j : Fin 40) : combine a b n (ix2 r j) = combineAt a b n r j := rfl

end Cert.Spec

end
-- ==== Proof.Glue.lean ====
/-
  The graph side of the computation, shared word for word by both programs: the edge list with self loops appended,
  the degree-normalisation weights, and the sparse aggregation of a dense matrix along the edges.

  `rowI e` and `colI e` are the two rows of the edge list `e`, each followed by `0, 1, …, 99999` (the self loops).
  `deg r` counts how often each node occurs in `r`.  `dis p r` is `deg r` to the power `p` where the degree is positive and
  `0` elsewhere.  `nw p r c` is the edge weight `dis[r] * dis[c]`.  `spmm r c w X` adds, for every edge, `w * X[c]` into row
  `r` of a zero matrix.
-/
import proofs.«118224_j18047452578190_1_alg».proof.KernelIdeal

noncomputable section

namespace Cert.Glue

open Cert.KernelIdeal Cert.KernelIdeal.Facts₀ Idealize.ShloMosaic

variable [Cert.KernelIdeal.Facts] {F : FTy → Type} [FloatOps F]

/-- The edge list's first row, the self loops appended. -/
def rowI (e : (⟨S2x1600000, .i32⟩ : BufTy).Contents (Elt F)) : (⟨S1700000, .i32⟩ : BufTy).Contents (Elt F) :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- The edge list's second row, the self loops appended. -/
def colI (e : (⟨S2x1600000, .i32⟩ : BufTy).Contents (Elt F)) : (⟨S1700000, .i32⟩ : BufTy).Contents (Elt F) :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- An index vector made ready for a gather: a negative index counts from the end; one index per row. -/
def wrapI (i : (⟨S1700000, .i32⟩ : BufTy).Contents (Elt F)) : (⟨S1700000x1, .i32⟩ : BufTy).Contents (Elt F) :=
  broadcastInDim S1700000x1 ![0] bcast_S1700000_S1700000x1_0
    (select (cmpi .slt i (broadcastInDim S1700000 ![] bcast_S_S1700000 (constantI S_ 32 0#32)))
      (addi i (broadcastInDim S1700000 ![] bcast_S_S1700000 (constantI S_ 32 100000#32))) i)

/-- How often each node occurs in `r`. -/
def deg (r : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 r)
    (broadcastInDim S1700000 ![] bcast_S_S1700000 (constant S_ .f32 0x3F800000#32))

/-- The degree to the power whose float word is `p`, and `0` where the degree is not positive. -/
def dis (p : BitVec 32) (r : (⟨S1700000, .i32⟩ : BufTy).Contents (Elt F)) : (⟨S100000, .f32⟩ : BufTy).Contents (Elt F) :=
  select (cmpf .ogt (deg r) (broadcastInDim S100000 ![] bcast_S_S100000 (constant S_ .f32 0x00000000#32)))
    (Host.powf (deg r) (broadcastInDim S100000 ![] bcast_S_S100000 (constant S_ .f32 p)))
    (broadcastInDim S100000 ![] bcast_S_S100000 (id (constant S_ .f32 0x00000000#32)))

/-- The edge weights `dis[r] * dis[c]`. -/
def nw (p : BitVec 32) (r c : (⟨S1700000, .i32⟩ : BufTy).Contents (Elt F)) : (⟨S1700000, .f32⟩ : BufTy).Contents (Elt F) :=
  mulf (Host.gather gather_S100000_S1700000x1_S1700000_n_0_n_n_0_1_1 (dis p r) (wrapI r))
    (Host.gather gather_S100000_S1700000x1_S1700000_n_0_n_n_0_1_1 (dis p r) (wrapI c))

/-- The sparse aggregation: row `r` of the result collects `w * X[c]` over the edges. -/
def spmm (r c : (⟨S1700000, .i32⟩ : BufTy).Contents (Elt F)) (w : (⟨S1700000, .f32⟩ : BufTy).Contents (Elt F))
    (X : (⟨S100000x40, .f32⟩ : BufTy).Contents (Elt F)) : (⟨S100000x40, .f32⟩ : BufTy).Contents (Elt F) :=
  Host.scatterAdd scatter_S100000x40_S1700000x1_S1700000x40_1_0_0_1
    (broadcastInDim S100000x40 ![] bcast_S_S100000x40 (constant S_ .f32 0x00000000#32))
    (broadcastInDim S1700000x1 ![0] bcast_S1700000_S1700000x1_0 r)
    (mulf (broadcastInDim S1700000x40 ![0, 1] bcast_S1700000x1_S1700000x40_0_1 (broadcastInDim S1700000x1 ![0] bcast_S1700000_S1700000x1_0 w))
      (Host.gather gather_S100000x40_S1700000x1_S1700000x40_1_0_n_n_0_1_140 X (wrapI c)))

/-- The float words of the two exponents: `-1/2` for the mean channel, `-1` for the variance channel. -/
abbrev pHalf : BitVec 32 := 0xBF000000#32
abbrev pOne : BitVec 32 := 0xBF800000#32

end Cert.Glue

end
-- ==== Proof.KernelHost.lean ====
/-
  The kernel program's host stretches read back: at the final region's entry the two aggregated arrays are the sparse
  aggregation of what the dense region left, along the edge list with the two degree normalisations; the noise and the
  dense region's arguments are as launched.

  Each stretch is first read over arbitrary entry contents: the buffer it computes is the graph-side function of the
  buffers it reads, and a buffer it does not write is unchanged. The boundaries of the run are then walked in order from
  the launch memory, every intermediate stated as an equation: the edge list's two rows, the degree's comparison and
  power, the normalisation, the edge weights, and at the end the aggregation of the dense region's two output arrays.
-/
import proofs.«118224_j18047452578190_1_alg».proof.Proof.Gen.KernelIdeal.Frame
import proofs.«118224_j18047452578190_1_alg».proof.Proof.Glue
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-! ## Each stretch of host operations read back, over any entry contents -/

/-- A buffer that no operation of a stretch writes keeps its contents through it. -/
local macro "unwritten" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

section Stretch

variable (W : Valuation τ sig (Elt F))

/-! ### The first stretch: the edge list's two rows with the self loops, and the pieces of the first normalisation -/

theorem hostOps0_v3 :
    after hostOps0 W (Proc.devRef .tc main_v3) = Glue.rowI (W (Proc.devRef .tc main_arg1)) := by
  after_results_simp
  rfl

theorem hostOps0_v6 :
    after hostOps0 W (Proc.devRef .tc main_v6) = Glue.colI (W (Proc.devRef .tc main_arg1)) := by
  after_results_simp
  rfl

theorem hostOps0_v12 :
    after hostOps0 W (Proc.devRef .tc main_v12)
      = cmpf .ogt (Glue.deg (Glue.rowI (W (Proc.devRef .tc main_arg1))))
          (broadcastInDim S100000 ![] bcast_S_S100000 (constant S_ .f32 0x00000000#32)) := by
  after_results_simp
  rfl

theorem hostOps0_v14 :
    after hostOps0 W (Proc.devRef .tc main_v14)
      = Host.powf (Glue.deg (Glue.rowI (W (Proc.devRef .tc main_arg1))))
          (broadcastInDim S100000 ![] bcast_S_S100000 (constant S_ .f32 Glue.pHalf)) := by
  after_results_simp
  rfl

theorem hostOps0_cst_3 :
    after hostOps0 W (Proc.devRef .tc main_cst_3) = constant S_ .f32 0x00000000#32 := by
  after_results_simp

/-! ### The second stretch: the first normalisation, the degree's power where the degree is positive -/

theorem hostOps0_1_v15 :
    after hostOps0_1 W (Proc.devRef .tc main_v15)
      = select (W (Proc.devRef .tc main_v12)) (W (Proc.devRef .tc main_v14))
          (broadcastInDim S100000 ![] bcast_S_S100000 (id (W (Proc.devRef .tc main_cst_3)))) := by
  after_results_simp
  rfl

theorem hostOps0_1_v3 : after hostOps0_1 W (Proc.devRef .tc main_v3) = W (Proc.devRef .tc main_v3) := by
  unwritten hostOps0_1
theorem hostOps0_1_v6 : after hostOps0_1 W (Proc.devRef .tc main_v6) = W (Proc.devRef .tc main_v6) := by
  unwritten hostOps0_1

/-! ### The third stretch: the first edge weights, and the pieces of the second normalisation -/

theorem hostOps0_2_v30 :
    after hostOps0_2 W (Proc.devRef .tc main_v30)
      = mulf (Host.gather gather_S100000_S1700000x1_S1700000_n_0_n_n_0_1_1 (W (Proc.devRef .tc main_v15))
                (Glue.wrapI (W (Proc.devRef .tc main_v3))))
          (Host.gather gather_S100000_S1700000x1_S1700000_n_0_n_n_0_1_1 (W (Proc.devRef .tc main_v15))
                (Glue.wrapI (W (Proc.devRef .tc main_v6)))) := by
  after_results_simp
  rfl

theorem hostOps0_2_v36 :
    after hostOps0_2 W (Proc.devRef .tc main_v36)
      = cmpf .ogt (Glue.deg (W (Proc.devRef .tc main_v3)))
          (broadcastInDim S100000 ![] bcast_S_S100000 (constant S_ .f32 0x00000000#32)) := by
  after_results_simp
  rfl

theorem hostOps0_2_v38 :
    after hostOps0_2 W (Proc.devRef .tc main_v38)
      = Host.powf (Glue.deg (W (Proc.devRef .tc main_v3)))
          (broadcastInDim S100000 ![] bcast_S_S100000 (constant S_ .f32 Glue.pOne)) := by
  after_results_simp
  rfl

theorem hostOps0_2_cst_11 :
    after hostOps0_2 W (Proc.devRef .tc main_cst_11) = constant S_ .f32 0x00000000#32 := by
  after_results_simp

theorem hostOps0_2_v3 : after hostOps0_2 W (Proc.devRef .tc main_v3) = W (Proc.devRef .tc main_v3) := by
  unwritten hostOps0_2
theorem hostOps0_2_v6 : after hostOps0_2 W (Proc.devRef .tc main_v6) = W (Proc.devRef .tc main_v6) := by
  unwritten hostOps0_2

/-! ### The fourth stretch: the second normalisation -/

theorem hostOps0_3_v39 :
    after hostOps0_3 W (Proc.devRef .tc main_v39)
      = select (W (Proc.devRef .tc main_v36)) (W (Proc.devRef .tc main_v38))
          (broadcastInDim S100000 ![] bcast_S_S100000 (id (W (Proc.devRef .tc main_cst_11)))) := by
  after_results_simp
  rfl

theorem hostOps0_3_v3 : after hostOps0_3 W (Proc.devRef .tc main_v3) = W (Proc.devRef .tc main_v3) := by
  unwritten hostOps0_3
theorem hostOps0_3_v6 : after hostOps0_3 W (Proc.devRef .tc main_v6) = W (Proc.devRef .tc main_v6) := by
  unwritten hostOps0_3
theorem hostOps0_3_v30 : after hostOps0_3 W (Proc.devRef .tc main_v30) = W (Proc.devRef .tc main_v30) := by
  unwritten hostOps0_3

/-! ### The fifth stretch: the second edge weights -/

theorem hostOps0_4_v54 :
    after hostOps0_4 W (Proc.devRef .tc main_v54)
      = mulf (Host.gather gather_S100000_S1700000x1_S1700000_n_0_n_n_0_1_1 (W (Proc.devRef .tc main_v39))
                (Glue.wrapI (W (Proc.devRef .tc main_v3))))
          (Host.gather gather_S100000_S1700000x1_S1700000_n_0_n_n_0_1_1 (W (Proc.devRef .tc main_v39))
                (Glue.wrapI (W (Proc.devRef .tc main_v6)))) := by
  after_results_simp
  rfl

theorem hostOps0_4_v3 : after hostOps0_4 W (Proc.devRef .tc main_v3) = W (Proc.devRef .tc main_v3) := by
  unwritten hostOps0_4
theorem hostOps0_4_v6 : after hostOps0_4 W (Proc.devRef .tc main_v6) = W (Proc.devRef .tc main_v6) := by
  unwritten hostOps0_4
theorem hostOps0_4_v30 : after hostOps0_4 W (Proc.devRef .tc main_v30) = W (Proc.devRef .tc main_v30) := by
  unwritten hostOps0_4

/-! ### The last stretch: the two sparse aggregations -/

set_option maxHeartbeats 1000000 in
theorem hostOps1_v68 :
    after hostOps1 W (Proc.devRef .tc main_v68)
      = Glue.spmm (W (Proc.devRef .tc main_v3)) (W (Proc.devRef .tc main_v6)) (W (Proc.devRef .tc main_v30))
          (W (Proc.devRef .tc main_v55_0)) := by
  after_results_simp
  rfl

set_option maxHeartbeats 1000000 in
theorem hostOps1_v81 :
    after hostOps1 W (Proc.devRef .tc main_v81)
      = Glue.spmm (W (Proc.devRef .tc main_v3)) (W (Proc.devRef .tc main_v6)) (W (Proc.devRef .tc main_v54))
          (W (Proc.devRef .tc main_v55_1)) := by
  after_results_simp
  rfl

end Stretch

/-! ## The run's boundaries, one after the other -/

variable (m : (ℓ : Loc nD τ sig) → Buf (Elt F) ℓ) (ρ : Dev nD → PrngReg)

section Chain

variable (c : Dev nD)

/-- The edge list's two rows as launched, the self loops appended. -/
abbrev rI : (⟨S1700000, .i32⟩ : BufTy).Contents (Elt F) := Glue.rowI (m ((c : Thread nD τ).loc main_arg1))
abbrev cI : (⟨S1700000, .i32⟩ : BufTy).Contents (Elt F) := Glue.colI (m ((c : Thread nD τ).loc main_arg1))

/-! ### After the first stretch -/

theorem W1_v3 : W1 m ρ c (Proc.devRef .tc main_v3) = rI m c := hostOps0_v3 (W0 m ρ c)
theorem W1_v6 : W1 m ρ c (Proc.devRef .tc main_v6) = cI m c := hostOps0_v6 (W0 m ρ c)
theorem W1_v12 :
    W1 m ρ c (Proc.devRef .tc main_v12)
      = cmpf .ogt (Glue.deg (rI m c)) (broadcastInDim S100000 ![] bcast_S_S100000 (constant S_ .f32 0x00000000#32)) :=
  hostOps0_v12 (W0 m ρ c)
theorem W1_v14 :
    W1 m ρ c (Proc.devRef .tc main_v14)
      = Host.powf (Glue.deg (rI m c)) (broadcastInDim S100000 ![] bcast_S_S100000 (constant S_ .f32 Glue.pHalf)) :=
  hostOps0_v14 (W0 m ρ c)
theorem W1_cst_3 : W1 m ρ c (Proc.devRef .tc main_cst_3) = constant S_ .f32 0x00000000#32 :=
  hostOps0_cst_3 (W0 m ρ c)

/-! ### After the second stretch -/

theorem W2_v15 : W2 m ρ c (Proc.devRef .tc main_v15) = Glue.dis Glue.pHalf (rI m c) := by
  refine (hostOps0_1_v15 (W1 m ρ c)).trans ?_
  rw [W1_v12, W1_v14, W1_cst_3]
  rfl
theorem W2_v3 : W2 m ρ c (Proc.devRef .tc main_v3) = rI m c := (hostOps0_1_v3 _).trans (W1_v3 m ρ c)
theorem W2_v6 : W2 m ρ c (Proc.devRef .tc main_v6) = cI m c := (hostOps0_1_v6 _).trans (W1_v6 m ρ c)

/-! ### After the third stretch -/

theorem W3_v30 : W3 m ρ c (Proc.devRef .tc main_v30) = Glue.nw Glue.pHalf (rI m c) (cI m c) := by
  refine (hostOps0_2_v30 (W2 m ρ c)).trans ?_
  rw [W2_v15, W2_v3, W2_v6]
  rfl
theorem W3_v36 :
    W3 m ρ c (Proc.devRef .tc main_v36)
      = cmpf .ogt (Glue.deg (rI m c)) (broadcastInDim S100000 ![] bcast_S_S100000 (constant S_ .f32 0x00000000#32)) := by
  refine (hostOps0_2_v36 (W2 m ρ c)).trans ?_
  rw [W2_v3]
theorem W3_v38 :
    W3 m ρ c (Proc.devRef .tc main_v38)
      = Host.powf (Glue.deg (rI m c)) (broadcastInDim S100000 ![] bcast_S_S100000 (constant S_ .f32 Glue.pOne)) := by
  refine (hostOps0_2_v38 (W2 m ρ c)).trans ?_
  rw [W2_v3]
theorem W3_cst_11 : W3 m ρ c (Proc.devRef .tc main_cst_11) = constant S_ .f32 0x00000000#32 :=
  hostOps0_2_cst_11 (W2 m ρ c)
theorem W3_v3 : W3 m ρ c (Proc.devRef .tc main_v3) = rI m c := (hostOps0_2_v3 _).trans (W2_v3 m ρ c)
theorem W3_v6 : W3 m ρ c (Proc.devRef .tc main_v6) = cI m c := (hostOps0_2_v6 _).trans (W2_v6 m ρ c)

/-! ### After the fourth stretch -/

theorem W4_v39 : W4 m ρ c (Proc.devRef .tc main_v39) = Glue.dis Glue.pOne (rI m c) := by
  refine (hostOps0_3_v39 (W3 m ρ c)).trans ?_
  rw [W3_v36, W3_v38, W3_cst_11]
  rfl
theorem W4_v3 : W4 m ρ c (Proc.devRef .tc main_v3) = rI m c := (hostOps0_3_v3 _).trans (W3_v3 m ρ c)
theorem W4_v6 : W4 m ρ c (Proc.devRef .tc main_v6) = cI m c := (hostOps0_3_v6 _).trans (W3_v6 m ρ c)
theorem W4_v30 : W4 m ρ c (Proc.devRef .tc main_v30) = Glue.nw Glue.pHalf (rI m c) (cI m c) :=
  (hostOps0_3_v30 _).trans (W3_v30 m ρ c)

/-! ### After the fifth stretch: the dense region's entry -/

theorem W5_v54 : W5 m ρ c (Proc.devRef .tc main_v54) = Glue.nw Glue.pOne (rI m c) (cI m c) := by
  refine (hostOps0_4_v54 (W4 m ρ c)).trans ?_
  rw [W4_v39, W4_v3, W4_v6]
  rfl
theorem W5_v3 : W5 m ρ c (Proc.devRef .tc main_v3) = rI m c := (hostOps0_4_v3 _).trans (W4_v3 m ρ c)
theorem W5_v6 : W5 m ρ c (Proc.devRef .tc main_v6) = cI m c := (hostOps0_4_v6 _).trans (W4_v6 m ρ c)
theorem W5_v30 : W5 m ρ c (Proc.devRef .tc main_v30) = Glue.nw Glue.pHalf (rI m c) (cI m c) :=
  (hostOps0_4_v30 _).trans (W4_v30 m ρ c)

/-! ### At the dense region's exit: its two output arrays are what it leaves, the graph side is as entered -/

theorem W6_v3 : W6 m ρ c (Proc.devRef .tc main_v3) = rI m c :=
  (W6_of_ne m ρ c main_v3 (by decide)).trans (W5_v3 m ρ c)
theorem W6_v6 : W6 m ρ c (Proc.devRef .tc main_v6) = cI m c :=
  (W6_of_ne m ρ c main_v6 (by decide)).trans (W5_v6 m ρ c)
theorem W6_v30 : W6 m ρ c (Proc.devRef .tc main_v30) = Glue.nw Glue.pHalf (rI m c) (cI m c) :=
  (W6_of_ne m ρ c main_v30 (by decide)).trans (W5_v30 m ρ c)
theorem W6_v54 : W6 m ρ c (Proc.devRef .tc main_v54) = Glue.nw Glue.pOne (rI m c) (cI m c) :=
  (W6_of_ne m ρ c main_v54 (by decide)).trans (W5_v54 m ρ c)
theorem W6_v55_0 : W6 m ρ c (Proc.devRef .tc main_v55_0) = (dat0 (V5 m ρ) c).arrAt 9 cfg0.N := W6_arr m ρ c 9
theorem W6_v55_1 : W6 m ρ c (Proc.devRef .tc main_v55_1) = (dat0 (V5 m ρ) c).arrAt 10 cfg0.N := W6_arr m ρ c 10

end Chain

/-- The aggregated mean at the final region's entry. -/
theorem v68_eq (c : Dev nD) :
    V7 m ρ c main_v68
      = Glue.spmm (Glue.rowI (m ((c : Thread nD τ).loc main_arg1))) (Glue.colI (m ((c : Thread nD τ).loc main_arg1)))
          (Glue.nw Glue.pHalf (Glue.rowI (m ((c : Thread nD τ).loc main_arg1))) (Glue.colI (m ((c : Thread nD τ).loc main_arg1))))
          ((dat0 (V5 m ρ) c).arrAt 9 cfg0.N) := by
  refine (hostOps1_v68 (W6 m ρ c)).trans ?_
  rw [W6_v3, W6_v6, W6_v30, W6_v55_0]

/-- The aggregated variance at the final region's entry. -/
theorem v81_eq (c : Dev nD) :
    V7 m ρ c main_v81
      = Glue.spmm (Glue.rowI (m ((c : Thread nD τ).loc main_arg1))) (Glue.colI (m ((c : Thread nD τ).loc main_arg1)))
          (Glue.nw Glue.pOne (Glue.rowI (m ((c : Thread nD τ).loc main_arg1))) (Glue.colI (m ((c : Thread nD τ).loc main_arg1))))
          ((dat0 (V5 m ρ) c).arrAt 10 cfg0.N) := by
  refine (hostOps1_v81 (W6 m ρ c)).trans ?_
  rw [W6_v3, W6_v6, W6_v54, W6_v55_1]

/-! ## The arguments: no host operation writes one, and the dense region writes none but its two outputs -/

/-- The noise at the final region's entry is as launched. -/
theorem V7_arg2 (c : Dev nD) : V7 m ρ c main_arg2 = m ((c : Thread nD τ).loc main_arg2) :=
  calc W7 m ρ c (Proc.devRef .tc main_arg2)
    _ = W6 m ρ c (Proc.devRef .tc main_arg2) := by unwritten hostOps1
    _ = W5 m ρ c (Proc.devRef .tc main_arg2) := W6_of_ne m ρ c main_arg2 (by decide)
    _ = W4 m ρ c (Proc.devRef .tc main_arg2) := by unwritten hostOps0_4
    _ = W3 m ρ c (Proc.devRef .tc main_arg2) := by unwritten hostOps0_3
    _ = W2 m ρ c (Proc.devRef .tc main_arg2) := by unwritten hostOps0_2
    _ = W1 m ρ c (Proc.devRef .tc main_arg2) := by unwritten hostOps0_1
    _ = W0 m ρ c (Proc.devRef .tc main_arg2) := by unwritten hostOps0
    _ = m ((c : Thread nD τ).loc main_arg2) := rfl

/-- The dense region's arguments at its entry are as launched. -/
theorem V5_arg0 (c : Dev nD) : V5 m ρ c main_arg0 = m ((c : Thread nD τ).loc main_arg0) :=
  calc W5 m ρ c (Proc.devRef .tc main_arg0)
    _ = W4 m ρ c (Proc.devRef .tc main_arg0) := by unwritten hostOps0_4
    _ = W3 m ρ c (Proc.devRef .tc main_arg0) := by unwritten hostOps0_3
    _ = W2 m ρ c (Proc.devRef .tc main_arg0) := by unwritten hostOps0_2
    _ = W1 m ρ c (Proc.devRef .tc main_arg0) := by unwritten hostOps0_1
    _ = W0 m ρ c (Proc.devRef .tc main_arg0) := by unwritten hostOps0
    _ = m ((c : Thread nD τ).loc main_arg0) := rfl
theorem V5_arg3 (c : Dev nD) : V5 m ρ c main_arg3 = m ((c : Thread nD τ).loc main_arg3) :=
  calc W5 m ρ c (Proc.devRef .tc main_arg3)
    _ = W4 m ρ c (Proc.devRef .tc main_arg3) := by unwritten hostOps0_4
    _ = W3 m ρ c (Proc.devRef .tc main_arg3) := by unwritten hostOps0_3
    _ = W2 m ρ c (Proc.devRef .tc main_arg3) := by unwritten hostOps0_2
    _ = W1 m ρ c (Proc.devRef .tc main_arg3) := by unwritten hostOps0_1
    _ = W0 m ρ c (Proc.devRef .tc main_arg3) := by unwritten hostOps0
    _ = m ((c : Thread nD τ).loc main_arg3) := rfl
theorem V5_arg4 (c : Dev nD) : V5 m ρ c main_arg4 = m ((c : Thread nD τ).loc main_arg4) :=
  calc W5 m ρ c (Proc.devRef .tc main_arg4)
    _ = W4 m ρ c (Proc.devRef .tc main_arg4) := by unwritten hostOps0_4
    _ = W3 m ρ c (Proc.devRef .tc main_arg4) := by unwritten hostOps0_3
    _ = W2 m ρ c (Proc.devRef .tc main_arg4) := by unwritten hostOps0_2
    _ = W1 m ρ c (Proc.devRef .tc main_arg4) := by unwritten hostOps0_1
    _ = W0 m ρ c (Proc.devRef .tc main_arg4) := by unwritten hostOps0
    _ = m ((c : Thread nD τ).loc main_arg4) := rfl
theorem V5_arg5 (c : Dev nD) : V5 m ρ c main_arg5 = m ((c : Thread nD τ).loc main_arg5) :=
  calc W5 m ρ c (Proc.devRef .tc main_arg5)
    _ = W4 m ρ c (Proc.devRef .tc main_arg5) := by unwritten hostOps0_4
    _ = W3 m ρ c (Proc.devRef .tc main_arg5) := by unwritten hostOps0_3
    _ = W2 m ρ c (Proc.devRef .tc main_arg5) := by unwritten hostOps0_2
    _ = W1 m ρ c (Proc.devRef .tc main_arg5) := by unwritten hostOps0_1
    _ = W0 m ρ c (Proc.devRef .tc main_arg5) := by unwritten hostOps0
    _ = m ((c : Thread nD τ).loc main_arg5) := rfl
theorem V5_arg6 (c : Dev nD) : V5 m ρ c main_arg6 = m ((c : Thread nD τ).loc main_arg6) :=
  calc W5 m ρ c (Proc.devRef .tc main_arg6)
    _ = W4 m ρ c (Proc.devRef .tc main_arg6) := by unwritten hostOps0_4
    _ = W3 m ρ c (Proc.devRef .tc main_arg6) := by unwritten hostOps0_3
    _ = W2 m ρ c (Proc.devRef .tc main_arg6) := by unwritten hostOps0_2
    _ = W1 m ρ c (Proc.devRef .tc main_arg6) := by unwritten hostOps0_1
    _ = W0 m ρ c (Proc.devRef .tc main_arg6) := by unwritten hostOps0
    _ = m ((c : Thread nD τ).loc main_arg6) := rfl
theorem V5_arg7 (c : Dev nD) : V5 m ρ c main_arg7 = m ((c : Thread nD τ).loc main_arg7) :=
  calc W5 m ρ c (Proc.devRef .tc main_arg7)
    _ = W4 m ρ c (Proc.devRef .tc main_arg7) := by unwritten hostOps0_4
    _ = W3 m ρ c (Proc.devRef .tc main_arg7) := by unwritten hostOps0_3
    _ = W2 m ρ c (Proc.devRef .tc main_arg7) := by unwritten hostOps0_2
    _ = W1 m ρ c (Proc.devRef .tc main_arg7) := by unwritten hostOps0_1
    _ = W0 m ρ c (Proc.devRef .tc main_arg7) := by unwritten hostOps0
    _ = m ((c : Thread nD τ).loc main_arg7) := rfl
theorem V5_arg8 (c : Dev nD) : V5 m ρ c main_arg8 = m ((c : Thread nD τ).loc main_arg8) :=
  calc W5 m ρ c (Proc.devRef .tc main_arg8)
    _ = W4 m ρ c (Proc.devRef .tc main_arg8) := by unwritten hostOps0_4
    _ = W3 m ρ c (Proc.devRef .tc main_arg8) := by unwritten hostOps0_3
    _ = W2 m ρ c (Proc.devRef .tc main_arg8) := by unwritten hostOps0_2
    _ = W1 m ρ c (Proc.devRef .tc main_arg8) := by unwritten hostOps0_1
    _ = W0 m ρ c (Proc.devRef .tc main_arg8) := by unwritten hostOps0
    _ = m ((c : Thread nD τ).loc main_arg8) := rfl
theorem V5_arg9 (c : Dev nD) : V5 m ρ c main_arg9 = m ((c : Thread nD τ).loc main_arg9) :=
  calc W5 m ρ c (Proc.devRef .tc main_arg9)
    _ = W4 m ρ c (Proc.devRef .tc main_arg9) := by unwritten hostOps0_4
    _ = W3 m ρ c (Proc.devRef .tc main_arg9) := by unwritten hostOps0_3
    _ = W2 m ρ c (Proc.devRef .tc main_arg9) := by unwritten hostOps0_2
    _ = W1 m ρ c (Proc.devRef .tc main_arg9) := by unwritten hostOps0_1
    _ = W0 m ρ c (Proc.devRef .tc main_arg9) := by unwritten hostOps0
    _ = m ((c : Thread nD τ).loc main_arg9) := rfl
theorem V5_arg10 (c : Dev nD) : V5 m ρ c main_arg10 = m ((c : Thread nD τ).loc main_arg10) :=
  calc W5 m ρ c (Proc.devRef .tc main_arg10)
    _ = W4 m ρ c (Proc.devRef .tc main_arg10) := by unwritten hostOps0_4
    _ = W3 m ρ c (Proc.devRef .tc main_arg10) := by unwritten hostOps0_3
    _ = W2 m ρ c (Proc.devRef .tc main_arg10) := by unwritten hostOps0_2
    _ = W1 m ρ c (Proc.devRef .tc main_arg10) := by unwritten hostOps0_1
    _ = W0 m ρ c (Proc.devRef .tc main_arg10) := by unwritten hostOps0
    _ = m ((c : Thread nD τ).loc main_arg10) := rfl

end Cert.KernelIdeal.Host

end
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.DenseValue.lean ====
/-
  What the dense kernel leaves in its two output arrays: every row block of the mean output is the attenuated mean rows
  of the matching rows of `x`, and likewise for the variance output; the twenty row blocks cover the arrays.
-/
import proofs.«118224_j18047452578190_1_alg».proof.Proof.Gen.KernelIdeal.Frame
import proofs.«118224_j18047452578190_1_alg».proof.Proof.Spec
import proofs.«118224_j18047452578190_1_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Dense

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

/-! ## One row of the block: the payloads at an entry -/

/-- A bias vector, viewed as one row and repeated down the rows, read at an entry. -/
theorem bias_at {a n : ℕ} (b : (⟨1, ![n]⟩ : Shape).Idx → EReal) (h1 : (⟨1, ![n]⟩ : Shape).ShapeCasts ⟨2, ![1, n]⟩)
    (h2 : (⟨2, ![1, n]⟩ : Shape).Broadcasts ⟨2, ![a, n]⟩) (r : Fin a) (j : Fin n) :
    broadcastTo ⟨2, ![a, n]⟩ (shapeCast ⟨2, ![1, n]⟩ b h1) h2 (ix2 r j) = b (ix1 j) := by
  rw [broadcastTo_1b_ab_apply, shapeCast_a_1a_apply]

/-- The first dense layer before its activation, at an entry. -/
theorem layer0_at (x0 : Vec Ideal S5000x128 .f32) (W : Vec Ideal S128x64 .f32) (b : Vec Ideal S64 .f32) (r : Fin 5000) (c : Fin 64) :
    addf (matmul dot_S5000x128_S128x64_S5000x64_1_0_0_1_n_n none (k0_pay5 x0) (truncf .bf16 W bitsLt_bf16_f32) (constant S5000x64 .f32 0x00000000#32))
        (broadcastTo S5000x64 (shapeCast S1x64 b shapeCasts_S64_S1x64) broadcasts_S1x64_S5000x64) (ix2 r c)
      = Spec.lin (fun k => x0 (ix2 r k)) (fun k c => W (ix2 k c)) (fun c => b (ix1 c)) c := by
  rw [addf_apply, bias_at]
  unfold Spec.lin
  refine congrArg (· + b (ix1 c)) ?_
  exact Cert.LibMatmulAt.matmul_zero_at dot_S5000x128_S128x64_S5000x64_1_0_0_1_n_n rfl rfl rfl rfl rfl rfl none _ _ r c

/-- The second dense layer's product, at an entry. -/
theorem prod1_at (h : FVec Ideal S5000x64 .f32) (W : Vec Ideal S64x40 .f32) (r : Fin 5000) (j : Fin 40) :
    matmul dot_S5000x64_S64x40_S5000x40_1_0_0_1_n_n none (truncf .bf16 h bitsLt_bf16_f32) (truncf .bf16 W bitsLt_bf16_f32)
        (constant S5000x40 .f32 0x00000000#32) (ix2 r j)
      = ∑ c : Fin 64, h (ix2 r c) * W (ix2 c j) :=
  Cert.LibMatmulAt.matmul_zero_at dot_S5000x64_S64x40_S5000x40_1_0_0_1_n_n rfl rfl rfl rfl rfl rfl none _ _ r j

/-- The printed `elu` at an entry. -/
theorem elu_at {s : Shape} (v : FVec Ideal s .f32) (i : s.Idx) :
    select (cmpf .ogt v (broadcast s (Scalar.ofBits .f32 0x00000000#32))) v
        (subf (exp v) (broadcast s (Scalar.ofBits .f32 0x3F800000#32))) i = Spec.elu (v i) := rfl

/-- The printed `relu` at an entry. -/
theorem relu_at {s : Shape} (v : FVec Ideal s .f32) (i : s.Idx) :
    maximumf v (broadcast s (Scalar.ofBits .f32 0x00000000#32)) i = Spec.relu (v i) := rfl

/-- The mean channel before its last activation, at an entry. -/
theorem pay6_at (x0 : Vec Ideal S5000x128 .f32) (x1 : Vec Ideal S128x64 .f32) (x2 : Vec Ideal S64 .f32) (x5 : Vec Ideal S64x40 .f32)
    (x6 : Vec Ideal S40 .f32) (r : Fin 5000) (j : Fin 40) :
    k0_pay6 x0 x1 x2 x5 x6 (ix2 r j)
      = Spec.lin (fun c => Spec.elu (Spec.lin (fun k => x0 (ix2 r k)) (fun k c => x1 (ix2 k c)) (fun c => x2 (ix1 c)) c))
          (fun k c => x5 (ix2 k c)) (fun c => x6 (ix1 c)) j := by
  unfold k0_pay6
  refine (addf_apply _ _ _).trans ?_
  rw [bias_at, prod1_at]
  unfold Spec.lin
  refine congrArg (· + x6 (ix1 j)) (Finset.sum_congr rfl fun c _ => ?_)
  rw [elu_at, layer0_at]
  rfl

/-- The variance channel's second product, at an entry. -/
theorem pay7_at (x0 : Vec Ideal S5000x128 .f32) (x3 : Vec Ideal S128x64 .f32) (x4 : Vec Ideal S64 .f32) (x7 : Vec Ideal S64x40 .f32)
    (r : Fin 5000) (j : Fin 40) :
    k0_pay7 x0 x3 x4 x7 (ix2 r j)
      = ∑ c : Fin 64, Spec.relu (Spec.lin (fun k => x0 (ix2 r k)) (fun k c => x3 (ix2 k c)) (fun c => x4 (ix1 c)) c) * x7 (ix2 c j) := by
  unfold k0_pay7
  refine (prod1_at _ _ _ _).trans ?_
  refine Finset.sum_congr rfl fun c _ => ?_
  rw [relu_at, layer0_at]

/-- The variance channel after both layers, the small constant added, at an entry. -/
theorem pay1_at (x0 : Vec Ideal S5000x128 .f32) (x3 : Vec Ideal S128x64 .f32) (x4 : Vec Ideal S64 .f32) (x7 : Vec Ideal S64x40 .f32)
    (x8 : Vec Ideal S40 .f32) (r : Fin 5000) (j : Fin 40) :
    k0_pay1 (k0_pay7 x0 x3 x4 x7) (k0_pay8 x8) (ix2 r j)
      = Spec.var1 (fun k => x0 (ix2 r k)) (fun k c => x3 (ix2 k c)) (fun c => x4 (ix1 c)) (fun k c => x7 (ix2 k c)) (fun c => x8 (ix1 c)) j := by
  unfold k0_pay1 k0_pay8
  refine (addf_apply _ _ _).trans ?_
  rw [broadcast_apply, relu_at, addf_apply, bias_at, pay7_at]
  rfl

/-- The attenuation `exp (-v)` of the variance channel's result `v`, at an entry. -/
theorem pay2_at (x0 : Vec Ideal S5000x128 .f32) (x3 : Vec Ideal S128x64 .f32) (x4 : Vec Ideal S64 .f32) (x7 : Vec Ideal S64x40 .f32)
    (x8 : Vec Ideal S40 .f32) (r : Fin 5000) (j : Fin 40) :
    k0_pay2 (k0_pay7 x0 x3 x4 x7) (k0_pay8 x8) (ix2 r j)
      = Ideal.exp (-(Spec.var1 (fun k => x0 (ix2 r k)) (fun k c => x3 (ix2 k c)) (fun c => x4 (ix1 c)) (fun k c => x7 (ix2 k c)) (fun c => x8 (ix1 c)) j)) := by
  unfold k0_pay2
  show Ideal.exp (Ideal.ofBits .f32 0x00000000#32 - k0_pay1 (k0_pay7 x0 x3 x4 x7) (k0_pay8 x8) (ix2 r j)) = _
  rw [pay1_at, Ideal.ofBits_zero_f32, zero_sub]

/-- THE MEAN OUTPUT'S PAYLOAD at an entry is the attenuated mean row of the block's row. -/
theorem mean_payload_at (x0 : Vec Ideal S5000x128 .f32) (x1 : Vec Ideal S128x64 .f32) (x2 : Vec Ideal S64 .f32) (x3 : Vec Ideal S128x64 .f32)
    (x4 : Vec Ideal S64 .f32) (x5 : Vec Ideal S64x40 .f32) (x6 : Vec Ideal S40 .f32) (x7 : Vec Ideal S64x40 .f32) (x8 : Vec Ideal S40 .f32)
    (r : Fin 5000) (j : Fin 40) :
    k0_pay3 (k0_pay6 x0 x1 x2 x5 x6) (k0_pay7 x0 x3 x4 x7) (k0_pay8 x8) (ix2 r j)
      = Spec.meanRow (fun k => x0 (ix2 r k)) (fun k c => x1 (ix2 k c)) (fun c => x2 (ix1 c)) (fun k c => x3 (ix2 k c)) (fun c => x4 (ix1 c))
          (fun k c => x5 (ix2 k c)) (fun c => x6 (ix1 c)) (fun k c => x7 (ix2 k c)) (fun c => x8 (ix1 c)) j := by
  unfold k0_pay3
  refine (mulf_apply _ _ _).trans ?_
  rw [elu_at, pay6_at, pay2_at]
  rfl

/-- THE VARIANCE OUTPUT'S PAYLOAD at an entry is the attenuated variance row of the block's row. -/
theorem var_payload_at (x0 : Vec Ideal S5000x128 .f32) (x3 : Vec Ideal S128x64 .f32) (x4 : Vec Ideal S64 .f32) (x7 : Vec Ideal S64x40 .f32)
    (x8 : Vec Ideal S40 .f32) (r : Fin 5000) (j : Fin 40) :
    k0_pay4 (k0_pay7 x0 x3 x4 x7) (k0_pay8 x8) (ix2 r j)
      = Spec.varRow (fun k => x0 (ix2 r k)) (fun k c => x3 (ix2 k c)) (fun c => x4 (ix1 c)) (fun k c => x7 (ix2 k c)) (fun c => x8 (ix1 c)) j := by
  unfold k0_pay4
  refine (mulf_apply _ _ _).trans ?_
  rw [mulf_apply, pay1_at, pay2_at]
  rfl

/-! ## From the row blocks to the arrays -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the block of `x` and the two output blocks move with the point, one row
    block per point; every weight and bias block is its whole array at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- The array row that row `p` of point `t`'s block is. -/
def rowOf (t : Fin cfg0.N) (p : Fin 5000) : Fin 100000 :=
  ⟨t.val * 5000 + p.val, by have := t.isLt; have hN : cfg0.N = 20 := N_0; have := p.isLt; omega⟩

/-- Point `t`'s block of `x` is rows `5000 t …` of `x`. -/
theorem xblk_at (c : Dev nD) (t : Fin cfg0.N) (p : Fin 5000) (k : Fin 128) :
    (iblk0 V c 0 t : Vec Ideal S5000x128 .f32) (ix2 p k) = (V c main_arg0 : Spec.A2 100000 128) (ix2 (rowOf t p) k) := by
  obtain ⟨e0, e1, -⟩ := idx_facts t
  show V c main_arg0 (((cfg0.win 0).blk t).view.emb (ix2 p k)) = V c main_arg0 (ix2 (rowOf t p) k)
  refine congrArg (V c main_arg0) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- Every weight or bias block is its whole array, at every point. -/
theorem wm0_at (c : Dev nD) (t : Fin cfg0.N) (k : Fin 128) (j : Fin 64) :
    (iblk0 V c 1 t : Vec Ideal S128x64 .f32) (ix2 k j) = (V c main_arg3 : Spec.A2 128 64) (ix2 k j) := by
  have e0 := (idx_facts t).2.2.1
  have e1 := (idx_facts t).2.2.2.1
  show V c main_arg3 (((cfg0.win 1).blk t).view.emb (ix2 k j)) = V c main_arg3 (ix2 k j)
  refine congrArg (V c main_arg3) (funext fun a => Fin.ext ?_)
  match a with
  | ⟨0, _⟩ => show win0_1.index t (0 : Fin 2) * 128 + 1 * k.val = k.val; rw [e0]; omega
  | ⟨1, _⟩ => show win0_1.index t (1 : Fin 2) * 64 + 1 * j.val = j.val; rw [e1]; omega

theorem bm0_at (c : Dev nD) (t : Fin cfg0.N) (j : Fin 64) :
    (iblk0 V c 2 t : Vec Ideal S64 .f32) (ix1 j) = (V c main_arg4 : Spec.A1 64) (ix1 j) := by
  have e0 := (idx_facts t).2.2.2.2.1
  show V c main_arg4 (((cfg0.win 2).blk t).view.emb (ix1 j)) = V c main_arg4 (ix1 j)
  refine congrArg (V c main_arg4) (funext fun a => Fin.ext ?_)
  match a with
  | ⟨0, _⟩ => show win0_2.index t (0 : Fin 1) * 64 + 1 * j.val = j.val; rw [e0]; omega

theorem wv0_at (c : Dev nD) (t : Fin cfg0.N) (k : Fin 128) (j : Fin 64) :
    (iblk0 V c 3 t : Vec Ideal S128x64 .f32) (ix2 k j) = (V c main_arg5 : Spec.A2 128 64) (ix2 k j) := by
  have e0 := (idx_facts t).2.2.2.2.2.1
  have e1 := (idx_facts t).2.2.2.2.2.2.1
  show V c main_arg5 (((cfg0.win 3).blk t).view.emb (ix2 k j)) = V c main_arg5 (ix2 k j)
  refine congrArg (V c main_arg5) (funext fun a => Fin.ext ?_)
  match a with
  | ⟨0, _⟩ => show win0_3.index t (0 : Fin 2) * 128 + 1 * k.val = k.val; rw [e0]; omega
  | ⟨1, _⟩ => show win0_3.index t (1 : Fin 2) * 64 + 1 * j.val = j.val; rw [e1]; omega

theorem bv0_at (c : Dev nD) (t : Fin cfg0.N) (j : Fin 64) :
    (iblk0 V c 4 t : Vec Ideal S64 .f32) (ix1 j) = (V c main_arg6 : Spec.A1 64) (ix1 j) := by
  have e0 := (idx_facts t).2.2.2.2.2.2.2.1
  show V c main_arg6 (((cfg0.win 4).blk t).view.emb (ix1 j)) = V c main_arg6 (ix1 j)
  refine congrArg (V c main_arg6) (funext fun a => Fin.ext ?_)
  match a with
  | ⟨0, _⟩ => show win0_4.index t (0 : Fin 1) * 64 + 1 * j.val = j.val; rw [e0]; omega

theorem wm1_at (c : Dev nD) (t : Fin cfg0.N) (k : Fin 64) (j : Fin 40) :
    (iblk0 V c 5 t : Vec Ideal S64x40 .f32) (ix2 k j) = (V c main_arg7 : Spec.A2 64 40) (ix2 k j) := by
  have e0 := (idx_facts t).2.2.2.2.2.2.2.2.1
  have e1 := (idx_facts t).2.2.2.2.2.2.2.2.2.1
  show V c main_arg7 (((cfg0.win 5).blk t).view.emb (ix2 k j)) = V c main_arg7 (ix2 k j)
  refine congrArg (V c main_arg7) (funext fun a => Fin.ext ?_)
  match a with
  | ⟨0, _⟩ => show win0_5.index t (0 : Fin 2) * 64 + 1 * k.val = k.val; rw [e0]; omega
  | ⟨1, _⟩ => show win0_5.index t (1 : Fin 2) * 40 + 1 * j.val = j.val; rw [e1]; omega

theorem bm1_at (c : Dev nD) (t : Fin cfg0.N) (j : Fin 40) :
    (iblk0 V c 6 t : Vec Ideal S40 .f32) (ix1 j) = (V c main_arg8 : Spec.A1 40) (ix1 j) := by
  have e0 := (idx_facts t).2.2.2.2.2.2.2.2.2.2.1
  show V c main_arg8 (((cfg0.win 6).blk t).view.emb (ix1 j)) = V c main_arg8 (ix1 j)
  refine congrArg (V c main_arg8) (funext fun a => Fin.ext ?_)
  match a with
  | ⟨0, _⟩ => show win0_6.index t (0 : Fin 1) * 40 + 1 * j.val = j.val; rw [e0]; omega

theorem wv1_at (c : Dev nD) (t : Fin cfg0.N) (k : Fin 64) (j : Fin 40) :
    (iblk0 V c 7 t : Vec Ideal S64x40 .f32) (ix2 k j) = (V c main_arg9 : Spec.A2 64 40) (ix2 k j) := by
  have e0 := (idx_facts t).2.2.2.2.2.2.2.2.2.2.2.1
  have e1 := (idx_facts t).2.2.2.2.2.2.2.2.2.2.2.2.1
  show V c main_arg9 (((cfg0.win 7).blk t).view.emb (ix2 k j)) = V c main_arg9 (ix2 k j)
  refine congrArg (V c main_arg9) (funext fun a => Fin.ext ?_)
  match a with
  | ⟨0, _⟩ => show win0_7.index t (0 : Fin 2) * 64 + 1 * k.val = k.val; rw [e0]; omega
  | ⟨1, _⟩ => show win0_7.index t (1 : Fin 2) * 40 + 1 * j.val = j.val; rw [e1]; omega

theorem bv1_at (c : Dev nD) (t : Fin cfg0.N) (j : Fin 40) :
    (iblk0 V c 8 t : Vec Ideal S40 .f32) (ix1 j) = (V c main_arg10 : Spec.A1 40) (ix1 j) := by
  have e0 := (idx_facts t).2.2.2.2.2.2.2.2.2.2.2.2.2.1
  show V c main_arg10 (((cfg0.win 8).blk t).view.emb (ix1 j)) = V c main_arg10 (ix1 j)
  refine congrArg (V c main_arg10) (funext fun a => Fin.ext ?_)
  match a with
  | ⟨0, _⟩ => show win0_8.index t (0 : Fin 1) * 40 + 1 * j.val = j.val; rw [e0]; omega

/-- Where an entry of point `t`'s output block sits in the mean output. -/
theorem emb9 (t : Fin cfg0.N) (p : Fin 5000) (q : Fin 40) :
    ((cfg0.win 9).blk t).view.emb (ix2 p q) = (ix2 (rowOf t p) q : S100000x40.Idx) := by
  have e0 := (idx_facts t).2.2.2.2.2.2.2.2.2.2.2.2.2.2.1
  have e1 := (idx_facts t).2.2.2.2.2.2.2.2.2.2.2.2.2.2.2.1
  refine funext fun a => Fin.ext ?_
  match a with
  | ⟨0, _⟩ => show win0_9.index t (0 : Fin 2) * 5000 + 1 * p.val = t.val * 5000 + p.val; rw [e0]; omega
  | ⟨1, _⟩ => show win0_9.index t (1 : Fin 2) * 40 + 1 * q.val = q.val; rw [e1]; omega

/-- Where an entry of point `t`'s output block sits in the variance output. -/
theorem emb10 (t : Fin cfg0.N) (p : Fin 5000) (q : Fin 40) :
    ((cfg0.win 10).blk t).view.emb (ix2 p q) = (ix2 (rowOf t p) q : S100000x40.Idx) := by
  have e0 := (idx_facts t).2.2.2.2.2.2.2.2.2.2.2.2.2.2.2.2.1
  have e1 := (idx_facts t).2.2.2.2.2.2.2.2.2.2.2.2.2.2.2.2.2
  refine funext fun a => Fin.ext ?_
  match a with
  | ⟨0, _⟩ => show win0_10.index t (0 : Fin 2) * 5000 + 1 * p.val = t.val * 5000 + p.val; rw [e0]; omega
  | ⟨1, _⟩ => show win0_10.index t (1 : Fin 2) * 40 + 1 * q.val = q.val; rw [e1]; omega

/-- WHAT POINT `t` WRITES BACK to the mean output is block `t` of the attenuated mean of the arrays as the region finds them. -/
theorem flushed9_eq (c : Dev nD) (t : Fin cfg0.N) :
    (dat0 (F := Ideal) V c).flushed 9 t = ((cfg0.win 9).blk t).view.read (Elt Ideal)
      (Spec.meanPre (V c main_arg0) (V c main_arg3) (V c main_arg4) (V c main_arg5) (V c main_arg6) (V c main_arg7)
        (V c main_arg8) (V c main_arg9) (V c main_arg10)) := by
  show (cfg0.win 9).cut (grid0.coords t) ((dat0 V c).after 9 t) = _
  rw [after0_9]
  unfold out0_9
  rw [View.canon_unit_zero hz2]
  simp only [View.ld_unit_zero (S := S5000x128) hz2, View.ld_unit_zero (S := S128x64) hz2, View.ld_unit_zero (S := S64) hz1,
    View.ld_unit_zero (S := S64x40) hz2, View.ld_unit_zero (S := S40) hz1]
  funext j
  obtain ⟨p, q, rfl⟩ : ∃ (p : Fin 5000) (q : Fin 40), j = ix2 p q := ⟨j 0, j 1, eq_ix2 j⟩
  show k0_pay3 (k0_pay6 (iblk0 V c 0 t) (iblk0 V c 1 t) (iblk0 V c 2 t) (iblk0 V c 5 t) (iblk0 V c 6 t))
        (k0_pay7 (iblk0 V c 0 t) (iblk0 V c 3 t) (iblk0 V c 4 t) (iblk0 V c 7 t)) (k0_pay8 (iblk0 V c 8 t)) (ix2 p q)
      = Spec.meanPre (V c main_arg0) (V c main_arg3) (V c main_arg4) (V c main_arg5) (V c main_arg6) (V c main_arg7)
          (V c main_arg8) (V c main_arg9) (V c main_arg10) (((cfg0.win 9).blk t).view.emb (ix2 p q))
  rw [emb9, Spec.meanPre_ix2]
  refine (mean_payload_at (iblk0 V c 0 t) (iblk0 V c 1 t) (iblk0 V c 2 t) (iblk0 V c 3 t) (iblk0 V c 4 t) (iblk0 V c 5 t)
    (iblk0 V c 6 t) (iblk0 V c 7 t) (iblk0 V c 8 t) p q).trans ?_
  unfold Spec.meanPreAt
  rw [show (fun k => (iblk0 V c 0 t : Vec Ideal S5000x128 .f32) (ix2 p k)) = Spec.row (V c main_arg0) (rowOf t p) from
        funext fun k => xblk_at V c t p k,
      show (fun k j => (iblk0 V c 1 t : Vec Ideal S128x64 .f32) (ix2 k j)) = Spec.mat (V c main_arg3) from
        funext fun k => funext fun j => wm0_at V c t k j,
      show (fun j => (iblk0 V c 2 t : Vec Ideal S64 .f32) (ix1 j)) = Spec.vec (V c main_arg4) from funext fun j => bm0_at V c t j,
      show (fun k j => (iblk0 V c 3 t : Vec Ideal S128x64 .f32) (ix2 k j)) = Spec.mat (V c main_arg5) from
        funext fun k => funext fun j => wv0_at V c t k j,
      show (fun j => (iblk0 V c 4 t : Vec Ideal S64 .f32) (ix1 j)) = Spec.vec (V c main_arg6) from funext fun j => bv0_at V c t j,
      show (fun k j => (iblk0 V c 5 t : Vec Ideal S64x40 .f32) (ix2 k j)) = Spec.mat (V c main_arg7) from
        funext fun k => funext fun j => wm1_at V c t k j,
      show (fun j => (iblk0 V c 6 t : Vec Ideal S40 .f32) (ix1 j)) = Spec.vec (V c main_arg8) from funext fun j => bm1_at V c t j,
      show (fun k j => (iblk0 V c 7 t : Vec Ideal S64x40 .f32) (ix2 k j)) = Spec.mat (V c main_arg9) from
        funext fun k => funext fun j => wv1_at V c t k j,
      show (fun j => (iblk0 V c 8 t : Vec Ideal S40 .f32) (ix1 j)) = Spec.vec (V c main_arg10) from funext fun j => bv1_at V c t j]

/-- WHAT POINT `t` WRITES BACK to the variance output is block `t` of the attenuated variance of the arrays as the region
    finds them. -/
theorem flushed10_eq (c : Dev nD) (t : Fin cfg0.N) :
    (dat0 (F := Ideal) V c).flushed 10 t = ((cfg0.win 10).blk t).view.read (Elt Ideal)
      (Spec.varPre (V c main_arg0) (V c main_arg5) (V c main_arg6) (V c main_arg9) (V c main_arg10)) := by
  show (cfg0.win 10).cut (grid0.coords t) ((dat0 V c).after 10 t) = _
  rw [after0_10]
  unfold out0_10
  rw [View.canon_unit_zero hz2]
  simp only [View.ld_unit_zero (S := S5000x128) hz2, View.ld_unit_zero (S := S128x64) hz2, View.ld_unit_zero (S := S64) hz1,
    View.ld_unit_zero (S := S64x40) hz2, View.ld_unit_zero (S := S40) hz1]
  funext j
  obtain ⟨p, q, rfl⟩ : ∃ (p : Fin 5000) (q : Fin 40), j = ix2 p q := ⟨j 0, j 1, eq_ix2 j⟩
  show k0_pay4 (k0_pay7 (iblk0 V c 0 t) (iblk0 V c 3 t) (iblk0 V c 4 t) (iblk0 V c 7 t)) (k0_pay8 (iblk0 V c 8 t)) (ix2 p q)
      = Spec.varPre (V c main_arg0) (V c main_arg5) (V c main_arg6) (V c main_arg9) (V c main_arg10)
          (((cfg0.win 10).blk t).view.emb (ix2 p q))
  rw [emb10, Spec.varPre_ix2]
  refine (var_payload_at (iblk0 V c 0 t) (iblk0 V c 3 t) (iblk0 V c 4 t) (iblk0 V c 7 t) (iblk0 V c 8 t) p q).trans ?_
  unfold Spec.varPreAt
  rw [show (fun k => (iblk0 V c 0 t : Vec Ideal S5000x128 .f32) (ix2 p k)) = Spec.row (V c main_arg0) (rowOf t p) from
        funext fun k => xblk_at V c t p k,
      show (fun k j => (iblk0 V c 3 t : Vec Ideal S128x64 .f32) (ix2 k j)) = Spec.mat (V c main_arg5) from
        funext fun k => funext fun j => wv0_at V c t k j,
      show (fun j => (iblk0 V c 4 t : Vec Ideal S64 .f32) (ix1 j)) = Spec.vec (V c main_arg6) from funext fun j => bv0_at V c t j,
      show (fun k j => (iblk0 V c 7 t : Vec Ideal S64x40 .f32) (ix2 k j)) = Spec.mat (V c main_arg9) from
        funext fun k => funext fun j => wv1_at V c t k j,
      show (fun j => (iblk0 V c 8 t : Vec Ideal S40 .f32) (ix1 j)) = Spec.vec (V c main_arg10) from funext fun j => bv1_at V c t j]

/-- An entry of the mean output is in point `t`'s block iff each coordinate is in the block's range on its axis. -/
theorem mem_blk9 (t : Fin cfg0.N) (i : S100000x40.Idx) :
    i ∈ ((cfg0.win 9).blk t).view.set ↔ ∀ a : Fin 2, win0_9.index t a * S5000x40.size a ≤ (i a).val ∧ (i a).val < win0_9.index t a * S5000x40.size a + S5000x40.size a := by
  show i ∈ ((View.whole main_v55_0).slice (win0_9.rect t)).set ↔ _
  rw [View.set_slice_whole, Rect.mem_set_unit]
  exact Iff.rfl

/-- The same for the variance output. -/
theorem mem_blk10 (t : Fin cfg0.N) (i : S100000x40.Idx) :
    i ∈ ((cfg0.win 10).blk t).view.set ↔ ∀ a : Fin 2, win0_10.index t a * S5000x40.size a ≤ (i a).val ∧ (i a).val < win0_10.index t a * S5000x40.size a + S5000x40.size a := by
  show i ∈ ((View.whole main_v55_1).slice (win0_10.rect t)).set ↔ _
  rw [View.set_slice_whole, Rect.mem_set_unit]
  exact Iff.rfl

/-- The point whose block holds row `r`: `r / 5000`. -/
def pointOf (i : S100000x40.Idx) : Fin cfg0.N :=
  ⟨(i 0).val / 5000, by have h : (i 0).val < 100000 := (i 0).isLt; rw [show cfg0.N = 20 from N_0]; omega⟩

/-- The twenty row blocks cover the mean output. -/
theorem cover9 (i : S100000x40.Idx) : ∃ t : Fin cfg0.N, (cfg0.win 9).flush t = true ∧ i ∈ ((cfg0.win 9).blk t).view.set := by
  refine ⟨pointOf i, flush0_9 _, ?_⟩
  rw [mem_blk9]
  have e0 := (idx_facts (pointOf i)).2.2.2.2.2.2.2.2.2.2.2.2.2.2.1
  have e1 := (idx_facts (pointOf i)).2.2.2.2.2.2.2.2.2.2.2.2.2.2.2.1
  have hv : (pointOf i).val = (i 0).val / 5000 := rfl
  have h0 : (i 0).val < 100000 := (i 0).isLt
  have h1 : (i 1).val < 40 := (i 1).isLt
  intro a
  match a with
  | ⟨0, _⟩ => show win0_9.index (pointOf i) (0 : Fin 2) * 5000 ≤ (i 0).val ∧ (i 0).val < win0_9.index (pointOf i) (0 : Fin 2) * 5000 + 5000; rw [e0, hv]; omega
  | ⟨1, _⟩ => show win0_9.index (pointOf i) (1 : Fin 2) * 40 ≤ (i 1).val ∧ (i 1).val < win0_9.index (pointOf i) (1 : Fin 2) * 40 + 40; rw [e1]; omega

/-- The twenty row blocks cover the variance output. -/
theorem cover10 (i : S100000x40.Idx) : ∃ t : Fin cfg0.N, (cfg0.win 10).flush t = true ∧ i ∈ ((cfg0.win 10).blk t).view.set := by
  refine ⟨pointOf i, flush0_10 _, ?_⟩
  rw [mem_blk10]
  have e0 := (idx_facts (pointOf i)).2.2.2.2.2.2.2.2.2.2.2.2.2.2.2.2.1
  have e1 := (idx_facts (pointOf i)).2.2.2.2.2.2.2.2.2.2.2.2.2.2.2.2.2
  have hv : (pointOf i).val = (i 0).val / 5000 := rfl
  have h0 : (i 0).val < 100000 := (i 0).isLt
  have h1 : (i 1).val < 40 := (i 1).isLt
  intro a
  match a with
  | ⟨0, _⟩ => show win0_10.index (pointOf i) (0 : Fin 2) * 5000 ≤ (i 0).val ∧ (i 0).val < win0_10.index (pointOf i) (0 : Fin 2) * 5000 + 5000; rw [e0, hv]; omega
  | ⟨1, _⟩ => show win0_10.index (pointOf i) (1 : Fin 2) * 40 ≤ (i 1).val ∧ (i 1).val < win0_10.index (pointOf i) (1 : Fin 2) * 40 + 40; rw [e1]; omega

/-- The mean output after the region: the attenuated mean of every row. -/
theorem final9 (c : Dev nD) :
    (dat0 (F := Ideal) V c).arrAt 9 cfg0.N
      = Spec.meanPre (V c main_arg0) (V c main_arg3) (V c main_arg4) (V c main_arg5) (V c main_arg6) (V c main_arg7)
          (V c main_arg8) (V c main_arg9) (V c main_arg10) :=
  (dat0 (F := Ideal) V c).arrAt_eq_of_cover 9
    (Spec.meanPre (V c main_arg0) (V c main_arg3) (V c main_arg4) (V c main_arg5) (V c main_arg6) (V c main_arg7)
      (V c main_arg8) (V c main_arg9) (V c main_arg10))
    (fun t _ => flushed9_eq V c t) cover9

/-- The variance output after the region: the attenuated variance of every row. -/
theorem final10 (c : Dev nD) :
    (dat0 (F := Ideal) V c).arrAt 10 cfg0.N
      = Spec.varPre (V c main_arg0) (V c main_arg5) (V c main_arg6) (V c main_arg9) (V c main_arg10) :=
  (dat0 (F := Ideal) V c).arrAt_eq_of_cover 10
    (Spec.varPre (V c main_arg0) (V c main_arg5) (V c main_arg6) (V c main_arg9) (V c main_arg10))
    (fun t _ => flushed10_eq V c t) cover10

end Cert.KernelIdeal.Dense

end
-- ==== Proof.FinalValue.lean ====
/-
  What the final kernel leaves in its output array: every row block is `log_softmax` of `mean + noise * sqrt var` of
  the matching rows; the ten row blocks cover the array.
-/
import proofs.«118224_j18047452578190_1_alg».proof.Proof.Gen.KernelIdeal.Frame
import proofs.«118224_j18047452578190_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Final

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

/-! ## Column layouts: a vector stood up as one column, a column laid along every column -/

section Column
variable {α : Type}

/-- An `[a]` array cast to `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The body's value, entry by entry -/

/-- The index over row `r` with column `k` put back is `(r, k)`. -/
theorem lift_row (h : S10000x40.Reduces [1] S10000) (r : Fin 10000) (k : Fin 40) : h.lift (ix1 r) k = ix2 r k := by
  funext c
  apply Fin.ext
  match c with
  | ⟨0, _⟩ => rfl
  | ⟨1, _⟩ => rfl

/-- The row maximum of a block, from `-∞`, at row `r`. -/
theorem rowMax_at (z : FVec Ideal S10000x40 .f32) (h : S10000x40.Reduces [1] S10000) (hφ : FKind.Formats .f32)
    (hacc : (0xFF800000#32 : BitVec 32) = FKind.maximumf.neutral .f32 hφ) (r : Fin 10000) :
    multiReduction (F := Ideal) .maximumf [1] S10000 z 0xFF800000#32 h hφ hacc (ix1 r) = Spec.rowMax (fun k => z (ix2 r k)) := by
  refine (Ideal.multiReduction_maximumf_single z 0xFF800000#32 h hφ hacc (ix1 r)).trans ?_
  show (Finset.univ : Finset (Fin 40)).fold max Spec.wNegInf (fun k => z (h.lift (ix1 r) k)) = _
  unfold Spec.rowMax
  exact congrArg (fun f => (Finset.univ : Finset (Fin 40)).fold max Spec.wNegInf f)
    (funext fun k : Fin 40 => congrArg z (lift_row h r k))

/-- The row sum of a block, at row `r`. -/
theorem rowSum_at (z : FVec Ideal S10000x40 .f32) (h : S10000x40.Reduces [1] S10000) (hφ : FKind.Formats .f32)
    (hacc : (0x00000000#32 : BitVec 32) = FKind.add.neutral .f32 hφ) (r : Fin 10000) :
    multiReduction (F := Ideal) .add [1] S10000 z 0x00000000#32 h hφ hacc (ix1 r) = ∑ k : Fin 40, z (ix2 r k) := by
  refine (Ideal.multiReduction_add_single z 0x00000000#32 h hφ hacc (ix1 r)).trans ?_
  show ∑ k : Fin 40, z (h.lift (ix1 r) k) = _
  refine Finset.sum_congr rfl fun k _ => ?_
  rw [lift_row]

/-- `log_softmax` along the rows of a block `z`, as the body spells it, at entry `(r, j)`. -/
theorem logSoftmax_at (z : FVec Ideal S10000x40 .f32) (h : S10000x40.Reduces [1] S10000) (hφ : FKind.Formats .f32)
    (hmax : (0xFF800000#32 : BitVec 32) = FKind.maximumf.neutral .f32 hφ)
    (hadd : (0x00000000#32 : BitVec 32) = FKind.add.neutral .f32 hφ)
    (hc : S10000.ShapeCasts S10000x1) (hb : S10000x1.Broadcasts S10000x40) (r : Fin 10000) (j : Fin 40) :
    subf (subf z (broadcastTo S10000x40 (shapeCast S10000x1 (multiReduction (F := Ideal) .maximumf [1] S10000 z 0xFF800000#32 h hφ hmax) hc) hb))
      (broadcastTo S10000x40 (log (shapeCast S10000x1 (multiReduction (F := Ideal) .add [1] S10000
        (exp (subf z (broadcastTo S10000x40 (shapeCast S10000x1 (multiReduction (F := Ideal) .maximumf [1] S10000 z 0xFF800000#32 h hφ hmax) hc) hb)))
        0x00000000#32 h hφ hadd) hc)) hb) (ix2 r j)
      = (z (ix2 r j) - Spec.rowMax (fun k => z (ix2 r k)))
        - Ideal.log (∑ k : Fin 40, Ideal.exp (z (ix2 r k) - Spec.rowMax (fun k => z (ix2 r k)))) := by
  -- the shifted block at any entry of row `r`
  have hshift : ∀ k : Fin 40,
      subf z (broadcastTo S10000x40 (shapeCast S10000x1 (multiReduction (F := Ideal) .maximumf [1] S10000 z 0xFF800000#32 h hφ hmax) hc) hb) (ix2 r k)
        = z (ix2 r k) - Spec.rowMax (fun k => z (ix2 r k)) := by
    intro k
    rw [subf_apply]
    refine congrArg (fun m => z (ix2 r k) - m) ?_
    refine (broadcastTo_a1_ab_apply _ hb r k).trans ?_
    refine (shapeCast_a_a1_apply _ hc r (0 : Fin 1)).trans ?_
    exact rowMax_at z h hφ hmax r
  rw [subf_apply, hshift j]
  refine congrArg (fun m => (z (ix2 r j) - Spec.rowMax (fun k => z (ix2 r k))) - m) ?_
  refine (broadcastTo_a1_ab_apply _ hb r j).trans ?_
  show Ideal.log (shapeCast S10000x1 _ hc (ix2 r (0 : Fin 1))) = _
  refine congrArg Ideal.log ?_
  refine (shapeCast_a_a1_apply _ hc r (0 : Fin 1)).trans ?_
  refine (rowSum_at _ h hφ hadd r).trans ?_
  refine Finset.sum_congr rfl fun k _ => ?_
  show Ideal.exp (subf z _ (ix2 r k)) = _
  rw [hshift k]

/-- THE BODY'S VALUE at entry `(r, j)` of its block: `log_softmax` of the row of logits `mean + noise * sqrt var`. -/
theorem pay_at (x0 x1 x2 : Vec Ideal S10000x40 .f32) (r : Fin 10000) (j : Fin 40) :
    k1_pay1 (F := Ideal) x0 x1 x2 (ix2 r j)
      = Spec.lsRow (fun k => x0 (ix2 r k)) (fun k => x1 (ix2 r k)) (fun k => x2 (ix2 r k)) j := by
  have hz : ∀ k : Fin 40,
      (addf (shapeCast S10000x40 x0 shapeCasts_S10000x40_S10000x40)
        (mulf x2 (sqrt (shapeCast S10000x40 x1 shapeCasts_S10000x40_S10000x40))) : FVec Ideal S10000x40 .f32) (ix2 r k)
        = Spec.logit (fun k => x0 (ix2 r k)) (fun k => x1 (ix2 r k)) (fun k => x2 (ix2 r k)) k := by
    intro k
    rw [shapeCast_self, shapeCast_self]
    rfl
  unfold k1_pay1
  refine (logSoftmax_at _ reduces_S10000x40_S10000 (.inl rfl) rfl rfl shapeCasts_S10000_S10000x1 broadcasts_S10000x1_S10000x40 r j).trans ?_
  unfold Spec.lsRow
  rw [hz j]
  simp only [hz]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point `t` every window's block is block `t` of the rows and the
    one block of the columns. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The array's row under row `p` of point `t`'s block. -/
def arow (t : Fin cfg1.N) (p : Fin 10000) : Fin 100000 :=
  ⟨t.val * 10000 + p.val, by have h : t.val < 10 := Nat.lt_of_lt_of_eq t.isLt N_1; have := p.isLt; omega⟩

/-- The aggregated mean's block at point `t` is rows `10000 t …` of its array. -/
theorem blk0_apply (c : Dev nD) (t : Fin cfg1.N) (p : Fin 10000) (k : Fin 40) :
    (iblk1 V c 0 t : Vec Ideal S10000x40 .f32) (ix2 p k) = (V c main_v68 : S100000x40.Idx → EReal) (ix2 (arow t p) k) := by
  obtain ⟨e0, e1, -⟩ := idx_facts t
  unfold iblk1
  rw [View.read_apply]
  show V c main_v68 _ = V c main_v68 _
  congr 1
  funext a
  apply Fin.ext
  match a with
  | ⟨0, _⟩ => show win1_0.index t (0 : Fin 2) * 10000 + 1 * p.val = t.val * 10000 + p.val; omega
  | ⟨1, _⟩ => show win1_0.index t (1 : Fin 2) * 40 + 1 * k.val = k.val; omega

/-- The aggregated variance's block at point `t` is rows `10000 t …` of its array. -/
theorem blk1_apply (c : Dev nD) (t : Fin cfg1.N) (p : Fin 10000) (k : Fin 40) :
    (iblk1 V c 1 t : Vec Ideal S10000x40 .f32) (ix2 p k) = (V c main_v81 : S100000x40.Idx → EReal) (ix2 (arow t p) k) := by
  obtain ⟨-, -, e0, e1, -⟩ := idx_facts t
  unfold iblk1
  rw [View.read_apply]
  show V c main_v81 _ = V c main_v81 _
  congr 1
  funext a
  apply Fin.ext
  match a with
  | ⟨0, _⟩ => show win1_1.index t (0 : Fin 2) * 10000 + 1 * p.val = t.val * 10000 + p.val; omega
  | ⟨1, _⟩ => show win1_1.index t (1 : Fin 2) * 40 + 1 * k.val = k.val; omega

/-- The noise's block at point `t` is rows `10000 t …` of its array. -/
theorem blk2_apply (c : Dev nD) (t : Fin cfg1.N) (p : Fin 10000) (k : Fin 40) :
    (iblk1 V c 2 t : Vec Ideal S10000x40 .f32) (ix2 p k) = (V c main_arg2 : S100000x40.Idx → EReal) (ix2 (arow t p) k) := by
  obtain ⟨-, -, -, -, e0, e1, -⟩ := idx_facts t
  unfold iblk1
  rw [View.read_apply]
  show V c main_arg2 _ = V c main_arg2 _
  congr 1
  funext a
  apply Fin.ext
  match a with
  | ⟨0, _⟩ => show win1_2.index t (0 : Fin 2) * 10000 + 1 * p.val = t.val * 10000 + p.val; omega
  | ⟨1, _⟩ => show win1_2.index t (1 : Fin 2) * 40 + 1 * k.val = k.val; omega

/-- Entry `(p, q)` of the output's block at point `t` sits at `(10000 t + p, q)` of the array. -/
theorem emb3 (t : Fin cfg1.N) (p : Fin 10000) (q : Fin 40) :
    ((cfg1.win 3).blk t).view.emb (ix2 p q) = (ix2 (arow t p) q : S100000x40.Idx) := by
  obtain ⟨-, -, -, -, -, -, e0, e1⟩ := idx_facts t
  funext a
  apply Fin.ext
  match a with
  | ⟨0, _⟩ => show win1_3.index t (0 : Fin 2) * 10000 + 1 * p.val = t.val * 10000 + p.val; omega
  | ⟨1, _⟩ => show win1_3.index t (1 : Fin 2) * 40 + 1 * q.val = q.val; omega

/-- WHAT POINT `t` WRITES BACK is block `t` of `log_softmax` of the logits of the arrays as the region finds them. -/
theorem flushed_eq (c : Dev nD) (t : Fin cfg1.N) :
    (dat1 (F := Ideal) V c).flushed 3 t
      = ((cfg1.win 3).blk t).view.read (Elt Ideal) (Spec.combine (V c main_v68) (V c main_v81) (V c main_arg2)) := by
  show (cfg1.win 3).cut (grid1.coords t) ((dat1 V c).after 3 t) = _
  rw [after1_3]
  unfold out1_3
  rw [View.canon_unit_zero hz]
  simp only [View.ld_unit_zero (S := S10000x40) hz]
  funext j
  obtain ⟨p, q, rfl⟩ : ∃ (p : Fin 10000) (q : Fin 40), j = ix2 p q := ⟨j 0, j 1, eq_ix2 j⟩
  refine (pay_at (iblk1 V c 0 t) (iblk1 V c 1 t) (iblk1 V c 2 t) p q).trans ?_
  rw [View.read_apply]
  show _ = Spec.combine (V c main_v68) (V c main_v81) (V c main_arg2) (((cfg1.win 3).blk t).view.emb (ix2 p q))
  rw [emb3 t p q, Spec.combine_ix2]
  unfold Spec.combineAt
  have h0 := funext (blk0_apply V c t p)
  have h1 := funext (blk1_apply V c t p)
  have h2 := funext (blk2_apply V c t p)
  rw [h0, h1, h2]

/-- An index of the array is in point `t`'s block iff each coordinate is in the block's range on its axis. -/
theorem mem_blk (t : Fin cfg1.N) (i : S100000x40.Idx) :
    i ∈ ((cfg1.win 3).blk t).view.set ↔ ∀ a : Fin 2, win1_3.index t a * S10000x40.size a ≤ (i a).val ∧ (i a).val < win1_3.index t a * S10000x40.size a + S10000x40.size a := by
  show i ∈ ((View.whole main_v82).slice (win1_3.rect t)).set ↔ _
  rw [View.set_slice_whole, Rect.mem_set_unit]
  exact Iff.rfl

/-- Every row of the array is in some point's block: row `r` in point `r / 10000`'s. -/
theorem cover (i : S100000x40.Idx) : ∃ t : Fin cfg1.N, (cfg1.win 3).flush t = true ∧ i ∈ ((cfg1.win 3).blk t).view.set := by
  have hi0 : (i 0).val < 100000 := (i 0).isLt
  have hi1 : (i 1).val < 40 := (i 1).isLt
  have hN : cfg1.N = 10 := N_1
  have ht : (i 0).val / 10000 < cfg1.N := by rw [hN]; omega
  obtain ⟨-, -, -, -, -, -, e0, e1⟩ := idx_facts ⟨(i 0).val / 10000, ht⟩
  refine ⟨⟨(i 0).val / 10000, ht⟩, flush1_3 _, ?_⟩
  rw [mem_blk]
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win1_3.index ⟨(i 0).val / 10000, ht⟩ (1 : Fin 2) * 40 ≤ (i 1).val
      ∧ (i 1).val < win1_3.index ⟨(i 0).val / 10000, ht⟩ (1 : Fin 2) * 40 + 40
    rw [e1]
    omega

/-- The output after the region: `log_softmax` of the logits, row by row. -/
theorem final3 (c : Dev nD) :
    (dat1 (F := Ideal) V c).arrAt 3 cfg1.N = Spec.combine (V c main_v68) (V c main_v81) (V c main_arg2) :=
  (dat1 V c).arrAt_eq_of_cover 3 (Spec.combine (V c main_v68) (V c main_v81) (V c main_arg2))
    (fun t _ => flushed_eq V c t) cover

end Cert.KernelIdeal.Final

end
-- ==== Proof.RefOps.lean ====
/- The reference program's operations in order, one list per window of its @main, a called function's operations in its
   call's place; each list's operations touch TensorCore references only. A table laid out from the printed program. -/
import proofs.«118224_j18047452578190_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The 64 operations of window 0 of @main. -/
abbrev ops0 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v3 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0xBF000000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (Host.powf : (⟨S100000, .f32⟩ : BufTy).Contents (Elt F) → (⟨S100000, .f32⟩ : BufTy).Contents (Elt F) → (⟨S100000, .f32⟩ : BufTy).Contents (Elt F)),
    StableHlo.nullary main_cst_3 (constant S_ .f32 0x00000000#32),
    StableHlo.TRef.unary (.of main_cst_3 : StableHlo.TRef sig ⟨S_, .f32⟩) main_call0.v0 id,
    StableHlo.TRef.unary main_call0.v0 main_call0.v1 (broadcastInDim S100000 ![] bcast_S_S100000),
    StableHlo.TRef.ternary (.of main_v12 : StableHlo.TRef sig ⟨S100000, .i1⟩) (.of main_v14 : StableHlo.TRef sig ⟨S100000, .f32⟩) main_call0.v1 main_call0.v2 select,
    StableHlo.nullary main_c (constantI S_ 32 0#32),
    StableHlo.unary main_c main_v16 (broadcastInDim S1700000 ![] bcast_S_S1700000 : (⟨S_, .i32⟩ : BufTy).Contents (Elt F) → (⟨S1700000, .i32⟩ : BufTy).Contents (Elt F)),
    StableHlo.binary main_v3 main_v16 main_v17 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v18 (broadcastInDim S1700000 ![] bcast_S_S1700000 : (⟨S_, .i32⟩ : BufTy).Contents (Elt F) → (⟨S1700000, .i32⟩ : BufTy).Contents (Elt F)),
    StableHlo.binary main_v3 main_v18 main_v19 (addi : (⟨S1700000, .i32⟩ : BufTy).Contents (Elt F) → (⟨S1700000, .i32⟩ : BufTy).Contents (Elt F) → (⟨S1700000, .i32⟩ : BufTy).Contents (Elt F)),
    StableHlo.ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v20 main_v21 (broadcastInDim S1700000x1 ![0] bcast_S1700000_S1700000x1_0 : (⟨S1700000, .i32⟩ : BufTy).Contents (Elt F) → (⟨S1700000x1, .i32⟩ : BufTy).Contents (Elt F)),
    StableHlo.binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_5 (constantI S_ 32 0#32),
    StableHlo.unary main_c_5 main_v23 (broadcastInDim S1700000 ![] bcast_S_S1700000 : (⟨S_, .i32⟩ : BufTy).Contents (Elt F) → (⟨S1700000, .i32⟩ : BufTy).Contents (Elt F)),
    StableHlo.binary main_v6 main_v23 main_v24 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v25 (broadcastInDim S1700000 ![] bcast_S_S1700000 : (⟨S_, .i32⟩ : BufTy).Contents (Elt F) → (⟨S1700000, .i32⟩ : BufTy).Contents (Elt F)),
    StableHlo.binary main_v6 main_v25 main_v26 (addi : (⟨S1700000, .i32⟩ : BufTy).Contents (Elt F) → (⟨S1700000, .i32⟩ : BufTy).Contents (Elt F) → (⟨S1700000, .i32⟩ : BufTy).Contents (Elt F)),
    StableHlo.ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v27 main_v28 (broadcastInDim S1700000x1 ![0] bcast_S1700000_S1700000x1_0 : (⟨S1700000, .i32⟩ : BufTy).Contents (Elt F) → (⟨S1700000x1, .i32⟩ : BufTy).Contents (Elt F)),
    StableHlo.binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v22 main_v29 main_v30 (mulf : (⟨S1700000, .f32⟩ : BufTy).Contents (Elt F) → (⟨S1700000, .f32⟩ : BufTy).Contents (Elt F) → (⟨S1700000, .f32⟩ : BufTy).Contents (Elt F)),
    StableHlo.nullary main_cst_7 (constant S_ .f32 0x3F800000#32),
    StableHlo.unary main_cst_7 main_v31 (broadcastInDim S1700000 ![] bcast_S_S1700000 : (⟨S_, .f32⟩ : BufTy).Contents (Elt F) → (⟨S1700000, .f32⟩ : BufTy).Contents (Elt F)),
    StableHlo.nullary main_cst_8 (constant S_ .f32 0x00000000#32),
    StableHlo.unary main_cst_8 main_v32 (broadcastInDim S100000 ![] bcast_S_S100000 : (⟨S_, .f32⟩ : BufTy).Contents (Elt F) → (⟨S100000, .f32⟩ : BufTy).Contents (Elt F)),
    StableHlo.unary main_v3 main_v33 (broadcastInDim S1700000x1 ![0] bcast_S1700000_S1700000x1_0 : (⟨S1700000, .i32⟩ : BufTy).Contents (Elt F) → (⟨S1700000x1, .i32⟩ : BufTy).Contents (Elt F)),
    StableHlo.ternary main_v32 main_v33 main_v31 main_v34 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_9 (constant S_ .f32 0x00000000#32),
    StableHlo.unary main_cst_9 main_v35 (broadcastInDim S100000 ![] bcast_S_S100000 : (⟨S_, .f32⟩ : BufTy).Contents (Elt F) → (⟨S100000, .f32⟩ : BufTy).Contents (Elt F)),
    StableHlo.binary main_v34 main_v35 main_v36 (cmpf .ogt : (⟨S100000, .f32⟩ : BufTy).Contents (Elt F) → (⟨S100000, .f32⟩ : BufTy).Contents (Elt F) → (⟨S100000, .i1⟩ : BufTy).Contents (Elt F)),
    StableHlo.nullary main_cst_10 (constant S_ .f32 0xBF800000#32),
    StableHlo.unary main_cst_10 main_v37 (broadcastInDim S100000 ![] bcast_S_S100000 : (⟨S_, .f32⟩ : BufTy).Contents (Elt F) → (⟨S100000, .f32⟩ : BufTy).Contents (Elt F)),
    StableHlo.binary main_v34 main_v37 main_v38 (Host.powf : (⟨S100000, .f32⟩ : BufTy).Contents (Elt F) → (⟨S100000, .f32⟩ : BufTy).Contents (Elt F) → (⟨S100000, .f32⟩ : BufTy).Contents (Elt F)),
    StableHlo.nullary main_cst_11 (constant S_ .f32 0x00000000#32),
    StableHlo.TRef.unary (.of main_cst_11 : StableHlo.TRef sig ⟨S_, .f32⟩) main_call1.v0 id,
    StableHlo.TRef.unary main_call1.v0 main_call1.v1 (broadcastInDim S100000 ![] bcast_S_S100000),
    StableHlo.TRef.ternary (.of main_v36 : StableHlo.TRef sig ⟨S100000, .i1⟩) (.of main_v38 : StableHlo.TRef sig ⟨S100000, .f32⟩) main_call1.v1 main_call1.v2 select,
    StableHlo.nullary main_c_12 (constantI S_ 32 0#32),
    StableHlo.unary main_c_12 main_v40 (broadcastInDim S1700000 ![] bcast_S_S1700000 : (⟨S_, .i32⟩ : BufTy).Contents (Elt F) → (⟨S1700000, .i32⟩ : BufTy).Contents (Elt F)),
    StableHlo.binary main_v3 main_v40 main_v41 (cmpi .slt : (⟨S1700000, .i32⟩ : BufTy).Contents (Elt F) → (⟨S1700000, .i32⟩ : BufTy).Contents (Elt F) → (⟨S1700000, .i1⟩ : BufTy).Contents (Elt F)),
    StableHlo.nullary main_c_13 (constantI S_ 32 100000#32),
    StableHlo.unary main_c_13 main_v42 (broadcastInDim S1700000 ![] bcast_S_S1700000 : (⟨S_, .i32⟩ : BufTy).Contents (Elt F) → (⟨S1700000, .i32⟩ : BufTy).Contents (Elt F)),
    StableHlo.binary main_v3 main_v42 main_v43 (addi : (⟨S1700000, .i32⟩ : BufTy).Contents (Elt F) → (⟨S1700000, .i32⟩ : BufTy).Contents (Elt F) → (⟨S1700000, .i32⟩ : BufTy).Contents (Elt F)) ]
set_option maxRecDepth 8192 in
theorem ops0_sub : (ops0 : List (HloOp τ sig (Elt F))).Forall fun op => op.bufs ⊆ tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub ..⟩

/-- The 92 operations of window 1 of @main. -/
abbrev ops1 : List (HloOp τ sig (Elt F)) :=
  [ StableHlo.ternary main_v41 main_v43 main_v3 main_v44 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v44 main_v45 (broadcastInDim S1700000x1 ![0] bcast_S1700000_S1700000x1_0 : (⟨S1700000, .i32⟩ : BufTy).Contents (Elt F) → (⟨S1700000x1, .i32⟩ : BufTy).Contents (Elt F)),
    StableHlo.binary main_v39 main_v45 main_v46 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_14 (constantI S_ 32 0#32),
    StableHlo.unary main_c_14 main_v47 (broadcastInDim S1700000 ![] bcast_S_S1700000 : (⟨S_, .i32⟩ : BufTy).Contents (Elt F) → (⟨S1700000, .i32⟩ : BufTy).Contents (Elt F)),
    StableHlo.binary main_v6 main_v47 main_v48 (cmpi .slt : (⟨S1700000, .i32⟩ : BufTy).Contents (Elt F) → (⟨S1700000, .i32⟩ : BufTy).Contents (Elt F) → (⟨S1700000, .i1⟩ : BufTy).Contents (Elt F)),
    StableHlo.nullary main_c_15 (constantI S_ 32 100000#32),
    StableHlo.unary main_c_15 main_v49 (broadcastInDim S1700000 ![] bcast_S_S1700000 : (⟨S_, .i32⟩ : BufTy).Contents (Elt F) → (⟨S1700000, .i32⟩ : BufTy).Contents (Elt F)),
    StableHlo.binary main_v6 main_v49 main_v50 (addi : (⟨S1700000, .i32⟩ : BufTy).Contents (Elt F) → (⟨S1700000, .i32⟩ : BufTy).Contents (Elt F) → (⟨S1700000, .i32⟩ : BufTy).Contents (Elt F)),
    StableHlo.ternary main_v48 main_v50 main_v6 main_v51 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v51 main_v52 (broadcastInDim S1700000x1 ![0] bcast_S1700000_S1700000x1_0 : (⟨S1700000, .i32⟩ : BufTy).Contents (Elt F) → (⟨S1700000x1, .i32⟩ : BufTy).Contents (Elt F)),
    StableHlo.binary main_v39 main_v52 main_v53 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v46 main_v53 main_v54 (mulf : (⟨S1700000, .f32⟩ : BufTy).Contents (Elt F) → (⟨S1700000, .f32⟩ : BufTy).Contents (Elt F) → (⟨S1700000, .f32⟩ : BufTy).Contents (Elt F)),
    StableHlo.binary main_arg0 main_arg3 main_v55 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg4 main_v56 (broadcastInDim S1x64 ![1] bcast_S64_S1x64_1 : (⟨S64, .f32⟩ : BufTy).Contents (Elt F) → (⟨S1x64, .f32⟩ : BufTy).Contents (Elt F)),
    StableHlo.unary main_v56 main_v57 (broadcastInDim S100000x64 ![0, 1] bcast_S1x64_S100000x64_0_1 : (⟨S1x64, .f32⟩ : BufTy).Contents (Elt F) → (⟨S100000x64, .f32⟩ : BufTy).Contents (Elt F)),
    StableHlo.binary main_v55 main_v57 main_v58 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (.of main_v58 : StableHlo.TRef sig ⟨S100000x64, .f32⟩) main_call2.v0 main_call2.v1 (cmpf .ogt),
    StableHlo.TRef.nullary main_call2.cst_0 (constant S_ .f32 0x00000000#32),
    StableHlo.TRef.unary main_call2.cst_0 main_call2.v2 (broadcastInDim S100000x64 ![] bcast_S_S100000x64),
    StableHlo.TRef.binary (.of main_v58 : StableHlo.TRef sig ⟨S100000x64, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x64 ![] bcast_S_S100000x64),
    StableHlo.TRef.ternary main_call2.v3 main_call2.call0.v1 (.of main_v58 : StableHlo.TRef sig ⟨S100000x64, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x64 ![] bcast_S_S100000x64),
    StableHlo.TRef.binary main_call2.v6 main_call2.v5 main_call2.v7 mulf,
    StableHlo.TRef.ternary main_call2.v1 (.of main_v58 : StableHlo.TRef sig ⟨S100000x64, .f32⟩) main_call2.v7 main_call2.call1.v0 select,
    StableHlo.binary main_arg0 main_arg5 main_v60 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg6 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S100000x64 ![0, 1] bcast_S1x64_S100000x64_0_1 : (⟨S1x64, .f32⟩ : BufTy).Contents (Elt F) → (⟨S100000x64, .f32⟩ : BufTy).Contents (Elt F)),
    StableHlo.binary main_v60 main_v62 main_v63 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v63 : StableHlo.TRef sig ⟨S100000x64, .f32⟩) main_call3.v0 main_call3.v1 maximumf,
    StableHlo.binary main_v59 main_arg7 main_v65 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    StableHlo.unary main_arg8 main_v66 (broadcastInDim S1x40 ![1] bcast_S40_S1x40_1 : (⟨S40, .f32⟩ : BufTy).Contents (Elt F) → (⟨S1x40, .f32⟩ : BufTy).Contents (Elt F)),
    StableHlo.unary main_v66 main_v67 (broadcastInDim S100000x40 ![0, 1] bcast_S1x40_S100000x40_0_1 : (⟨S1x40, .f32⟩ : BufTy).Contents (Elt F) → (⟨S100000x40, .f32⟩ : BufTy).Contents (Elt F)),
    StableHlo.binary main_v65 main_v67 main_v68 (addf : (⟨S100000x40, .f32⟩ : BufTy).Contents (Elt F) → (⟨S100000x40, .f32⟩ : BufTy).Contents (Elt F) → (⟨S100000x40, .f32⟩ : BufTy).Contents (Elt F)),
    StableHlo.TRef.nullary main_call4.cst (constant S_ .f32 0x00000000#32),
    StableHlo.TRef.unary main_call4.cst main_call4.v0 (broadcastInDim S100000x40 ![] bcast_S_S100000x40),
    StableHlo.TRef.binary (.of main_v68 : StableHlo.TRef sig ⟨S100000x40, .f32⟩) main_call4.v0 main_call4.v1 (cmpf .ogt),
    StableHlo.TRef.nullary main_call4.cst_0 (constant S_ .f32 0x00000000#32),
    StableHlo.TRef.unary main_call4.cst_0 main_call4.v2 (broadcastInDim S100000x40 ![] bcast_S_S100000x40),
    StableHlo.TRef.binary (.of main_v68 : StableHlo.TRef sig ⟨S100000x40, .f32⟩) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S100000x40 ![] bcast_S_S100000x40),
    StableHlo.TRef.ternary main_call4.v3 main_call4.call0.v1 (.of main_v68 : StableHlo.TRef sig ⟨S100000x40, .f32⟩) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S100000x40 ![] bcast_S_S100000x40),
    StableHlo.TRef.binary main_call4.v6 main_call4.v5 main_call4.v7 mulf,
    StableHlo.TRef.ternary main_call4.v1 (.of main_v68 : StableHlo.TRef sig ⟨S100000x40, .f32⟩) main_call4.v7 main_call4.call1.v0 select,
    StableHlo.binary main_v64 main_arg9 main_v70 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    StableHlo.unary main_arg10 main_v71 (broadcastInDim S1x40 ![1] bcast_S40_S1x40_1 : (⟨S40, .f32⟩ : BufTy).Contents (Elt F) → (⟨S1x40, .f32⟩ : BufTy).Contents (Elt F)),
    StableHlo.unary main_v71 main_v72 (broadcastInDim S100000x40 ![0, 1] bcast_S1x40_S100000x40_0_1 : (⟨S1x40, .f32⟩ : BufTy).Contents (Elt F) → (⟨S100000x40, .f32⟩ : BufTy).Contents (Elt F)),
    StableHlo.binary main_v70 main_v72 main_v73 (addf : (⟨S100000x40, .f32⟩ : BufTy).Contents (Elt F) → (⟨S100000x40, .f32⟩ : BufTy).Contents (Elt F) → (⟨S100000x40, .f32⟩ : BufTy).Contents (Elt F)),
    StableHlo.TRef.nullary main_call5.cst (constant S_ .f32 0x00000000#32),
    StableHlo.TRef.unary main_call5.cst main_call5.v0 (broadcastInDim S100000x40 ![] bcast_S_S100000x40),
    StableHlo.TRef.binary (.of main_v73 : StableHlo.TRef sig ⟨S100000x40, .f32⟩) main_call5.v0 main_call5.v1 maximumf,
    StableHlo.nullary main_cst_16 (constant S_ .f32 0x358637BD#32),
    StableHlo.unary main_cst_16 main_v75 (broadcastInDim S100000x40 ![] bcast_S_S100000x40 : (⟨S_, .f32⟩ : BufTy).Contents (Elt F) → (⟨S100000x40, .f32⟩ : BufTy).Contents (Elt F)),
    StableHlo.binary main_v74 main_v75 main_v76 (addf : (⟨S100000x40, .f32⟩ : BufTy).Contents (Elt F) → (⟨S100000x40, .f32⟩ : BufTy).Contents (Elt F) → (⟨S100000x40, .f32⟩ : BufTy).Contents (Elt F)),
    StableHlo.unary main_v76 main_v77 (Host.negf : (⟨S100000x40, .f32⟩ : BufTy).Contents (Elt F) → (⟨S100000x40, .f32⟩ : BufTy).Contents (Elt F)),
    StableHlo.unary main_v77 main_v78 (Host.exp : (⟨S100000x40, .f32⟩ : BufTy).Contents (Elt F) → (⟨S100000x40, .f32⟩ : BufTy).Contents (Elt F)),
    StableHlo.binary main_v69 main_v78 main_v79 (mulf : (⟨S100000x40, .f32⟩ : BufTy).Contents (Elt F) → (⟨S100000x40, .f32⟩ : BufTy).Contents (Elt F) → (⟨S100000x40, .f32⟩ : BufTy).Contents (Elt F)),
    StableHlo.binary main_v76 main_v78 main_v80 (mulf : (⟨S100000x40, .f32⟩ : BufTy).Contents (Elt F) → (⟨S100000x40, .f32⟩ : BufTy).Contents (Elt F) → (⟨S100000x40, .f32⟩ : BufTy).Contents (Elt F)),
    StableHlo.binary main_v80 main_v78 main_v81 (mulf : (⟨S100000x40, .f32⟩ : BufTy).Contents (Elt F) → (⟨S100000x40, .f32⟩ : BufTy).Contents (Elt F) → (⟨S100000x40, .f32⟩ : BufTy).Contents (Elt F)),
    StableHlo.unary main_v30 main_v82 (broadcastInDim S1700000x1 ![0] bcast_S1700000_S1700000x1_0 : (⟨S1700000, .f32⟩ : BufTy).Contents (Elt F) → (⟨S1700000x1, .f32⟩ : BufTy).Contents (Elt F)),
    StableHlo.nullary main_c_17 (constantI S_ 32 0#32),
    StableHlo.unary main_c_17 main_v83 (broadcastInDim S1700000 ![] bcast_S_S1700000 : (⟨S_, .i32⟩ : BufTy).Contents (Elt F) → (⟨S1700000, .i32⟩ : BufTy).Contents (Elt F)),
    StableHlo.binary main_v6 main_v83 main_v84 (cmpi .slt : (⟨S1700000, .i32⟩ : BufTy).Contents (Elt F) → (⟨S1700000, .i32⟩ : BufTy).Contents (Elt F) → (⟨S1700000, .i1⟩ : BufTy).Contents (Elt F)),
    StableHlo.nullary main_c_18 (constantI S_ 32 100000#32),
    StableHlo.unary main_c_18 main_v85 (broadcastInDim S1700000 ![] bcast_S_S1700000 : (⟨S_, .i32⟩ : BufTy).Contents (Elt F) → (⟨S1700000, .i32⟩ : BufTy).Contents (Elt F)),
    StableHlo.binary main_v6 main_v85 main_v86 (addi : (⟨S1700000, .i32⟩ : BufTy).Contents (Elt F) → (⟨S1700000, .i32⟩ : BufTy).Contents (Elt F) → (⟨S1700000, .i32⟩ : BufTy).Contents (Elt F)),
    StableHlo.ternary main_v84 main_v86 main_v6 main_v87 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v87 main_v88 (broadcastInDim S1700000x1 ![0] bcast_S1700000_S1700000x1_0 : (⟨S1700000, .i32⟩ : BufTy).Contents (Elt F) → (⟨S1700000x1, .i32⟩ : BufTy).Contents (Elt F)),
    StableHlo.binary main_v79 main_v88 main_v89 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    StableHlo.unary main_v82 main_v90 (broadcastInDim S1700000x40 ![0, 1] bcast_S1700000x1_S1700000x40_0_1 : (⟨S1700000x1, .f32⟩ : BufTy).Contents (Elt F) → (⟨S1700000x40, .f32⟩ : BufTy).Contents (Elt F)),
    StableHlo.binary main_v90 main_v89 main_v91 (mulf : (⟨S1700000x40, .f32⟩ : BufTy).Contents (Elt F) → (⟨S1700000x40, .f32⟩ : BufTy).Contents (Elt F) → (⟨S1700000x40, .f32⟩ : BufTy).Contents (Elt F)),
    StableHlo.nullary main_cst_19 (constant S_ .f32 0x00000000#32),
    StableHlo.unary main_cst_19 main_v92 (broadcastInDim S100000x40 ![] bcast_S_S100000x40 : (⟨S_, .f32⟩ : BufTy).Contents (Elt F) → (⟨S100000x40, .f32⟩ : BufTy).Contents (Elt F)),
    StableHlo.unary main_v3 main_v93 (broadcastInDim S1700000x1 ![0] bcast_S1700000_S1700000x1_0 : (⟨S1700000, .i32⟩ : BufTy).Contents (Elt F) → (⟨S1700000x1, .i32⟩ : BufTy).Contents (Elt F)),
    StableHlo.ternary main_v92 main_v93 main_v91 main_v94 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    StableHlo.unary main_v54 main_v95 (broadcastInDim S1700000x1 ![0] bcast_S1700000_S1700000x1_0 : (⟨S1700000, .f32⟩ : BufTy).Contents (Elt F) → (⟨S1700000x1, .f32⟩ : BufTy).Contents (Elt F)),
    StableHlo.nullary main_c_20 (constantI S_ 32 0#32),
    StableHlo.unary main_c_20 main_v96 (broadcastInDim S1700000 ![] bcast_S_S1700000 : (⟨S_, .i32⟩ : BufTy).Contents (Elt F) → (⟨S1700000, .i32⟩ : BufTy).Contents (Elt F)) ]
set_option maxRecDepth 8192 in
theorem ops1_sub : (ops1 : List (HloOp τ sig (Elt F))).Forall fun op => op.bufs ⊆ tcRefs τ sig :=
  ⟨StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub ..⟩

/-- The 31 operations of window 2 of @main. -/
abbrev ops2 : List (HloOp τ sig (Elt F)) :=
  [ StableHlo.binary main_v6 main_v96 main_v97 (cmpi .slt : (⟨S1700000, .i32⟩ : BufTy).Contents (Elt F) → (⟨S1700000, .i32⟩ : BufTy).Contents (Elt F) → (⟨S1700000, .i1⟩ : BufTy).Contents (Elt F)),
    StableHlo.nullary main_c_21 (constantI S_ 32 100000#32),
    StableHlo.unary main_c_21 main_v98 (broadcastInDim S1700000 ![] bcast_S_S1700000 : (⟨S_, .i32⟩ : BufTy).Contents (Elt F) → (⟨S1700000, .i32⟩ : BufTy).Contents (Elt F)),
    StableHlo.binary main_v6 main_v98 main_v99 (addi : (⟨S1700000, .i32⟩ : BufTy).Contents (Elt F) → (⟨S1700000, .i32⟩ : BufTy).Contents (Elt F) → (⟨S1700000, .i32⟩ : BufTy).Contents (Elt F)),
    StableHlo.ternary main_v97 main_v99 main_v6 main_v100 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v100 main_v101 (broadcastInDim S1700000x1 ![0] bcast_S1700000_S1700000x1_0 : (⟨S1700000, .i32⟩ : BufTy).Contents (Elt F) → (⟨S1700000x1, .i32⟩ : BufTy).Contents (Elt F)),
    StableHlo.binary main_v81 main_v101 main_v102 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    StableHlo.unary main_v95 main_v103 (broadcastInDim S1700000x40 ![0, 1] bcast_S1700000x1_S1700000x40_0_1 : (⟨S1700000x1, .f32⟩ : BufTy).Contents (Elt F) → (⟨S1700000x40, .f32⟩ : BufTy).Contents (Elt F)),
    StableHlo.binary main_v103 main_v102 main_v104 (mulf : (⟨S1700000x40, .f32⟩ : BufTy).Contents (Elt F) → (⟨S1700000x40, .f32⟩ : BufTy).Contents (Elt F) → (⟨S1700000x40, .f32⟩ : BufTy).Contents (Elt F)),
    StableHlo.nullary main_cst_22 (constant S_ .f32 0x00000000#32),
    StableHlo.unary main_cst_22 main_v105 (broadcastInDim S100000x40 ![] bcast_S_S100000x40 : (⟨S_, .f32⟩ : BufTy).Contents (Elt F) → (⟨S100000x40, .f32⟩ : BufTy).Contents (Elt F)),
    StableHlo.unary main_v3 main_v106 (broadcastInDim S1700000x1 ![0] bcast_S1700000_S1700000x1_0 : (⟨S1700000, .i32⟩ : BufTy).Contents (Elt F) → (⟨S1700000x1, .i32⟩ : BufTy).Contents (Elt F)),
    StableHlo.ternary main_v105 main_v106 main_v104 main_v107 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    StableHlo.unary main_v107 main_v108 (Host.sqrt : (⟨S100000x40, .f32⟩ : BufTy).Contents (Elt F) → (⟨S100000x40, .f32⟩ : BufTy).Contents (Elt F)),
    StableHlo.binary main_arg2 main_v108 main_v109 (mulf : (⟨S100000x40, .f32⟩ : BufTy).Contents (Elt F) → (⟨S100000x40, .f32⟩ : BufTy).Contents (Elt F) → (⟨S100000x40, .f32⟩ : BufTy).Contents (Elt F)),
    StableHlo.binary main_v94 main_v109 main_v110 (addf : (⟨S100000x40, .f32⟩ : BufTy).Contents (Elt F) → (⟨S100000x40, .f32⟩ : BufTy).Contents (Elt F) → (⟨S100000x40, .f32⟩ : BufTy).Contents (Elt F)),
    StableHlo.TRef.nullary main_call6.cst (constant S_ .f32 0xFF800000#32),
    StableHlo.TRef.binary (.of main_v110 : StableHlo.TRef sig ⟨S100000x40, .f32⟩) main_call6.cst main_call6.v0 (fun x v => Host.reduce FloatOps.maximumf x v reducesTo_S100000x40_S100000_d1 h_S_),
    StableHlo.TRef.nullary main_call6.cst_0 (constant S_ .f32 0xFF800000#32),
    StableHlo.TRef.unary main_call6.cst_0 main_call6.v1 (broadcastInDim S100000 ![] bcast_S_S100000),
    StableHlo.TRef.binary main_call6.v1 main_call6.v0 main_call6.v2 maximumf,
    StableHlo.TRef.unary main_call6.v2 main_call6.v3 (broadcastInDim S100000x1 ![0] bcast_S100000_S100000x1_0),
    StableHlo.TRef.unary main_call6.v3 main_call6.v4 (broadcastInDim S100000x40 ![0, 1] bcast_S100000x1_S100000x40_0_1),
    StableHlo.TRef.binary (.of main_v110 : StableHlo.TRef sig ⟨S100000x40, .f32⟩) main_call6.v4 main_call6.v5 subf,
    StableHlo.TRef.unary main_call6.v5 main_call6.v6 Host.exp,
    StableHlo.TRef.nullary main_call6.cst_1 (constant S_ .f32 0x00000000#32),
    StableHlo.TRef.binary main_call6.v6 main_call6.cst_1 main_call6.v7 (fun x v => Host.reduceAdd x v reducesTo_S100000x40_S100000_d1 h_S_),
    StableHlo.TRef.unary main_call6.v7 main_call6.v8 (broadcastInDim S100000x1 ![0] bcast_S100000_S100000x1_0),
    StableHlo.TRef.unary main_call6.v8 main_call6.v9 Host.log,
    StableHlo.TRef.unary main_call6.v9 main_call6.v10 (broadcastInDim S100000x40 ![0, 1] bcast_S100000x1_S100000x40_0_1),
    StableHlo.TRef.binary main_call6.v5 main_call6.v10 main_call6.v11 subf ]
set_option maxRecDepth 8192 in
theorem ops2_sub : (ops2 : List (HloOp τ sig (Elt F))).Forall fun op => op.bufs ⊆ tcRefs τ sig :=
  ⟨StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩

end Cert.ReferenceIdeal.Run

end
-- ==== Proof.RefRun.lean ====
/-
  The reference program's run: its @main is the straight line of its operations, so every weakly fair execution ends
  with each buffer at the operations' fold over the launch contents.
-/
import proofs.«118224_j18047452578190_1_alg».proof.Proof.RefOps

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- All of @main's operations, in order. -/
abbrev ops : List (HloOp τ sig (Elt F)) := ops0 ++ (ops1 ++ ops2)

set_option maxRecDepth 16384 in
set_option maxHeartbeats 4000000 in
theorem main_part0_eq (c : Dev nD) : main_part0 (F := F) c = seq ops0 := rfl

set_option maxRecDepth 16384 in
set_option maxHeartbeats 4000000 in
theorem main_part1_eq (c : Dev nD) : main_part1 (F := F) c = seq ops1 := rfl

set_option maxRecDepth 16384 in
set_option maxHeartbeats 4000000 in
theorem main_part2_eq (c : Dev nD) : main_part2 (F := F) c = seq ops2 := rfl

/-- @main is the line of its operations: window after window. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

/-- The fold over two lines run one after the other is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The fold over all of @main, window by window. -/
theorem after_ops (V : Valuation τ sig (Elt F)) : after ops V = after ops2 (after ops1 (after ops0 V)) := by
  simp only [ops, after_append]

/-- From any memory with zero counters every weakly fair execution of @main terminates, and every final state has each
    TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Run

end
-- ==== Proof.RefTerms.lean ====
/-
  The reference program's dense stage and its final stage as functions of their inputs, spelt as the program spells
  them: two dense layers on two channels (`elu` on the mean channel, `relu` on the variance channel), the attenuation,
  and `log_softmax` of `mean + noise * sqrt var`.
-/
import proofs.«118224_j18047452578190_1_alg».proof.Proof.Gen.ReferenceIdeal

noncomputable section

namespace Cert.ReferenceIdeal.Terms

open Cert.ReferenceIdeal Cert.ReferenceIdeal.Facts₀ Idealize.ShloMosaic

variable {F : FTy → Type} [FloatOps F]

/-- A dense layer into 64 columns: the product plus the bias row. -/
def lin64 (x : (⟨S100000x128, .f32⟩ : BufTy).Contents (Elt F)) (W : (⟨S128x64, .f32⟩ : BufTy).Contents (Elt F))
    (b : (⟨S64, .f32⟩ : BufTy).Contents (Elt F)) : (⟨S100000x64, .f32⟩ : BufTy).Contents (Elt F) :=
  addf (Host.dotGeneral dot_S100000x128_S128x64_S100000x64_1_0_0_1_n_n none x W)
    (broadcastInDim S100000x64 ![0, 1] bcast_S1x64_S100000x64_0_1 (broadcastInDim S1x64 ![1] bcast_S64_S1x64_1 b))

/-- A dense layer into 40 columns: the product plus the bias row. -/
def lin40 (h : (⟨S100000x64, .f32⟩ : BufTy).Contents (Elt F)) (W : (⟨S64x40, .f32⟩ : BufTy).Contents (Elt F))
    (b : (⟨S40, .f32⟩ : BufTy).Contents (Elt F)) : (⟨S100000x40, .f32⟩ : BufTy).Contents (Elt F) :=
  addf (Host.dotGeneral dot_S100000x64_S64x40_S100000x40_1_0_0_1_n_n none h W)
    (broadcastInDim S100000x40 ![0, 1] bcast_S1x40_S100000x40_0_1 (broadcastInDim S1x40 ![1] bcast_S40_S1x40_1 b))

/-- `elu` on 64 columns, as jax spells it: `where (y > 0) y (1 * expm1 (where (y > 0) 0 y))`. -/
def elu64 (y : (⟨S100000x64, .f32⟩ : BufTy).Contents (Elt F)) : (⟨S100000x64, .f32⟩ : BufTy).Contents (Elt F) :=
  select (cmpf .ogt y (broadcastInDim S100000x64 ![] bcast_S_S100000x64 (constant S_ .f32 0x00000000#32))) y
    (mulf (broadcastInDim S100000x64 ![] bcast_S_S100000x64 (constant S_ .f32 0x3F800000#32))
      (Host.expm1 (select (cmpf .ogt y (broadcastInDim S100000x64 ![] bcast_S_S100000x64 (constant S_ .f32 0x00000000#32)))
        (broadcastInDim S100000x64 ![] bcast_S_S100000x64 (id (constant S_ .f32 0x00000000#32))) y)))

/-- `elu` on 40 columns. -/
def elu40 (y : (⟨S100000x40, .f32⟩ : BufTy).Contents (Elt F)) : (⟨S100000x40, .f32⟩ : BufTy).Contents (Elt F) :=
  select (cmpf .ogt y (broadcastInDim S100000x40 ![] bcast_S_S100000x40 (constant S_ .f32 0x00000000#32))) y
    (mulf (broadcastInDim S100000x40 ![] bcast_S_S100000x40 (constant S_ .f32 0x3F800000#32))
      (Host.expm1 (select (cmpf .ogt y (broadcastInDim S100000x40 ![] bcast_S_S100000x40 (constant S_ .f32 0x00000000#32)))
        (broadcastInDim S100000x40 ![] bcast_S_S100000x40 (id (constant S_ .f32 0x00000000#32))) y)))

/-- `relu` on 64 columns. -/
def relu64 (y : (⟨S100000x64, .f32⟩ : BufTy).Contents (Elt F)) : (⟨S100000x64, .f32⟩ : BufTy).Contents (Elt F) :=
  maximumf y (broadcastInDim S100000x64 ![] bcast_S_S100000x64 (constant S_ .f32 0x00000000#32))

/-- `relu` on 40 columns. -/
def relu40 (y : (⟨S100000x40, .f32⟩ : BufTy).Contents (Elt F)) : (⟨S100000x40, .f32⟩ : BufTy).Contents (Elt F) :=
  maximumf y (broadcastInDim S100000x40 ![] bcast_S_S100000x40 (constant S_ .f32 0x00000000#32))

/-- The mean channel after both layers. -/
def mean1 (x : (⟨S100000x128, .f32⟩ : BufTy).Contents (Elt F)) (Wm0 : (⟨S128x64, .f32⟩ : BufTy).Contents (Elt F))
    (bm0 : (⟨S64, .f32⟩ : BufTy).Contents (Elt F)) (Wm1 : (⟨S64x40, .f32⟩ : BufTy).Contents (Elt F))
    (bm1 : (⟨S40, .f32⟩ : BufTy).Contents (Elt F)) : (⟨S100000x40, .f32⟩ : BufTy).Contents (Elt F) :=
  elu40 (lin40 (elu64 (lin64 x Wm0 bm0)) Wm1 bm1)

/-- The variance channel after both layers, the small constant added. -/
def var1 (x : (⟨S100000x128, .f32⟩ : BufTy).Contents (Elt F)) (Wv0 : (⟨S128x64, .f32⟩ : BufTy).Contents (Elt F))
    (bv0 : (⟨S64, .f32⟩ : BufTy).Contents (Elt F)) (Wv1 : (⟨S64x40, .f32⟩ : BufTy).Contents (Elt F))
    (bv1 : (⟨S40, .f32⟩ : BufTy).Contents (Elt F)) : (⟨S100000x40, .f32⟩ : BufTy).Contents (Elt F) :=
  addf (relu40 (lin40 (relu64 (lin64 x Wv0 bv0)) Wv1 bv1))
    (broadcastInDim S100000x40 ![] bcast_S_S100000x40 (constant S_ .f32 0x358637BD#32))

/-- The attenuation `exp (-v)`. -/
def att (v : (⟨S100000x40, .f32⟩ : BufTy).Contents (Elt F)) : (⟨S100000x40, .f32⟩ : BufTy).Contents (Elt F) :=
  Host.exp (Host.negf v)

/-- The attenuated mean the dense stage hands to the aggregation. -/
def refMean (x : (⟨S100000x128, .f32⟩ : BufTy).Contents (Elt F)) (Wm0 : (⟨S128x64, .f32⟩ : BufTy).Contents (Elt F))
    (bm0 : (⟨S64, .f32⟩ : BufTy).Contents (Elt F)) (Wv0 : (⟨S128x64, .f32⟩ : BufTy).Contents (Elt F))
    (bv0 : (⟨S64, .f32⟩ : BufTy).Contents (Elt F)) (Wm1 : (⟨S64x40, .f32⟩ : BufTy).Contents (Elt F))
    (bm1 : (⟨S40, .f32⟩ : BufTy).Contents (Elt F)) (Wv1 : (⟨S64x40, .f32⟩ : BufTy).Contents (Elt F))
    (bv1 : (⟨S40, .f32⟩ : BufTy).Contents (Elt F)) : (⟨S100000x40, .f32⟩ : BufTy).Contents (Elt F) :=
  mulf (mean1 x Wm0 bm0 Wm1 bm1) (att (var1 x Wv0 bv0 Wv1 bv1))

/-- The attenuated variance the dense stage hands to the aggregation. -/
def refVar (x : (⟨S100000x128, .f32⟩ : BufTy).Contents (Elt F)) (Wv0 : (⟨S128x64, .f32⟩ : BufTy).Contents (Elt F))
    (bv0 : (⟨S64, .f32⟩ : BufTy).Contents (Elt F)) (Wv1 : (⟨S64x40, .f32⟩ : BufTy).Contents (Elt F))
    (bv1 : (⟨S40, .f32⟩ : BufTy).Contents (Elt F)) : (⟨S100000x40, .f32⟩ : BufTy).Contents (Elt F) :=
  mulf (mulf (var1 x Wv0 bv0 Wv1 bv1) (att (var1 x Wv0 bv0 Wv1 bv1))) (att (var1 x Wv0 bv0 Wv1 bv1))

/-- The logits shifted by their row maximum. -/
def shifted (z : (⟨S100000x40, .f32⟩ : BufTy).Contents (Elt F)) : (⟨S100000x40, .f32⟩ : BufTy).Contents (Elt F) :=
  subf z (broadcastInDim S100000x40 ![0, 1] bcast_S100000x1_S100000x40_0_1 (broadcastInDim S100000x1 ![0] bcast_S100000_S100000x1_0
    (maximumf (broadcastInDim S100000 ![] bcast_S_S100000 (constant S_ .f32 0xFF800000#32))
      (Host.reduce FloatOps.maximumf z (constant S_ .f32 0xFF800000#32) reducesTo_S100000x40_S100000_d1 h_S_))))

/-- `log_softmax` along the rows. -/
def logSoftmax (z : (⟨S100000x40, .f32⟩ : BufTy).Contents (Elt F)) : (⟨S100000x40, .f32⟩ : BufTy).Contents (Elt F) :=
  subf (shifted z) (broadcastInDim S100000x40 ![0, 1] bcast_S100000x1_S100000x40_0_1
    (Host.log (broadcastInDim S100000x1 ![0] bcast_S100000_S100000x1_0
      (Host.reduceAdd (Host.exp (shifted z)) (constant S_ .f32 0x00000000#32) reducesTo_S100000x40_S100000_d1 h_S_))))

/-- The final stage: `log_softmax (a + n * sqrt b)`. -/
def refTail (a b n : (⟨S100000x40, .f32⟩ : BufTy).Contents (Elt F)) : (⟨S100000x40, .f32⟩ : BufTy).Contents (Elt F) :=
  logSoftmax (addf a (mulf n (Host.sqrt b)))

end Cert.ReferenceIdeal.Terms

end
-- ==== Proof.RefValueCuts.lean ====
/-
  The reference program's line of operations cut into stretches at the buffers later stages read: the two index
  vectors; the edge weights of the mean channel; the edge weights of the variance channel; the dense stage; the two
  aggregations along the edges; the final stage.  Each window of @main is the concatenation of its stretches, so the
  fold over all of @main is the stretches' folds one after the other.
-/
import proofs.«118224_j18047452578190_1_alg».proof.Proof.RefRun

noncomputable section

namespace Cert.ReferenceIdeal.Value

open Cert.ReferenceIdeal Cert.ReferenceIdeal.Gen Cert.ReferenceIdeal.Run Idealize.ShloMosaic Idealize.ShloMosaic.TcCoe Idealize.SL.Sem Idealize.ShloMosaic.StableHlo

variable {F : FTy → Type} [FloatOps F]

/-- Operations 0–6 of window 0: the edge list's two rows, the self loops appended. -/
abbrev sIdx : List (HloOp τ sig (Elt F)) := (ops0 (F := F)).take 7
/-- Operations 7–41 of window 0: the degrees to the power -1/2 and the mean channel's edge weights. -/
abbrev sNwH : List (HloOp τ sig (Elt F)) := ((ops0 (F := F)).drop 7).take 35
/-- The rest of window 0 and operations 0–12 of window 1: the degrees to the power -1 and the variance channel's edge weights. -/
abbrev sNwO0 : List (HloOp τ sig (Elt F)) := ((ops0 (F := F)).drop 7).drop 35
abbrev sNwO1 : List (HloOp τ sig (Elt F)) := (ops1 (F := F)).take 13
abbrev sNwO : List (HloOp τ sig (Elt F)) := sNwO0 ++ sNwO1
/-- Operations 13–72 of window 1: the dense stage. -/
abbrev sDense : List (HloOp τ sig (Elt F)) := ((ops1 (F := F)).drop 13).take 60
/-- Operations 73–88 of window 1: the mean channel's aggregation. -/
abbrev sAggM : List (HloOp τ sig (Elt F)) := (((ops1 (F := F)).drop 13).drop 60).take 16
/-- The rest of window 1 and operations 0–12 of window 2: the variance channel's aggregation. -/
abbrev sAggV0 : List (HloOp τ sig (Elt F)) := (((ops1 (F := F)).drop 13).drop 60).drop 16
abbrev sAggV1 : List (HloOp τ sig (Elt F)) := (ops2 (F := F)).take 13
abbrev sAggV : List (HloOp τ sig (Elt F)) := sAggV0 ++ sAggV1
/-- The rest of window 2: the final stage. -/
abbrev sTail : List (HloOp τ sig (Elt F)) := (ops2 (F := F)).drop 13

theorem ops0_cut : (ops0 : List (HloOp τ sig (Elt F))) = sIdx ++ (sNwH ++ sNwO0) := by
  rw [List.take_append_drop, List.take_append_drop]

theorem ops1_cut : (ops1 : List (HloOp τ sig (Elt F))) = sNwO1 ++ (sDense ++ (sAggM ++ sAggV0)) := by
  rw [List.take_append_drop, List.take_append_drop, List.take_append_drop]

theorem ops2_cut : (ops2 : List (HloOp τ sig (Elt F))) = sAggV1 ++ sTail := by
  rw [List.take_append_drop]

/-- The fold over all of @main, stretch by stretch. -/
theorem after_cut (V : Valuation τ sig (Elt F)) :
    after ops V = after sTail (after sAggV (after sAggM (after sDense (after sNwO (after sNwH (after sIdx V)))))) := by
  rw [after_ops]
  conv_lhs => rw [ops2_cut, ops1_cut, ops0_cut]
  simp only [after_append]

/-- A stretch as the literal list of its operations. -/
macro "cut_lit" s:ident : tactic =>
  `(tactic| simp only [$s:ident, sNwO0, sNwO1, sAggV0, sAggV1, ops0, ops1, ops2, List.take_succ_cons, List.take_zero, List.drop_succ_cons, List.drop_zero,
      List.cons_append, List.nil_append])

end Cert.ReferenceIdeal.Value

end
-- ==== Proof.RefValueArgs.lean ====
/-
  No operation of the reference program writes an argument of @main: each operation writes one buffer, its result,
  and no result buffer is an argument.  So an argument's buffer holds, after any stretch of the line, what it held before.
-/
import proofs.«118224_j18047452578190_1_alg».proof.Proof.RefValueCuts

noncomputable section

namespace Cert.ReferenceIdeal.Value

open Cert.ReferenceIdeal Cert.ReferenceIdeal.Gen Cert.ReferenceIdeal.Run Idealize.ShloMosaic Idealize.ShloMosaic.TcCoe Idealize.SL.Sem Idealize.ShloMosaic.StableHlo

variable {F : FTy → Type} [FloatOps F]

/-- The arguments of @main. -/
abbrev argRefs : List (Ref sig .tc) :=
  [main_arg0, main_arg1, main_arg2, main_arg3, main_arg4, main_arg5, main_arg6, main_arg7, main_arg8, main_arg9, main_arg10]

/-- No operation of the line writes an argument of @main. -/
def ArgFree (l : List (HloOp τ sig (Elt F))) : Prop :=
  ∀ r ∈ argRefs, ∀ op ∈ l, (Proc.devRef .tc r : DevRef τ sig) ∉ op.writes

theorem ArgFree.after {l : List (HloOp τ sig (Elt F))} (h : ArgFree l) (W : Valuation τ sig (Elt F)) {r : Ref sig .tc}
    (hr : r ∈ argRefs) : after l W (Proc.devRef .tc r) = W (Proc.devRef .tc r) :=
  after_of_forall_not_mem l W (h r hr)

theorem ArgFree.append {l₁ l₂ : List (HloOp τ sig (Elt F))} (h₁ : ArgFree l₁) (h₂ : ArgFree l₂) : ArgFree (l₁ ++ l₂) :=
  fun r hr op hop => (List.mem_append.mp hop).elim (h₁ r hr op) (h₂ r hr op)

theorem ArgFree.take {l : List (HloOp τ sig (Elt F))} (h : ArgFree l) (n : ℕ) : ArgFree (l.take n) :=
  fun r hr op hop => h r hr op (List.mem_of_mem_take hop)

theorem ArgFree.drop {l : List (HloOp τ sig (Elt F))} (h : ArgFree l) (n : ℕ) : ArgFree (l.drop n) :=
  fun r hr op hop => h r hr op (List.mem_of_mem_drop hop)

/-- Each operation of a literal line writes one buffer, told apart from the given one as references. -/
macro "not_written" : tactic =>
  `(tactic| (refine List.forall_iff_forall_mem.mp ?_
             simp only [ops0, ops1, ops2, List.Forall, nullary_writes, unary_writes, binary_writes, ternary_writes, reshape_writes,
               Finset.mem_singleton]
             repeat' apply And.intro
             all_goals exact devRef_ne_of_ne (by decide)))

set_option maxRecDepth 16384 in
set_option maxHeartbeats 4000000 in
theorem argFree_ops0 : ArgFree (ops0 : List (HloOp τ sig (Elt F))) := by
  intro r hr
  simp only [argRefs, List.mem_cons, List.not_mem_nil, or_false] at hr
  rcases hr with rfl | rfl | rfl | rfl | rfl | rfl | rfl | rfl | rfl | rfl | rfl <;> not_written

set_option maxRecDepth 16384 in
set_option maxHeartbeats 4000000 in
theorem argFree_ops1 : ArgFree (ops1 : List (HloOp τ sig (Elt F))) := by
  intro r hr
  simp only [argRefs, List.mem_cons, List.not_mem_nil, or_false] at hr
  rcases hr with rfl | rfl | rfl | rfl | rfl | rfl | rfl | rfl | rfl | rfl | rfl <;> not_written

set_option maxRecDepth 16384 in
set_option maxHeartbeats 4000000 in
theorem argFree_ops2 : ArgFree (ops2 : List (HloOp τ sig (Elt F))) := by
  intro r hr
  simp only [argRefs, List.mem_cons, List.not_mem_nil, or_false] at hr
  rcases hr with rfl | rfl | rfl | rfl | rfl | rfl | rfl | rfl | rfl | rfl | rfl <;> not_written

theorem argFree_ops : ArgFree (ops : List (HloOp τ sig (Elt F))) := argFree_ops0.append (argFree_ops1.append argFree_ops2)

theorem argFree_sIdx : ArgFree (sIdx : List (HloOp τ sig (Elt F))) := argFree_ops0.take 7
theorem argFree_sNwH : ArgFree (sNwH : List (HloOp τ sig (Elt F))) := (argFree_ops0.drop 7).take 35
theorem argFree_sNwO : ArgFree (sNwO : List (HloOp τ sig (Elt F))) := ((argFree_ops0.drop 7).drop 35).append (argFree_ops1.take 13)
theorem argFree_sDense : ArgFree (sDense : List (HloOp τ sig (Elt F))) := (argFree_ops1.drop 13).take 60
theorem argFree_sAggM : ArgFree (sAggM : List (HloOp τ sig (Elt F))) := ((argFree_ops1.drop 13).drop 60).take 16
theorem argFree_sAggV : ArgFree (sAggV : List (HloOp τ sig (Elt F))) := (((argFree_ops1.drop 13).drop 60).drop 16).append (argFree_ops2.take 13)
theorem argFree_sTail : ArgFree (sTail : List (HloOp τ sig (Elt F))) := argFree_ops2.drop 13

end Cert.ReferenceIdeal.Value

end
-- ==== Proof.RefValueGraph.lean ====
/-
  The graph side of the reference program's line read back, stretch by stretch, over any contents the stretch starts
  from: the two index vectors from the edge list; each channel's edge weights from the index vectors; and that the
  index vectors and the first channel's weights stay as they are while the later stretches run.
-/
import proofs.«118224_j18047452578190_1_alg».proof.Proof.RefValueCuts
import proofs.«118224_j18047452578190_1_alg».proof.Proof.Glue
import proofs.«118224_j18047452578190_1_alg».proof.Proof.Gen.KernelIdeal

noncomputable section

namespace Cert.ReferenceIdeal.Value

open Cert.ReferenceIdeal Cert.ReferenceIdeal.Gen Cert.ReferenceIdeal.Run Idealize.ShloMosaic Idealize.ShloMosaic.TcCoe Idealize.SL.Sem Idealize.ShloMosaic.StableHlo

variable {F : FTy → Type} [FloatOps F]

/-! ## The index vectors -/

set_option maxHeartbeats 1000000 in
theorem sIdx_v3 (W : Valuation τ sig (Elt F)) :
    after sIdx W (main_v3 : DevRef τ sig) = Glue.rowI (W (main_arg1 : DevRef τ sig)) := by
  cut_lit sIdx
  after_results_simp
  rfl

set_option maxHeartbeats 1000000 in
theorem sIdx_v6 (W : Valuation τ sig (Elt F)) :
    after sIdx W (main_v6 : DevRef τ sig) = Glue.colI (W (main_arg1 : DevRef τ sig)) := by
  cut_lit sIdx
  after_results_simp
  rfl

/-! ## The mean channel's edge weights -/

attribute [local irreducible] Host.gather Host.scatterAdd Host.powf in
set_option maxHeartbeats 1000000 in
theorem sNwH_v30 (W : Valuation τ sig (Elt F)) :
    after sNwH W (main_v30 : DevRef τ sig) = Glue.nw Glue.pHalf (W (main_v3 : DevRef τ sig)) (W (main_v6 : DevRef τ sig)) := by
  cut_lit sNwH
  after_results_simp
  rfl

set_option maxHeartbeats 1000000 in
theorem sNwH_v3 (W : Valuation τ sig (Elt F)) : after sNwH W (main_v3 : DevRef τ sig) = W (main_v3 : DevRef τ sig) := by
  cut_lit sNwH
  after_results_simp

set_option maxHeartbeats 1000000 in
theorem sNwH_v6 (W : Valuation τ sig (Elt F)) : after sNwH W (main_v6 : DevRef τ sig) = W (main_v6 : DevRef τ sig) := by
  cut_lit sNwH
  after_results_simp

/-! ## The variance channel's edge weights -/

attribute [local irreducible] Host.gather Host.scatterAdd Host.powf in
set_option maxHeartbeats 1000000 in
theorem sNwO_v54 (W : Valuation τ sig (Elt F)) :
    after sNwO W (main_v54 : DevRef τ sig) = Glue.nw Glue.pOne (W (main_v3 : DevRef τ sig)) (W (main_v6 : DevRef τ sig)) := by
  cut_lit sNwO
  after_results_simp
  rfl

set_option maxHeartbeats 1000000 in
theorem sNwO_v3 (W : Valuation τ sig (Elt F)) : after sNwO W (main_v3 : DevRef τ sig) = W (main_v3 : DevRef τ sig) := by
  cut_lit sNwO
  after_results_simp

set_option maxHeartbeats 1000000 in
theorem sNwO_v6 (W : Valuation τ sig (Elt F)) : after sNwO W (main_v6 : DevRef τ sig) = W (main_v6 : DevRef τ sig) := by
  cut_lit sNwO
  after_results_simp

set_option maxHeartbeats 1000000 in
theorem sNwO_v30 (W : Valuation τ sig (Elt F)) : after sNwO W (main_v30 : DevRef τ sig) = W (main_v30 : DevRef τ sig) := by
  cut_lit sNwO
  after_results_simp

end Cert.ReferenceIdeal.Value

end
-- ==== Proof.RefValueDense.lean ====
/-
  The dense stage of the reference program's line read back over any contents it starts from: the attenuated mean
  and the attenuated variance as functions of the features, the weights and the biases; the graph side's buffers stay
  as they are meanwhile.
-/
import proofs.«118224_j18047452578190_1_alg».proof.Proof.RefValueCuts
import proofs.«118224_j18047452578190_1_alg».proof.Proof.RefTerms

noncomputable section

namespace Cert.ReferenceIdeal.Value

open Cert.ReferenceIdeal Cert.ReferenceIdeal.Gen Cert.ReferenceIdeal.Run Idealize.ShloMosaic Idealize.ShloMosaic.TcCoe Idealize.SL.Sem Idealize.ShloMosaic.StableHlo

variable {F : FTy → Type} [FloatOps F]

set_option maxRecDepth 16384 in
set_option maxHeartbeats 4000000 in
/-- The dense stage leaves the attenuated mean in `%79`. -/
theorem sDense_v79 (W : Valuation τ sig (Elt F)) :
    after sDense W (main_v79 : DevRef τ sig)
      = Terms.refMean (W (main_arg0 : DevRef τ sig)) (W (main_arg3 : DevRef τ sig)) (W (main_arg4 : DevRef τ sig))
          (W (main_arg5 : DevRef τ sig)) (W (main_arg6 : DevRef τ sig)) (W (main_arg7 : DevRef τ sig))
          (W (main_arg8 : DevRef τ sig)) (W (main_arg9 : DevRef τ sig)) (W (main_arg10 : DevRef τ sig)) := by
  cut_lit sDense
  after_results_simp
  rfl

set_option maxRecDepth 16384 in
set_option maxHeartbeats 4000000 in
/-- The dense stage leaves the attenuated variance in `%81`. -/
theorem sDense_v81 (W : Valuation τ sig (Elt F)) :
    after sDense W (main_v81 : DevRef τ sig)
      = Terms.refVar (W (main_arg0 : DevRef τ sig)) (W (main_arg5 : DevRef τ sig)) (W (main_arg6 : DevRef τ sig))
          (W (main_arg9 : DevRef τ sig)) (W (main_arg10 : DevRef τ sig)) := by
  cut_lit sDense
  after_results_simp
  rfl

set_option maxHeartbeats 4000000 in
theorem sDense_v3 (W : Valuation τ sig (Elt F)) : after sDense W (main_v3 : DevRef τ sig) = W (main_v3 : DevRef τ sig) := by
  cut_lit sDense
  after_results_simp

set_option maxHeartbeats 4000000 in
theorem sDense_v6 (W : Valuation τ sig (Elt F)) : after sDense W (main_v6 : DevRef τ sig) = W (main_v6 : DevRef τ sig) := by
  cut_lit sDense
  after_results_simp

set_option maxHeartbeats 4000000 in
theorem sDense_v30 (W : Valuation τ sig (Elt F)) : after sDense W (main_v30 : DevRef τ sig) = W (main_v30 : DevRef τ sig) := by
  cut_lit sDense
  after_results_simp

set_option maxHeartbeats 4000000 in
theorem sDense_v54 (W : Valuation τ sig (Elt F)) : after sDense W (main_v54 : DevRef τ sig) = W (main_v54 : DevRef τ sig) := by
  cut_lit sDense
  after_results_simp

end Cert.ReferenceIdeal.Value

end
-- ==== Proof.RefValueAgg.lean ====
/-
  The two aggregations along the edges in the reference program's line read back over any contents they start from:
  each is the sparse aggregation of its channel's dense output with its channel's edge weights; the buffers the later
  stretches read stay as they are meanwhile.
-/
import proofs.«118224_j18047452578190_1_alg».proof.Proof.RefValueCuts
import proofs.«118224_j18047452578190_1_alg».proof.Proof.Glue
import proofs.«118224_j18047452578190_1_alg».proof.Proof.Gen.KernelIdeal

noncomputable section

namespace Cert.ReferenceIdeal.Value

open Cert.ReferenceIdeal Cert.ReferenceIdeal.Gen Cert.ReferenceIdeal.Run Idealize.ShloMosaic Idealize.ShloMosaic.TcCoe Idealize.SL.Sem Idealize.ShloMosaic.StableHlo

variable {F : FTy → Type} [FloatOps F]

/-! ## The mean channel's aggregation -/

attribute [local irreducible] Host.gather Host.scatterAdd in
set_option maxHeartbeats 1000000 in
theorem sAggM_v94 (W : Valuation τ sig (Elt F)) :
    after sAggM W (main_v94 : DevRef τ sig)
      = Glue.spmm (W (main_v3 : DevRef τ sig)) (W (main_v6 : DevRef τ sig)) (W (main_v30 : DevRef τ sig)) (W (main_v79 : DevRef τ sig)) := by
  cut_lit sAggM
  after_results_simp
  rfl

set_option maxHeartbeats 1000000 in
theorem sAggM_v3 (W : Valuation τ sig (Elt F)) : after sAggM W (main_v3 : DevRef τ sig) = W (main_v3 : DevRef τ sig) := by
  cut_lit sAggM
  after_results_simp

set_option maxHeartbeats 1000000 in
theorem sAggM_v6 (W : Valuation τ sig (Elt F)) : after sAggM W (main_v6 : DevRef τ sig) = W (main_v6 : DevRef τ sig) := by
  cut_lit sAggM
  after_results_simp

set_option maxHeartbeats 1000000 in
theorem sAggM_v54 (W : Valuation τ sig (Elt F)) : after sAggM W (main_v54 : DevRef τ sig) = W (main_v54 : DevRef τ sig) := by
  cut_lit sAggM
  after_results_simp

set_option maxHeartbeats 1000000 in
theorem sAggM_v81 (W : Valuation τ sig (Elt F)) : after sAggM W (main_v81 : DevRef τ sig) = W (main_v81 : DevRef τ sig) := by
  cut_lit sAggM
  after_results_simp

/-! ## The variance channel's aggregation -/

attribute [local irreducible] Host.gather Host.scatterAdd in
set_option maxHeartbeats 1000000 in
theorem sAggV_v107 (W : Valuation τ sig (Elt F)) :
    after sAggV W (main_v107 : DevRef τ sig)
      = Glue.spmm (W (main_v3 : DevRef τ sig)) (W (main_v6 : DevRef τ sig)) (W (main_v54 : DevRef τ sig)) (W (main_v81 : DevRef τ sig)) := by
  cut_lit sAggV
  after_results_simp
  rfl

set_option maxHeartbeats 1000000 in
theorem sAggV_v94 (W : Valuation τ sig (Elt F)) : after sAggV W (main_v94 : DevRef τ sig) = W (main_v94 : DevRef τ sig) := by
  cut_lit sAggV
  after_results_simp

end Cert.ReferenceIdeal.Value

end
-- ==== Proof.RefValueTail.lean ====
/-
  The final stage of the reference program's line read back over any contents it starts from: the result buffer
  holds `log_softmax` of the aggregated mean plus the noise times the square root of the aggregated variance.
-/
import proofs.«118224_j18047452578190_1_alg».proof.Proof.RefValueCuts
import proofs.«118224_j18047452578190_1_alg».proof.Proof.RefTerms

noncomputable section

namespace Cert.ReferenceIdeal.Value

open Cert.ReferenceIdeal Cert.ReferenceIdeal.Gen Cert.ReferenceIdeal.Run Idealize.ShloMosaic Idealize.ShloMosaic.TcCoe Idealize.SL.Sem Idealize.ShloMosaic.StableHlo

variable {F : FTy → Type} [FloatOps F]

/-- Contents moved to a typed reference's buffer type and back are the contents. -/
theorem ofBuf_toBuf {Val : EltTy → Type} {T : BufTy} (x : TRef sig T) (v : T.Contents Val) : x.ofBuf (x.toBuf v) = v := by
  obtain ⟨r, h, _, _⟩ := x
  subst h
  rfl

/-- At the logits' buffer the move is the identity. -/
theorem ofBuf_v110 (v : (⟨S100000x40, .f32⟩ : BufTy).Contents (Elt F)) :
    (TRef.of main_v110 : TRef sig ⟨S100000x40, .f32⟩).ofBuf v = v := rfl

/-! ## The final stage -/

attribute [local irreducible] Host.reduce Host.reduceAdd in
set_option maxHeartbeats 1000000 in
theorem sTail_v111 (W : Valuation τ sig (Elt F)) :
    after sTail W (main_v111 : DevRef τ sig)
      = Terms.refTail (W (main_v94 : DevRef τ sig)) (W (main_v107 : DevRef τ sig)) (W (main_arg2 : DevRef τ sig)) := by
  cut_lit sTail
  after_results_simp
  simp only [ofBuf_toBuf, ofBuf_v110]
  rfl

end Cert.ReferenceIdeal.Value

end
-- ==== Proof.RefValue.lean ====
/-
  The reference program's fold read back: its result is the final stage applied to the two aggregations of the dense
  stage's outputs along the edges, and its arguments are never written.
-/
import proofs.«118224_j18047452578190_1_alg».proof.Proof.RefRun
import proofs.«118224_j18047452578190_1_alg».proof.Proof.RefTerms
import proofs.«118224_j18047452578190_1_alg».proof.Proof.Glue
import proofs.«118224_j18047452578190_1_alg».proof.Proof.Gen.KernelIdeal
import proofs.«118224_j18047452578190_1_alg».proof.Proof.RefValueCuts
import proofs.«118224_j18047452578190_1_alg».proof.Proof.RefValueArgs
import proofs.«118224_j18047452578190_1_alg».proof.Proof.RefValueGraph
import proofs.«118224_j18047452578190_1_alg».proof.Proof.RefValueDense
import proofs.«118224_j18047452578190_1_alg».proof.Proof.RefValueAgg
import proofs.«118224_j18047452578190_1_alg».proof.Proof.RefValueTail

noncomputable section

namespace Cert.ReferenceIdeal.Value

open Cert.ReferenceIdeal Cert.ReferenceIdeal.Gen Cert.ReferenceIdeal.Run Idealize.ShloMosaic Idealize.ShloMosaic.TcCoe Idealize.SL.Sem Idealize.ShloMosaic.StableHlo

variable {F : FTy → Type} [FloatOps F]

/-- The result buffer after all of @main. -/
theorem out_eq (V : Valuation τ sig (Elt F)) :
    after ops V (main_v111 : DevRef τ sig)
      = Terms.refTail
          (Glue.spmm (Glue.rowI (V (main_arg1 : DevRef τ sig))) (Glue.colI (V (main_arg1 : DevRef τ sig)))
            (Glue.nw Glue.pHalf (Glue.rowI (V (main_arg1 : DevRef τ sig))) (Glue.colI (V (main_arg1 : DevRef τ sig))))
            (Terms.refMean (V (main_arg0 : DevRef τ sig)) (V (main_arg3 : DevRef τ sig)) (V (main_arg4 : DevRef τ sig))
              (V (main_arg5 : DevRef τ sig)) (V (main_arg6 : DevRef τ sig)) (V (main_arg7 : DevRef τ sig))
              (V (main_arg8 : DevRef τ sig)) (V (main_arg9 : DevRef τ sig)) (V (main_arg10 : DevRef τ sig))))
          (Glue.spmm (Glue.rowI (V (main_arg1 : DevRef τ sig))) (Glue.colI (V (main_arg1 : DevRef τ sig)))
            (Glue.nw Glue.pOne (Glue.rowI (V (main_arg1 : DevRef τ sig))) (Glue.colI (V (main_arg1 : DevRef τ sig))))
            (Terms.refVar (V (main_arg0 : DevRef τ sig)) (V (main_arg5 : DevRef τ sig)) (V (main_arg6 : DevRef τ sig))
              (V (main_arg9 : DevRef τ sig)) (V (main_arg10 : DevRef τ sig))))
          (V (main_arg2 : DevRef τ sig)) := by
  rw [after_cut]
  -- the index vectors
  have a1 := sIdx_v3 V
  have b1 := sIdx_v6 V
  have g1 : ∀ r ∈ argRefs, after sIdx V (Proc.devRef .tc r) = V (Proc.devRef .tc r) := fun r hr => argFree_sIdx.after V hr
  generalize after sIdx V = V1 at a1 b1 g1 ⊢
  -- the mean channel's edge weights
  have a2 := (sNwH_v3 V1).trans a1
  have b2 := (sNwH_v6 V1).trans b1
  have c2 := sNwH_v30 V1
  rw [a1, b1] at c2
  have g2 : ∀ r ∈ argRefs, after sNwH V1 (Proc.devRef .tc r) = V (Proc.devRef .tc r) :=
    fun r hr => (argFree_sNwH.after V1 hr).trans (g1 r hr)
  clear a1 b1 g1
  generalize after sNwH V1 = V2 at a2 b2 c2 g2 ⊢
  -- the variance channel's edge weights
  have a3 := (sNwO_v3 V2).trans a2
  have b3 := (sNwO_v6 V2).trans b2
  have c3 := (sNwO_v30 V2).trans c2
  have d3 := sNwO_v54 V2
  rw [a2, b2] at d3
  have g3 : ∀ r ∈ argRefs, after sNwO V2 (Proc.devRef .tc r) = V (Proc.devRef .tc r) :=
    fun r hr => (argFree_sNwO.after V2 hr).trans (g2 r hr)
  clear a2 b2 c2 g2
  generalize after sNwO V2 = V3 at a3 b3 c3 d3 g3 ⊢
  -- the dense stage
  have a4 := (sDense_v3 V3).trans a3
  have b4 := (sDense_v6 V3).trans b3
  have c4 := (sDense_v30 V3).trans c3
  have d4 := (sDense_v54 V3).trans d3
  have e4 := sDense_v79 V3
  have f4 := sDense_v81 V3
  rw [g3 main_arg0 (by decide), g3 main_arg3 (by decide), g3 main_arg4 (by decide), g3 main_arg5 (by decide),
    g3 main_arg6 (by decide), g3 main_arg7 (by decide), g3 main_arg8 (by decide), g3 main_arg9 (by decide),
    g3 main_arg10 (by decide)] at e4
  rw [g3 main_arg0 (by decide), g3 main_arg5 (by decide), g3 main_arg6 (by decide), g3 main_arg9 (by decide),
    g3 main_arg10 (by decide)] at f4
  have g4 : after sDense V3 (Proc.devRef .tc main_arg2) = V (Proc.devRef .tc main_arg2) :=
    (argFree_sDense.after V3 (by decide)).trans (g3 main_arg2 (by decide))
  clear a3 b3 c3 d3 g3
  generalize after sDense V3 = V4 at a4 b4 c4 d4 e4 f4 g4 ⊢
  -- the mean channel's aggregation
  have a5 := (sAggM_v3 V4).trans a4
  have b5 := (sAggM_v6 V4).trans b4
  have d5 := (sAggM_v54 V4).trans d4
  have f5 := (sAggM_v81 V4).trans f4
  have h5 := sAggM_v94 V4
  rw [a4, b4, c4, e4] at h5
  have g5 : after sAggM V4 (Proc.devRef .tc main_arg2) = V (Proc.devRef .tc main_arg2) :=
    (argFree_sAggM.after V4 (by decide)).trans g4
  clear a4 b4 c4 d4 e4 f4 g4
  generalize after sAggM V4 = V5 at a5 b5 d5 f5 h5 g5 ⊢
  -- the variance channel's aggregation
  have h6 := (sAggV_v94 V5).trans h5
  have i6 := sAggV_v107 V5
  rw [a5, b5, d5, f5] at i6
  have g6 : after sAggV V5 (Proc.devRef .tc main_arg2) = V (Proc.devRef .tc main_arg2) :=
    (argFree_sAggV.after V5 (by decide)).trans g5
  clear a5 b5 d5 f5 h5 g5
  generalize after sAggV V5 = V6 at h6 i6 g6 ⊢
  -- the final stage
  rw [sTail_v111 V6, h6, i6, g6]

theorem arg0_eq (V : Valuation τ sig (Elt F)) : after ops V (main_arg0 : DevRef τ sig) = V (main_arg0 : DevRef τ sig) :=
  argFree_ops.after V (by decide)
theorem arg1_eq (V : Valuation τ sig (Elt F)) : after ops V (main_arg1 : DevRef τ sig) = V (main_arg1 : DevRef τ sig) :=
  argFree_ops.after V (by decide)
theorem arg2_eq (V : Valuation τ sig (Elt F)) : after ops V (main_arg2 : DevRef τ sig) = V (main_arg2 : DevRef τ sig) :=
  argFree_ops.after V (by decide)
theorem arg3_eq (V : Valuation τ sig (Elt F)) : after ops V (main_arg3 : DevRef τ sig) = V (main_arg3 : DevRef τ sig) :=
  argFree_ops.after V (by decide)
theorem arg4_eq (V : Valuation τ sig (Elt F)) : after ops V (main_arg4 : DevRef τ sig) = V (main_arg4 : DevRef τ sig) :=
  argFree_ops.after V (by decide)
theorem arg5_eq (V : Valuation τ sig (Elt F)) : after ops V (main_arg5 : DevRef τ sig) = V (main_arg5 : DevRef τ sig) :=
  argFree_ops.after V (by decide)
theorem arg6_eq (V : Valuation τ sig (Elt F)) : after ops V (main_arg6 : DevRef τ sig) = V (main_arg6 : DevRef τ sig) :=
  argFree_ops.after V (by decide)
theorem arg7_eq (V : Valuation τ sig (Elt F)) : after ops V (main_arg7 : DevRef τ sig) = V (main_arg7 : DevRef τ sig) :=
  argFree_ops.after V (by decide)
theorem arg8_eq (V : Valuation τ sig (Elt F)) : after ops V (main_arg8 : DevRef τ sig) = V (main_arg8 : DevRef τ sig) :=
  argFree_ops.after V (by decide)
theorem arg9_eq (V : Valuation τ sig (Elt F)) : after ops V (main_arg9 : DevRef τ sig) = V (main_arg9 : DevRef τ sig) :=
  argFree_ops.after V (by decide)
theorem arg10_eq (V : Valuation τ sig (Elt F)) : after ops V (main_arg10 : DevRef τ sig) = V (main_arg10 : DevRef τ sig) :=
  argFree_ops.after V (by decide)

end Cert.ReferenceIdeal.Value

end
-- ==== Proof.RefDense.lean ====
/-
  The reference's dense stage, entry by entry: each of its two outputs at row `r`, column `j` is the attenuated mean
  (resp. variance) of row `r` of `x`.

  A dense layer's entry is the sum over the contracted axis plus the bias entry; the two activations and the
  attenuation act entry by entry; so each layer of the array form reads, at an entry, the row form of the same layer.
-/
import proofs.«118224_j18047452578190_1_alg».proof.Proof.RefTerms
import proofs.«118224_j18047452578190_1_alg».proof.Proof.Spec
import proofs.«118224_j18047452578190_1_alg».proof.Proof.LibMatmulAt
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

open scoped BigOperators

namespace Cert.ReferenceIdeal.Dense

open Cert.ReferenceIdeal Idealize.ShloMosaic Idealize.ShloMosaic.ValueIdx

/-! ## A plain product and a bias row, read at an entry -/

section Dot
variable {M K N : ℕ} (D : DotDims ⟨2, ![M, K]⟩ ⟨2, ![K, N]⟩ ⟨2, ![M, N]⟩)

open Cert.LibMatmulAt in
/-- `[M, K] · [K, N] → [M, N]` with no batch axis, at row `o` and column `t`: `∑ c, A[o, c] · B[c, t]`. The
    contraction's index set has one axis; the sum over it is re-indexed by that axis's coordinate. -/
theorem dotGeneral_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (sched : HostSchedule) (A : FVec Ideal ⟨2, ![M, K]⟩ φ₁) (B : FVec Ideal ⟨2, ![K, N]⟩ φ₂)
    (o : Fin M) (t : Fin N) :
    FloatOps.dotGeneral D prec sched A B (ix2 o t) = ∑ c : Fin K, A (ix2 o c) * B (ix2 c t) := by
  rw [Ideal.dotGeneral_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Dot

/-- A vector laid as one row and the row copied down `m` rows, read at (r, c), is the vector's entry `c`. -/
theorem bias_at {α : Type} {m n : ℕ} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  refine (broadcastInDim_oneRow_apply h2 _ r c).trans ?_
  refine broadcastInDim_apply ![1] h1 b (ix2 (0 : Fin 1) c) (ix1 c) ?_
  intro a
  match a with
  | ⟨0, _⟩ =>
    show c.val = if n = 1 then 0 else c.val
    split_ifs with hn
    · have := c.isLt; omega
    · rfl

/-! ## The layers at an entry -/

/-- A dense layer into 64 columns, at (r, c). -/
theorem lin64_at (x : (⟨S100000x128, .f32⟩ : BufTy).Contents (Elt Ideal)) (W : (⟨S128x64, .f32⟩ : BufTy).Contents (Elt Ideal))
    (b : (⟨S64, .f32⟩ : BufTy).Contents (Elt Ideal)) (r : Fin 100000) (c : Fin 64) :
    Terms.lin64 (F := Ideal) x W b (ix2 r c) = Spec.lin (Spec.row x r) (Spec.mat W) (Spec.vec b) c := by
  unfold Terms.lin64 Spec.lin
  simp only [Host.dotGeneral]
  rw [addf_apply, dotGeneral_at _ rfl rfl rfl rfl rfl rfl, bias_at]

/-- A dense layer into 40 columns, at (r, c). -/
theorem lin40_at (h : (⟨S100000x64, .f32⟩ : BufTy).Contents (Elt Ideal)) (W : (⟨S64x40, .f32⟩ : BufTy).Contents (Elt Ideal))
    (b : (⟨S40, .f32⟩ : BufTy).Contents (Elt Ideal)) (r : Fin 100000) (c : Fin 40) :
    Terms.lin40 (F := Ideal) h W b (ix2 r c) = Spec.lin (Spec.row h r) (Spec.mat W) (Spec.vec b) c := by
  unfold Terms.lin40 Spec.lin
  simp only [Host.dotGeneral]
  rw [addf_apply, dotGeneral_at _ rfl rfl rfl rfl rfl rfl, bias_at]

/-- `elu` as the array program spells it, on one value: where `y > 0` both selections give `y`; elsewhere the inner
    selection gives `y` and the outer one `1 * (exp y - 1)`. -/
theorem elu_pt (y : EReal) :
    Scalar.select (Ideal.cmp .ogt y Spec.w0) y
      (Spec.w1 * (Ideal.exp (Scalar.select (Ideal.cmp .ogt y Spec.w0) Spec.w0 y) - 1)) = Spec.elu y := by
  unfold Spec.elu
  by_cases h : Ideal.cmp .ogt y Spec.w0 = 1#1
  · rw [h, select_one, select_one]
  · rw [eq_zero_of_ne_one h, select_zero, select_zero, select_zero]
    show Ideal.ofBits .f32 0x3F800000#32 * (Ideal.exp y - 1) = Ideal.exp y - Ideal.ofBits .f32 0x3F800000#32
    rw [Ideal.ofBits_one_f32, one_mul]

theorem elu64_at (y : (⟨S100000x64, .f32⟩ : BufTy).Contents (Elt Ideal)) (r : Fin 100000) (c : Fin 64) :
    Terms.elu64 (F := Ideal) y (ix2 r c) = Spec.elu (y (ix2 r c)) := by
  unfold Terms.elu64
  exact elu_pt (y (ix2 r c))

theorem elu40_at (y : (⟨S100000x40, .f32⟩ : BufTy).Contents (Elt Ideal)) (r : Fin 100000) (c : Fin 40) :
    Terms.elu40 (F := Ideal) y (ix2 r c) = Spec.elu (y (ix2 r c)) := by
  unfold Terms.elu40
  exact elu_pt (y (ix2 r c))

theorem relu64_at (y : (⟨S100000x64, .f32⟩ : BufTy).Contents (Elt Ideal)) (r : Fin 100000) (c : Fin 64) :
    Terms.relu64 (F := Ideal) y (ix2 r c) = Spec.relu (y (ix2 r c)) := rfl

theorem relu40_at (y : (⟨S100000x40, .f32⟩ : BufTy).Contents (Elt Ideal)) (r : Fin 100000) (c : Fin 40) :
    Terms.relu40 (F := Ideal) y (ix2 r c) = Spec.relu (y (ix2 r c)) := rfl

/-- The attenuation at an entry: `exp (-v)`. -/
theorem att_at (v : (⟨S100000x40, .f32⟩ : BufTy).Contents (Elt Ideal)) (i : S100000x40.Idx) :
    Terms.att (F := Ideal) v i = Ideal.exp (-(v i)) := rfl

/-! ## The two channels at an entry -/

/-- Row `r` after the mean channel's first layer. -/
theorem elu64_lin64_row (x : (⟨S100000x128, .f32⟩ : BufTy).Contents (Elt Ideal)) (W : (⟨S128x64, .f32⟩ : BufTy).Contents (Elt Ideal))
    (b : (⟨S64, .f32⟩ : BufTy).Contents (Elt Ideal)) (r : Fin 100000) :
    Spec.row (Terms.elu64 (F := Ideal) (Terms.lin64 x W b)) r
      = fun c => Spec.elu (Spec.lin (Spec.row x r) (Spec.mat W) (Spec.vec b) c) :=
  funext fun c => (elu64_at _ r c).trans (congrArg Spec.elu (lin64_at x W b r c))

/-- Row `r` after the variance channel's first layer. -/
theorem relu64_lin64_row (x : (⟨S100000x128, .f32⟩ : BufTy).Contents (Elt Ideal)) (W : (⟨S128x64, .f32⟩ : BufTy).Contents (Elt Ideal))
    (b : (⟨S64, .f32⟩ : BufTy).Contents (Elt Ideal)) (r : Fin 100000) :
    Spec.row (Terms.relu64 (F := Ideal) (Terms.lin64 x W b)) r
      = fun c => Spec.relu (Spec.lin (Spec.row x r) (Spec.mat W) (Spec.vec b) c) :=
  funext fun c => (relu64_at _ r c).trans (congrArg Spec.relu (lin64_at x W b r c))

/-- A scalar constant copied to every entry reads the constant's value. -/
theorem splat40_at (h : S_.BroadcastsInDim S100000x40 (![] : Fin 0 → Fin S100000x40.rank)) (w : BitVec 32) (i : S100000x40.Idx) :
    broadcastInDim S100000x40 ![] h (constant (F := Ideal) S_ .f32 w) i = Ideal.ofBits .f32 w := rfl

theorem mean1_at (x : (⟨S100000x128, .f32⟩ : BufTy).Contents (Elt Ideal)) (Wm0 : (⟨S128x64, .f32⟩ : BufTy).Contents (Elt Ideal))
    (bm0 : (⟨S64, .f32⟩ : BufTy).Contents (Elt Ideal)) (Wm1 : (⟨S64x40, .f32⟩ : BufTy).Contents (Elt Ideal))
    (bm1 : (⟨S40, .f32⟩ : BufTy).Contents (Elt Ideal)) (r : Fin 100000) (j : Fin 40) :
    Terms.mean1 (F := Ideal) x Wm0 bm0 Wm1 bm1 (ix2 r j)
      = Spec.mean1 (Spec.row x r) (Spec.mat Wm0) (Spec.vec bm0) (Spec.mat Wm1) (Spec.vec bm1) j := by
  unfold Terms.mean1 Spec.mean1
  rw [elu40_at, lin40_at, elu64_lin64_row]

theorem var1_at (x : (⟨S100000x128, .f32⟩ : BufTy).Contents (Elt Ideal)) (Wv0 : (⟨S128x64, .f32⟩ : BufTy).Contents (Elt Ideal))
    (bv0 : (⟨S64, .f32⟩ : BufTy).Contents (Elt Ideal)) (Wv1 : (⟨S64x40, .f32⟩ : BufTy).Contents (Elt Ideal))
    (bv1 : (⟨S40, .f32⟩ : BufTy).Contents (Elt Ideal)) (r : Fin 100000) (j : Fin 40) :
    Terms.var1 (F := Ideal) x Wv0 bv0 Wv1 bv1 (ix2 r j)
      = Spec.var1 (Spec.row x r) (Spec.mat Wv0) (Spec.vec bv0) (Spec.mat Wv1) (Spec.vec bv1) j := by
  unfold Terms.var1 Spec.var1
  rw [addf_apply, relu40_at, lin40_at, relu64_lin64_row, splat40_at]

/-- The attenuated mean, as one array. -/
theorem refMean_eq (x : (⟨S100000x128, .f32⟩ : BufTy).Contents (Elt Ideal)) (Wm0 : (⟨S128x64, .f32⟩ : BufTy).Contents (Elt Ideal)) (bm0 : (⟨S64, .f32⟩ : BufTy).Contents (Elt Ideal))
    (Wv0 : (⟨S128x64, .f32⟩ : BufTy).Contents (Elt Ideal)) (bv0 : (⟨S64, .f32⟩ : BufTy).Contents (Elt Ideal)) (Wm1 : (⟨S64x40, .f32⟩ : BufTy).Contents (Elt Ideal)) (bm1 : (⟨S40, .f32⟩ : BufTy).Contents (Elt Ideal))
    (Wv1 : (⟨S64x40, .f32⟩ : BufTy).Contents (Elt Ideal)) (bv1 : (⟨S40, .f32⟩ : BufTy).Contents (Elt Ideal)) :
    Terms.refMean (F := Ideal) x Wm0 bm0 Wv0 bv0 Wm1 bm1 Wv1 bv1 = Spec.meanPre x Wm0 bm0 Wv0 bv0 Wm1 bm1 Wv1 bv1 := by
  funext i
  obtain ⟨r, j, rfl⟩ : ∃ (r : Fin 100000) (j : Fin 40), i = ix2 r j := ⟨i 0, i 1, eq_ix2 i⟩
  rw [Spec.meanPre_ix2]
  unfold Terms.refMean Spec.meanPreAt Spec.meanRow
  rw [mulf_apply, att_at, mean1_at, var1_at]

/-- The attenuated variance, as one array. -/
theorem refVar_eq (x : (⟨S100000x128, .f32⟩ : BufTy).Contents (Elt Ideal)) (Wv0 : (⟨S128x64, .f32⟩ : BufTy).Contents (Elt Ideal)) (bv0 : (⟨S64, .f32⟩ : BufTy).Contents (Elt Ideal))
    (Wv1 : (⟨S64x40, .f32⟩ : BufTy).Contents (Elt Ideal)) (bv1 : (⟨S40, .f32⟩ : BufTy).Contents (Elt Ideal)) :
    Terms.refVar (F := Ideal) x Wv0 bv0 Wv1 bv1 = Spec.varPre x Wv0 bv0 Wv1 bv1 := by
  funext i
  obtain ⟨r, j, rfl⟩ : ∃ (r : Fin 100000) (j : Fin 40), i = ix2 r j := ⟨i 0, i 1, eq_ix2 i⟩
  rw [Spec.varPre_ix2]
  unfold Terms.refVar Spec.varPreAt Spec.varRow
  rw [mulf_apply, mulf_apply, att_at, var1_at]

end Cert.ReferenceIdeal.Dense

end
-- ==== Proof.RefTail.lean ====
/-
  The reference's final stage, entry by entry: `log_softmax` of `a + n * sqrt b` at row `r`, column `j` is the row-level
  `log_softmax` of the logits of row `r`.

  The program spells `log_softmax z` as `s - log (sum (exp s))` with `s = z - max`, the maximum and the sum taken along each
  row, kept as a column and broadcast back over the row's 40 entries.  Read at entry `(r, j)`: a column broadcast over a row
  reads the column's entry of that row; the row maximum is the fold of `max` from the `-∞` word over the row's 40 entries (and
  the program's outer `max` with that same word changes nothing, the word being the fold's start); the row sum is `0` plus the
  sum over the row's 40 entries.
-/
import proofs.«118224_j18047452578190_1_alg».proof.Proof.RefTerms
import proofs.«118224_j18047452578190_1_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Data.Finset.Fold

noncomputable section

open scoped BigOperators

namespace Cert.ReferenceIdeal.Tail

open Cert.ReferenceIdeal Cert.ReferenceIdeal.Facts₀ Idealize.ShloMosaic Idealize.ShloMosaic.ValueIdx

/-! ## The two broadcasts of a column -/

/-- A vector of 100000 entries laid out as a column `[100000, 1]`: entry `(r, 0)` is entry `r`. -/
theorem column_apply {α : Type} (v : S100000.Idx → α) (r : Fin 100000) :
    broadcastInDim S100000x1 ![0] bcast_S100000_S100000x1_0 v (ix2 r (0 : Fin 1)) = v (ix1 r) := by
  refine broadcastInDim_apply ![0] bcast_S100000_S100000x1_0 v (ix2 r (0 : Fin 1)) (ix1 r) ?_
  intro a
  match a with
  | ⟨0, _⟩ =>
    show r.val = if (100000 : ℕ) = 1 then 0 else r.val
    rw [if_neg (by decide)]

/-- A column `[100000, 1]` broadcast over 40 columns: entry `(r, j)` is the column's entry `(r, 0)`. -/
theorem overRow_apply {α : Type} (y : S100000x1.Idx → α) (r : Fin 100000) (j : Fin 40) :
    broadcastInDim S100000x40 ![0, 1] bcast_S100000x1_S100000x40_0_1 y (ix2 r j) = y (ix2 r (0 : Fin 1)) := by
  refine broadcastInDim_apply ![0, 1] bcast_S100000x1_S100000x40_0_1 y (ix2 r j) (ix2 r (0 : Fin 1)) ?_
  intro a
  match a with
  | ⟨0, _⟩ =>
    show r.val = if (100000 : ℕ) = 1 then 0 else r.val
    rw [if_neg (by decide)]
  | ⟨1, _⟩ =>
    show (0 : ℕ) = if (1 : ℕ) = 1 then 0 else j.val
    rw [if_pos rfl]

/-! ## A row's entries as the reduction names them -/

/-- The reduction along axis 1 of a `[100000, 40]` array, as a shape fact that names the inserted index. -/
theorem reduces_row : S100000x40.Reduces [1] S100000 := by decide

/-- Row `r` with column `k` inserted is the entry `(r, k)`. -/
theorem lift_row (r : Fin 100000) (k : Fin 40) : reduces_row.lift (ix1 r) k = ix2 r k := by
  funext c
  match c with
  | ⟨0, _⟩ => exact Fin.ext rfl
  | ⟨1, _⟩ => exact Fin.ext rfl

/-! ## The row maximum -/

/-- The program's maximum along a row, folded from the `-∞` word: the row's `Spec.rowMax`. -/
theorem reduceMax_apply (z : FVec Ideal S100000x40 .f32) (r : Fin 100000) :
    Host.reduce FloatOps.maximumf z (constant (F := Ideal) S_ .f32 0xFF800000#32) reducesTo_S100000x40_S100000_d1 h_S_ (ix1 r)
      = Spec.rowMax (fun k => z (ix2 r k)) := by
  rw [Host.reduce_eq_fold_single FloatOps.maximumf z _ reducesTo_S100000x40_S100000_d1 reduces_row h_S_ (ix1 r)]
  show (Finset.univ : Finset (Fin 40)).fold max Spec.wNegInf (fun k => z (reduces_row.lift (ix1 r) k)) = _
  unfold Spec.rowMax
  exact congrArg (fun f => (Finset.univ : Finset (Fin 40)).fold max Spec.wNegInf f) (funext fun k => congrArg z (lift_row r k))

/-- The outer `max` with the `-∞` word changes nothing: the word is where the fold starts. -/
theorem guardedMax_apply (z : FVec Ideal S100000x40 .f32) (r : Fin 100000) :
    maximumf (broadcastInDim S100000 ![] bcast_S_S100000 (constant (F := Ideal) S_ .f32 0xFF800000#32))
        (Host.reduce FloatOps.maximumf z (constant (F := Ideal) S_ .f32 0xFF800000#32) reducesTo_S100000x40_S100000_d1 h_S_) (ix1 r)
      = Spec.rowMax (fun k => z (ix2 r k)) := by
  rw [maximumf_apply, reduceMax_apply]
  show max Spec.wNegInf (Spec.rowMax fun k => z (ix2 r k)) = _
  exact max_eq_right ((Finset.le_fold_max _).2 (Or.inl le_rfl))

/-- The shifted logits at `(r, j)`: the entry minus its row's maximum. -/
theorem shifted_apply (z : FVec Ideal S100000x40 .f32) (r : Fin 100000) (j : Fin 40) :
    Terms.shifted (F := Ideal) z (ix2 r j) = z (ix2 r j) - Spec.rowMax (fun k => z (ix2 r k)) := by
  unfold Terms.shifted
  rw [subf_apply, overRow_apply, column_apply, guardedMax_apply]

/-! ## The row sum -/

/-- The program's sum along a row from the zero word: the sum over the row's 40 entries. -/
theorem reduceAdd_apply (s : FVec Ideal S100000x40 .f32) (r : Fin 100000) :
    Host.reduceAdd (F := Ideal) s (constant (F := Ideal) S_ .f32 0x00000000#32) reducesTo_S100000x40_S100000_d1 h_S_ (ix1 r)
      = ∑ k : Fin 40, s (ix2 r k) := by
  show Ideal.hostReduceAdd reducesTo_S100000x40_S100000_d1 s (Ideal.ofBits .f32 0x00000000#32) (ix1 r) = _
  rw [Ideal.hostReduceAdd_single reducesTo_S100000x40_S100000_d1 reduces_row, Ideal.ofBits_zero_f32, zero_add]
  exact Finset.sum_congr rfl fun k _ => congrArg s (lift_row r k)

/-! ## `log_softmax` and the final stage -/

/-- The host's logarithm, entry by entry. -/
theorem hostLog_apply (x : FVec Ideal S100000x1 .f32) (i : S100000x1.Idx) : Host.log x i = Ideal.log (x i) := rfl

/-- The host's exponential, entry by entry. -/
theorem hostExp_apply (x : FVec Ideal S100000x40 .f32) (i : S100000x40.Idx) : Host.exp x i = Ideal.exp (x i) := rfl

/-- `log_softmax` at `(r, j)`: the shifted entry minus the logarithm of the row's sum of exponentials of shifted entries. -/
theorem logSoftmax_apply (z : FVec Ideal S100000x40 .f32) (r : Fin 100000) (j : Fin 40) :
    Terms.logSoftmax (F := Ideal) z (ix2 r j)
      = (z (ix2 r j) - Spec.rowMax (fun k => z (ix2 r k)))
          - Ideal.log (∑ k : Fin 40, Ideal.exp (z (ix2 r k) - Spec.rowMax (fun k => z (ix2 r k)))) := by
  unfold Terms.logSoftmax
  rw [subf_apply, overRow_apply, shifted_apply, hostLog_apply, column_apply, reduceAdd_apply]
  simp only [hostExp_apply, shifted_apply]

/-- The logits at `(r, k)`: the row-level logit of the three rows. -/
theorem logits_apply (a b n : FVec Ideal S100000x40 .f32) (r : Fin 100000) (k : Fin 40) :
    (addf a (mulf n (Host.sqrt b))) (ix2 r k)
      = Spec.logit (fun k => a (ix2 r k)) (fun k => b (ix2 r k)) (fun k => n (ix2 r k)) k := rfl

/-- The final stage, as one array. -/
theorem refTail_eq (a b n : (⟨S100000x40, .f32⟩ : BufTy).Contents (Elt Ideal)) :
    Terms.refTail (F := Ideal) a b n = Spec.combine a b n := by
  funext i
  obtain ⟨r, j, rfl⟩ : ∃ (r : Fin 100000) (j : Fin 40), i = ix2 r j := ⟨i 0, i 1, eq_ix2 i⟩
  rw [Spec.combine_ix2]
  unfold Terms.refTail
  rw [logSoftmax_apply]
  show _ = Spec.lsRow (fun k => a (ix2 r k)) (fun k => b (ix2 r k)) (fun k => n (ix2 r k)) j
  unfold Spec.lsRow
  simp only [logits_apply]

end Cert.ReferenceIdeal.Tail

end
-- ==== Proof.lean ====
/-
  The certificate of the two-layer graph network: the kernel program (a dense Pallas stage, the graph aggregation on
  the host, a final Pallas stage) and the plain reference compute the same array over the extended reals.

  Both programs compute `combine (spmm w0 meanPre) (spmm w1 varPre) noise`:
  * the dense stage's two outputs are, row by row, the attenuated mean and variance of the row's features
    (`Spec.meanPre`, `Spec.varPre`): the kernel computes them on twenty blocks of rows, the reference on all rows at once;
    a matrix product into a zero accumulator and the host's product are the same sums;
  * the graph side (edge list with self loops, degree normalisation, gather and scatter-add) is the same chain of host
    operations in both programs (`Glue.spmm`, `Glue.nw`);
  * the final stage is `log_softmax` of `mean + noise * sqrt var` along each row (`Spec.combine`): the kernel computes it on
    ten blocks of rows.
  No step needs the inputs to be finite: no sum is re-associated across a product.
-/
import proofs.«118224_j18047452578190_1_alg».proof.Defs
import proofs.«118224_j18047452578190_1_alg».proof.Proof.Gen.Kernel
import proofs.«118224_j18047452578190_1_alg».proof.Proof.Gen.Kernel.Skeleton
import proofs.«118224_j18047452578190_1_alg».proof.Proof.Gen.Kernel.Launch
import proofs.«118224_j18047452578190_1_alg».proof.Proof.Gen.Kernel.Points
import proofs.«118224_j18047452578190_1_alg».proof.Proof.Gen.Kernel.Frame
import proofs.«118224_j18047452578190_1_alg».proof.Proof.Gen.KernelIdeal
import proofs.«118224_j18047452578190_1_alg».proof.Proof.Gen.KernelIdeal.Skeleton
import proofs.«118224_j18047452578190_1_alg».proof.Proof.Gen.KernelIdeal.Launch
import proofs.«118224_j18047452578190_1_alg».proof.Proof.Gen.KernelIdeal.Points
import proofs.«118224_j18047452578190_1_alg».proof.Proof.Gen.KernelIdeal.Frame
import proofs.«118224_j18047452578190_1_alg».proof.Proof.Gen.ReferenceIdeal
import proofs.«118224_j18047452578190_1_alg».proof.Proof.Gen.Pre_finite_inputs
import proofs.«118224_j18047452578190_1_alg».proof.Proof.Spec
import proofs.«118224_j18047452578190_1_alg».proof.Proof.Glue
import proofs.«118224_j18047452578190_1_alg».proof.Proof.KernelRun
import proofs.«118224_j18047452578190_1_alg».proof.Proof.KernelHost
import proofs.«118224_j18047452578190_1_alg».proof.Proof.DenseValue
import proofs.«118224_j18047452578190_1_alg».proof.Proof.FinalValue
import proofs.«118224_j18047452578190_1_alg».proof.Proof.RefRun
import proofs.«118224_j18047452578190_1_alg».proof.Proof.RefValue
import proofs.«118224_j18047452578190_1_alg».proof.Proof.RefDense
import proofs.«118224_j18047452578190_1_alg».proof.Proof.RefTail
import Idealize.ShloMosaic.Adequacy
import Idealize.ShloMosaic.Init

noncomputable section

namespace Cert.Proof

open Idealize.ShloMosaic Idealize.ShloMosaic.TcCoe Idealize.SL.Sem

/-- The array both programs end with, as a function of the eleven arguments. -/
def result (x : Spec.A2 100000 128) (e : (⟨Cert.KernelIdeal.S2x1600000, .i32⟩ : BufTy).Contents (Elt Ideal)) (noise : Spec.A2 100000 40)
    (Wm0 : Spec.A2 128 64) (bm0 : Spec.A1 64) (Wv0 : Spec.A2 128 64) (bv0 : Spec.A1 64) (Wm1 : Spec.A2 64 40) (bm1 : Spec.A1 40)
    (Wv1 : Spec.A2 64 40) (bv1 : Spec.A1 40) : Spec.A2 100000 40 :=
  Spec.combine
    (Glue.spmm (Glue.rowI e) (Glue.colI e) (Glue.nw Glue.pHalf (Glue.rowI e) (Glue.colI e)) (Spec.meanPre x Wm0 bm0 Wv0 bv0 Wm1 bm1 Wv1 bv1))
    (Glue.spmm (Glue.rowI e) (Glue.colI e) (Glue.nw Glue.pOne (Glue.rowI e) (Glue.colI e)) (Spec.varPre x Wv0 bv0 Wv1 bv1))
    noise

section Kernel

open Cert.KernelIdeal Cert.KernelIdeal.Gen

variable (m : (ℓ : Loc nD τ sig) → Buf (Elt Ideal) ℓ) (ρ : Dev nD → PrngReg)

/-- The kernel program's result buffer at the end of its run. -/
theorem kernel_result (c : Dev nD) :
    W8 m ρ c (Proc.devRef .tc main_v82)
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  refine (W8_arr m ρ c 3).trans ?_
  rw [Cert.KernelIdeal.Final.final3 (V7 m ρ) c, Cert.KernelIdeal.Host.v68_eq m ρ c, Cert.KernelIdeal.Host.v81_eq m ρ c,
    Cert.KernelIdeal.Host.V7_arg2 m ρ c, Cert.KernelIdeal.Dense.final9 (V5 m ρ) c, Cert.KernelIdeal.Dense.final10 (V5 m ρ) c,
    Cert.KernelIdeal.Host.V5_arg0 m ρ c, Cert.KernelIdeal.Host.V5_arg3 m ρ c, Cert.KernelIdeal.Host.V5_arg4 m ρ c,
    Cert.KernelIdeal.Host.V5_arg5 m ρ c, Cert.KernelIdeal.Host.V5_arg6 m ρ c, Cert.KernelIdeal.Host.V5_arg7 m ρ c,
    Cert.KernelIdeal.Host.V5_arg8 m ρ c, Cert.KernelIdeal.Host.V5_arg9 m ρ c, Cert.KernelIdeal.Host.V5_arg10 m ρ c]
  rfl

end Kernel

section Reference

open Cert.ReferenceIdeal Cert.ReferenceIdeal.Run Idealize.ShloMosaic.StableHlo

/-- The reference's result buffer after all its operations, from any contents. -/
theorem reference_result (V : Valuation τ sig (Elt Ideal)) :
    after ops V (main_v111 : DevRef τ sig)
      = result (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) := by
  rw [Cert.ReferenceIdeal.Value.out_eq V, Cert.ReferenceIdeal.Tail.refTail_eq, Cert.ReferenceIdeal.Dense.refMean_eq,
    Cert.ReferenceIdeal.Dense.refVar_eq]
  rfl

/-- The reference's run, read: the result at `result` of the launch contents, every argument as launched. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v111)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c =>
    ⟨(h c main_v111).trans (reference_result (launchContents m c)),
     (h c main_arg0).trans (Cert.ReferenceIdeal.Value.arg0_eq (launchContents m c)),
     (h c main_arg1).trans (Cert.ReferenceIdeal.Value.arg1_eq (launchContents m c)),
     (h c main_arg2).trans (Cert.ReferenceIdeal.Value.arg2_eq (launchContents m c)),
     (h c main_arg3).trans (Cert.ReferenceIdeal.Value.arg3_eq (launchContents m c)),
     (h c main_arg4).trans (Cert.ReferenceIdeal.Value.arg4_eq (launchContents m c)),
     (h c main_arg5).trans (Cert.ReferenceIdeal.Value.arg5_eq (launchContents m c)),
     (h c main_arg6).trans (Cert.ReferenceIdeal.Value.arg6_eq (launchContents m c)),
     (h c main_arg7).trans (Cert.ReferenceIdeal.Value.arg7_eq (launchContents m c)),
     (h c main_arg8).trans (Cert.ReferenceIdeal.Value.arg8_eq (launchContents m c)),
     (h c main_arg9).trans (Cert.ReferenceIdeal.Value.arg9_eq (launchContents m c)),
     (h c main_arg10).trans (Cert.ReferenceIdeal.Value.arg10_eq (launchContents m c))⟩)
    (run_main (F := Ideal) m ρ)

end Reference

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (reference_run m ρ),
  trivial,
  fun m ρ m' ρ' _ hagree =>
    ⟨fun c => result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
     (θ_run Cert.KernelIdeal.defs _ _).mono (fun _ h c => ⟨(h c).1.trans (kernel_result m ρ c), (h c).2⟩)
       (Cert.KernelIdeal.Run.run_result (F := Ideal) m ρ),
     (θ_run Cert.ReferenceIdeal.defs _ _).mono (fun _ h c => ⟨by
         rw [(h c).1, (hagree c).1, (hagree c).2.1, (hagree c).2.2.1, (hagree c).2.2.2.1, (hagree c).2.2.2.2.1, (hagree c).2.2.2.2.2.1,
           (hagree c).2.2.2.2.2.2.1, (hagree c).2.2.2.2.2.2.2.1, (hagree c).2.2.2.2.2.2.2.2.1, (hagree c).2.2.2.2.2.2.2.2.2.1,
           (hagree c).2.2.2.2.2.2.2.2.2.2], (h c).2⟩)
       (reference_run m' ρ')⟩⟩

end Cert.Proof

end
